-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v48)) (v3 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x72 : Shape := ⟨2, ![500000, 72]⟩
abbrev S2x768x768x1 : Shape := ⟨4, ![2, 768, 768, 1]⟩
abbrev S2x768x768x1x3 : Shape := ⟨5, ![2, 768, 768, 1, 3]⟩
abbrev S3x768x768 : Shape := ⟨3, ![3, 768, 768]⟩
abbrev S200000x3 : Shape := ⟨2, ![200000, 3]⟩
abbrev S_ : Shape := ⟨0, ![]⟩

class Facts : Prop where
  bcast_S_S500000x72 : S_.BroadcastsInDim S500000x72 (![] : Fin 0 → Fin S500000x72.rank)
  reducesTo_S500000x72_S_d0_1 : S500000x72.ReducesTo [0, 1] S_
  h_S_ : 0 < S_.numel
  bcast_S_S2x768x768x1 : S_.BroadcastsInDim S2x768x768x1 (![] : Fin 0 → Fin S2x768x768x1.rank)
  reducesTo_S2x768x768x1_S_d0_1_2_3 : S2x768x768x1.ReducesTo [0, 1, 2, 3] S_
  bcast_S_S2x768x768x1x3 : S_.BroadcastsInDim S2x768x768x1x3 (![] : Fin 0 → Fin S2x768x768x1x3.rank)
  reducesTo_S2x768x768x1x3_S_d0_1_2_3_4 : S2x768x768x1x3.ReducesTo [0, 1, 2, 3, 4] S_
  bcast_S_S3x768x768 : S_.BroadcastsInDim S3x768x768 (![] : Fin 0 → Fin S3x768x768.rank)
  reducesTo_S3x768x768_S_d0_1_2 : S3x768x768.ReducesTo [0, 1, 2] S_
  bcast_S_S200000x3 : S_.BroadcastsInDim S200000x3 (![] : Fin 0 → Fin S200000x3.rank)
  reducesTo_S200000x3_S_d0_1 : S200000x3.ReducesTo [0, 1] S_

variable [Facts]

def fn_part1 {F : FTy → Type} [FloatOps F] (main_arg4 : IVec S200000x3 32) (main_v13 : IVec S_ 1) (main_v16 : IVec S3x768x768 1) : IVec S_ 1 :=
  let main_c_5 : IVec S_ 1 := constantI S_ 1 1#1
  let main_v17 : IVec S_ 1 := (fun x v => Host.reduce IntOp.andi x v reducesTo_S3x768x768_S_d0_1_2 h_S_) main_v16 main_c_5
  let main_v18 : IVec S_ 1 := andi main_v13 main_v17
  let main_c_6 : IVec S_ 32 := constantI S_ 32 0#32
  let main_v19 : IVec S200000x3 32 := broadcastInDim S200000x3 ![] bcast_S_S200000x3 main_c_6
  let main_v20 : IVec S200000x3 1 := cmpi .sge main_arg4 main_v19
  let main_c_7 : IVec S_ 1 := constantI S_ 1 1#1
  let main_v21 : IVec S_ 1 := (fun x v => Host.reduce IntOp.andi x v reducesTo_S200000x3_S_d0_1 h_S_) main_v20 main_c_7
  let main_v22 : IVec S_ 1 := andi main_v18 main_v21
  main_v22

def fn {F : FTy → Type} [FloatOps F] (main_arg0 : FVec F S500000x72 .f32) (main_arg1 : FVec F S2x768x768x1 .f32) (main_arg2 : FVec F S2x768x768x1x3 .f32) (main_arg3 : FVec F S3x768x768 .f32) (main_arg4 : IVec S200000x3 32) (main_arg5 : IVec S2x768x768x1 32) (main_arg6 : IVec S2x768x768x1 32) : IVec S_ 1 :=
  let main_v0 : FVec F S500000x72 .f32 := Host.absf main_arg0
  let main_cst : FVec F S_ .f32 := constant S_ .f32 0x7F800000#32
  let main_v1 : FVec F S500000x72 .f32 := broadcastInDim S500000x72 ![] bcast_S_S500000x72 main_cst
  let main_v2 : IVec S500000x72 1 := cmpf .olt main_v0 main_v1
  let main_c : IVec S_ 1 := constantI S_ 1 1#1
  let main_v3 : IVec S_ 1 := (fun x v => Host.reduce IntOp.andi x v reducesTo_S500000x72_S_d0_1 h_S_) main_v2 main_c
  let main_v4 : FVec F S2x768x768x1 .f32 := Host.absf main_arg1
  let main_cst_0 : FVec F S_ .f32 := constant S_ .f32 0x7F800000#32
  let main_v5 : FVec F S2x768x768x1 .f32 := broadcastInDim S2x768x768x1 ![] bcast_S_S2x768x768x1 main_cst_0
  let main_v6 : IVec S2x768x768x1 1 := cmpf .olt main_v4 main_v5
  let main_c_1 : IVec S_ 1 := constantI S_ 1 1#1
  let main_v7 : IVec S_ 1 := (fun x v => Host.reduce IntOp.andi x v reducesTo_S2x768x768x1_S_d0_1_2_3 h_S_) main_v6 main_c_1
  let main_v8 : IVec S_ 1 := andi main_v3 main_v7
  let main_v9 : FVec F S2x768x768x1x3 .f32 := Host.absf main_arg2
  let main_cst_2 : FVec F S_ .f32 := constant S_ .f32 0x7F800000#32
  let main_v10 : FVec F S2x768x768x1x3 .f32 := broadcastInDim S2x768x768x1x3 ![] bcast_S_S2x768x768x1x3 main_cst_2
  let main_v11 : IVec S2x768x768x1x3 1 := cmpf .olt main_v9 main_v10
  let main_c_3 : IVec S_ 1 := constantI S_ 1 1#1
  let main_v12 : IVec S_ 1 := (fun x v => Host.reduce IntOp.andi x v reducesTo_S2x768x768x1x3_S_d0_1_2_3_4 h_S_) main_v11 main_c_3
  let main_v13 : IVec S_ 1 := andi main_v8 main_v12
  let main_v14 : FVec F S3x768x768 .f32 := Host.absf main_arg3
  let main_cst_4 : FVec F S_ .f32 := constant S_ .f32 0x7F800000#32
  let main_v15 : FVec F S3x768x768 .f32 := broadcastInDim S3x768x768 ![] bcast_S_S3x768x768 main_cst_4
  let main_v16 : IVec S3x768x768 1 := cmpf .olt main_v14 main_v15
  fn_part1 (F := F) main_arg4 main_v13 main_v16
-- ==== Kernel.lean ====
abbrev S500000x72 : Shape := ⟨2, ![500000, 72]⟩
abbrev S2x768x768x1 : Shape := ⟨4, ![2, 768, 768, 1]⟩
abbrev S2x768x768x1x3 : Shape := ⟨5, ![2, 768, 768, 1, 3]⟩
abbrev S3x768x768 : Shape := ⟨3, ![3, 768, 768]⟩
abbrev S200000x3 : Shape := ⟨2, ![200000, 3]⟩
abbrev S2x768x768 : Shape := ⟨3, ![2, 768, 768]⟩
abbrev S_ : Shape := ⟨0, ![]⟩
abbrev S1179648 : Shape := ⟨1, ![1179648]⟩
abbrev S1179648x1 : Shape := ⟨2, ![1179648, 1]⟩
abbrev S1179648x72 : Shape := ⟨2, ![1179648, 72]⟩
abbrev S2x768x768x72 : Shape := ⟨4, ![2, 768, 768, 72]⟩
abbrev S1179648x3 : Shape := ⟨2, ![1179648, 3]⟩
abbrev S2x768x768x3 : Shape := ⟨4, ![2, 768, 768, 3]⟩
abbrev S768x768x3 : Shape := ⟨3, ![768, 768, 3]⟩
abbrev S2x768x768x16 : Shape := ⟨4, ![2, 768, 768, 16]⟩
abbrev S1x2x768x72 : Shape := ⟨4, ![1, 2, 768, 72]⟩
abbrev S1x2x768x3 : Shape := ⟨4, ![1, 2, 768, 3]⟩
abbrev S1x2x768x1 : Shape := ⟨4, ![1, 2, 768, 1]⟩
abbrev S2x768x3 : Shape := ⟨3, ![2, 768, 3]⟩
abbrev S1x2x768x16 : Shape := ⟨4, ![1, 2, 768, 16]⟩
abbrev S2x768x1 : Shape := ⟨3, ![2, 768, 1]⟩
abbrev S1x2x768x9 : Shape := ⟨4, ![1, 2, 768, 9]⟩
abbrev S2x768x9 : Shape := ⟨3, ![2, 768, 9]⟩
abbrev S1x768x768x16 : Shape := ⟨4, ![1, 768, 768, 16]⟩
abbrev S1x768x768x1 : Shape := ⟨4, ![1, 768, 768, 1]⟩

abbrev nBuf : Space → Nat
  | .hbm => 70
  | .vmem => 20
  | .smem => 0
  | _ => 0

abbrev bufTy : (tb : Table) → Fin (tcTables nBuf tb) → BufTy
  | .hbm, ⟨0, _⟩ => ⟨S500000x72, .f32⟩
  | .hbm, ⟨1, _⟩ => ⟨S2x768x768x1, .f32⟩
  | .hbm, ⟨2, _⟩ => ⟨S2x768x768x1x3, .f32⟩
  | .hbm, ⟨3, _⟩ => ⟨S3x768x768, .f32⟩
  | .hbm, ⟨4, _⟩ => ⟨S200000x3, .i32⟩
  | .hbm, ⟨5, _⟩ => ⟨S2x768x768x1, .i32⟩
  | .hbm, ⟨6, _⟩ => ⟨S2x768x768x1, .i32⟩
  | .hbm, ⟨7, _⟩ => ⟨S2x768x768, .i32⟩
  | .hbm, ⟨8, _⟩ => ⟨S_, .i32⟩
  | .hbm, ⟨9, _⟩ => ⟨S2x768x768, .i32⟩
  | .hbm, ⟨10, _⟩ => ⟨S2x768x768, .i32⟩
  | .hbm, ⟨11, _⟩ => ⟨S2x768x768, .i32⟩
  | .hbm, ⟨12, _⟩ => ⟨S_, .i32⟩
  | .hbm, ⟨13, _⟩ => ⟨S2x768x768, .i32⟩
  | .hbm, ⟨14, _⟩ => ⟨S2x768x768, .i32⟩
  | .hbm, ⟨15, _⟩ => ⟨S1179648, .i32⟩
  | .hbm, ⟨16, _⟩ => ⟨S1179648x1, .i32⟩
  | .hbm, ⟨17, _⟩ => ⟨S1179648x72, .f32⟩
  | .hbm, ⟨18, _⟩ => ⟨S2x768x768x72, .f32⟩
  | .hbm, ⟨19, _⟩ => ⟨S1179648, .i32⟩
  | .hbm, ⟨20, _⟩ => ⟨S1179648x1, .i32⟩
  | .hbm, ⟨21, _⟩ => ⟨S1179648x3, .i32⟩
  | .hbm, ⟨22, _⟩ => ⟨S2x768x768x3, .i32⟩
  | .hbm, ⟨23, _⟩ => ⟨S2x768x768x1, .i32⟩
  | .hbm, ⟨24, _⟩ => ⟨S2x768x768, .i32⟩
  | .hbm, ⟨25, _⟩ => ⟨S1179648, .i32⟩
  | .hbm, ⟨26, _⟩ => ⟨S1179648x1, .i32⟩
  | .hbm, ⟨27, _⟩ => ⟨S1179648x72, .f32⟩
  | .hbm, ⟨28, _⟩ => ⟨S2x768x768x72, .f32⟩
  | .hbm, ⟨29, _⟩ => ⟨S2x768x768x1, .i32⟩
  | .hbm, ⟨30, _⟩ => ⟨S2x768x768, .i32⟩
  | .hbm, ⟨31, _⟩ => ⟨S1179648, .i32⟩
  | .hbm, ⟨32, _⟩ => ⟨S1179648x1, .i32⟩
  | .hbm, ⟨33, _⟩ => ⟨S1179648x72, .f32⟩
  | .hbm, ⟨34, _⟩ => ⟨S2x768x768x72, .f32⟩
  | .hbm, ⟨35, _⟩ => ⟨S2x768x768x1, .i32⟩
  | .hbm, ⟨36, _⟩ => ⟨S2x768x768, .i32⟩
  | .hbm, ⟨37, _⟩ => ⟨S1179648, .i32⟩
  | .hbm, ⟨38, _⟩ => ⟨S1179648x1, .i32⟩
  | .hbm, ⟨39, _⟩ => ⟨S1179648x72, .f32⟩
  | .hbm, ⟨40, _⟩ => ⟨S2x768x768x72, .f32⟩
  | .hbm, ⟨41, _⟩ => ⟨S_, .i32⟩
  | .hbm, ⟨42, _⟩ => ⟨S2x768x768x1, .i32⟩
  | .hbm, ⟨43, _⟩ => ⟨S2x768x768x1, .i1⟩
  | .hbm, ⟨44, _⟩ => ⟨S2x768x768x1, .f32⟩
  | .hbm, ⟨45, _⟩ => ⟨S_, .i32⟩
  | .hbm, ⟨46, _⟩ => ⟨S2x768x768x1, .i32⟩
  | .hbm, ⟨47, _⟩ => ⟨S2x768x768x1, .i1⟩
  | .hbm, ⟨48, _⟩ => ⟨S2x768x768x1, .f32⟩
  | .hbm, ⟨49, _⟩ => ⟨S_, .f32⟩
  | .hbm, ⟨50, _⟩ => ⟨S2x768x768x1, .f32⟩
  | .hbm, ⟨51, _⟩ => ⟨S2x768x768x1, .f32⟩
  | .hbm, ⟨52, _⟩ => ⟨S_, .f32⟩
  | .hbm, ⟨53, _⟩ => ⟨S2x768x768x1, .f32⟩
  | .hbm, ⟨54, _⟩ => ⟨S2x768x768x1, .f32⟩
  | .hbm, ⟨55, _⟩ => ⟨S2x768x768x3, .f32⟩
  | .hbm, ⟨56, _⟩ => ⟨S3x768x768, .f32⟩
  | .hbm, ⟨57, _⟩ => ⟨S768x768x3, .f32⟩
  | .hbm, ⟨58, _⟩ => ⟨S2x768x768x16, .f32⟩
  | .hbm, ⟨59, _⟩ => ⟨S_, .i32⟩
  | .hbm, ⟨60, _⟩ => ⟨S2x768x768x1, .i32⟩
  | .hbm, ⟨61, _⟩ => ⟨S2x768x768x1, .i1⟩
  | .hbm, ⟨62, _⟩ => ⟨S_, .i32⟩
  | .hbm, ⟨63, _⟩ => ⟨S2x768x768x1, .i32⟩
  | .hbm, ⟨64, _⟩ => ⟨S2x768x768x1, .i1⟩
  | .hbm, ⟨65, _⟩ => ⟨S2x768x768x1, .i1⟩
  | .hbm, ⟨66, _⟩ => ⟨S1x768x768x16, .f32⟩
  | .hbm, ⟨67, _⟩ => ⟨S1x768x768x16, .f32⟩
  | .hbm, ⟨68, _⟩ => ⟨S1x768x768x1, .i1⟩
  | .hbm, ⟨69, _⟩ => ⟨S1x768x768x1, .i1⟩
  | .local _ .vmem, ⟨0, _⟩ => ⟨S1x2x768x72, .f32⟩
  | .local _ .vmem, ⟨1, _⟩ => ⟨S1x2x768x72, .f32⟩
  | .local _ .vmem, ⟨2, _⟩ => ⟨S1x2x768x72, .f32⟩
  | .local _ .vmem, ⟨3, _⟩ => ⟨S1x2x768x72, .f32⟩
  | .local _ .vmem, ⟨4, _⟩ => ⟨S1x2x768x72, .f32⟩
  | .local _ .vmem, ⟨5, _⟩ => ⟨S1x2x768x72, .f32⟩
  | .local _ .vmem, ⟨6, _⟩ => ⟨S1x2x768x72, .f32⟩
  | .local _ .vmem, ⟨7, _⟩ => ⟨S1x2x768x72, .f32⟩
  | .local _ .vmem, ⟨8, _⟩ => ⟨S1x2x768x3, .f32⟩
  | .local _ .vmem, ⟨9, _⟩ => ⟨S1x2x768x3, .f32⟩
  | .local _ .vmem, ⟨10, _⟩ => ⟨S1x2x768x1, .f32⟩
  | .local _ .vmem, ⟨11, _⟩ => ⟨S1x2x768x1, .f32⟩
  | .local _ .vmem, ⟨12, _⟩ => ⟨S1x2x768x1, .f32⟩
  | .local _ .vmem, ⟨13, _⟩ => ⟨S1x2x768x1, .f32⟩
  | .local _ .vmem, ⟨14, _⟩ => ⟨S1x2x768x1, .f32⟩
  | .local _ .vmem, ⟨15, _⟩ => ⟨S1x2x768x1, .f32⟩
  | .local _ .vmem, ⟨16, _⟩ => ⟨S2x768x3, .f32⟩
  | .local _ .vmem, ⟨17, _⟩ => ⟨S2x768x3, .f32⟩
  | .local _ .vmem, ⟨18, _⟩ => ⟨S1x2x768x16, .f32⟩
  | .local _ .vmem, ⟨19, _⟩ => ⟨S1x2x768x16, .f32⟩
  | _, _ => ⟨S500000x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call3_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call4_v0 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 384], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x768x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x768x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x768x72 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x768x72 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x768x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x768x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x768x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x768x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x768x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2x768x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S2x768x768x1_S2x768x768 : S2x768x768x1.ShapeCasts S2x768x768
  bcast_S_S2x768x768 : S_.BroadcastsInDim S2x768x768 (![] : Fin 0 → Fin S2x768x768.rank)
  shapeCasts_S2x768x768_S1179648 : S2x768x768.ShapeCasts S1179648
  bcast_S1179648_S1179648x1_0 : S1179648.BroadcastsInDim S1179648x1 (![0] : Fin 1 → Fin S1179648x1.rank)
  shapeCasts_S1179648x72_S2x768x768x72 : S1179648x72.ShapeCasts S2x768x768x72
  shapeCasts_S1179648x3_S2x768x768x3 : S1179648x3.ShapeCasts S2x768x768x3
  slices_S2x768x768x3_S2x768x768x1_0_0_0_0 : S2x768x768x3.Slices ![0, 0, 0, 0] S2x768x768x1
  slices_S2x768x768x3_S2x768x768x1_0_0_0_1 : S2x768x768x3.Slices ![0, 0, 0, 1] S2x768x768x1
  slices_S2x768x768x3_S2x768x768x1_0_0_0_2 : S2x768x768x3.Slices ![0, 0, 0, 2] S2x768x768x1
  bcast_S_S2x768x768x1 : S_.BroadcastsInDim S2x768x768x1 (![] : Fin 0 → Fin S2x768x768x1.rank)
  shapeCasts_S2x768x768x1x3_S2x768x768x3 : S2x768x768x1x3.ShapeCasts S2x768x768x3
  transposes_S3x768x768_S768x768x3_1_2_0 : S3x768x768.Transposes [1, 2, 0] S768x768x3
  inb_S1x2x768x1_S1x2x768x1_0_0_0_0 : ∀ a, (![0, 0, 0, 0] : Fin 4 → Nat) a + S1x2x768x1.size a ≤ S1x2x768x1.size a
  h_S1x2x768x1 : 0 < S1x2x768x1.numel
  shapeCasts_S1x2x768x1_S2x768x1 : S1x2x768x1.ShapeCasts S2x768x1
  inb_S1x2x768x3_S1x2x768x3_0_0_0_0 : ∀ a, (![0, 0, 0, 0] : Fin 4 → Nat) a + S1x2x768x3.size a ≤ S1x2x768x3.size a
  h_S1x2x768x3 : 0 < S1x2x768x3.numel
  shapeCasts_S1x2x768x3_S2x768x3 : S1x2x768x3.ShapeCasts S2x768x3
  inb_S2x768x3_S2x768x3_0_0_0 : ∀ a, (![0, 0, 0] : Fin 3 → Nat) a + S2x768x3.size a ≤ S2x768x3.size a
  h_S2x768x3 : 0 < S2x768x3.numel
  shapeCasts_S2x768x3_S2x768x3 : S2x768x3.ShapeCasts S2x768x3
  slices_S2x768x3_o0_0_0_S2x768x1 : S2x768x3.Slices ![0, 0, 0] S2x768x1
  slices_S2x768x3_o0_0_1_S2x768x1 : S2x768x3.Slices ![0, 0, 1] S2x768x1
  slices_S2x768x3_o0_0_2_S2x768x1 : S2x768x3.Slices ![0, 0, 2] S2x768x1
  inb_S1x2x768x72_S1x2x768x9_0_0_0_0 : ∀ a, (![0, 0, 0, 0] : Fin 4 → Nat) a + S1x2x768x9.size a ≤ S1x2x768x72.size a
  h_S1x2x768x9 : 0 < S1x2x768x9.numel
  shapeCasts_S1x2x768x9_S2x768x9 : S1x2x768x9.ShapeCasts S2x768x9
  broadcasts_S2x768x1_S2x768x9 : S2x768x1.Broadcasts S2x768x9
  slices_S2x768x9_o0_0_0_S2x768x1 : S2x768x9.Slices ![0, 0, 0] S2x768x1
  slices_S2x768x9_o0_0_1_S2x768x1 : S2x768x9.Slices ![0, 0, 1] S2x768x1
  slices_S2x768x9_o0_0_2_S2x768x1 : S2x768x9.Slices ![0, 0, 2] S2x768x1
  slices_S2x768x9_o0_0_3_S2x768x1 : S2x768x9.Slices ![0, 0, 3] S2x768x1
  slices_S2x768x9_o0_0_4_S2x768x1 : S2x768x9.Slices ![0, 0, 4] S2x768x1
  slices_S2x768x9_o0_0_5_S2x768x1 : S2x768x9.Slices ![0, 0, 5] S2x768x1
  slices_S2x768x9_o0_0_6_S2x768x1 : S2x768x9.Slices ![0, 0, 6] S2x768x1
  slices_S2x768x9_o0_0_7_S2x768x1 : S2x768x9.Slices ![0, 0, 7] S2x768x1
  slices_S2x768x9_o0_0_8_S2x768x1 : S2x768x9.Slices ![0, 0, 8] S2x768x1
  inb_S1x2x768x16_S1x2x768x1_0_0_0_0 : ∀ a, (![0, 0, 0, 0] : Fin 4 → Nat) a + S1x2x768x1.size a ≤ S1x2x768x16.size a
  shapeCasts_S2x768x1_S1x2x768x1 : S2x768x1.ShapeCasts S1x2x768x1
  inb_S1x2x768x72_S1x2x768x9_0_0_0_9 : ∀ a, (![0, 0, 0, 9] : Fin 4 → Nat) a + S1x2x768x9.size a ≤ S1x2x768x72.size a
  inb_S1x2x768x16_S1x2x768x1_0_0_0_1 : ∀ a, (![0, 0, 0, 1] : Fin 4 → Nat) a + S1x2x768x1.size a ≤ S1x2x768x16.size a
  inb_S1x2x768x72_S1x2x768x9_0_0_0_18 : ∀ a, (![0, 0, 0, 18] : Fin 4 → Nat) a + S1x2x768x9.size a ≤ S1x2x768x72.size a
  inb_S1x2x768x16_S1x2x768x1_0_0_0_2 : ∀ a, (![0, 0, 0, 2] : Fin 4 → Nat) a + S1x2x768x1.size a ≤ S1x2x768x16.size a
  inb_S1x2x768x72_S1x2x768x9_0_0_0_27 : ∀ a, (![0, 0, 0, 27] : Fin 4 → Nat) a + S1x2x768x9.size a ≤ S1x2x768x72.size a
  inb_S1x2x768x16_S1x2x768x1_0_0_0_3 : ∀ a, (![0, 0, 0, 3] : Fin 4 → Nat) a + S1x2x768x1.size a ≤ S1x2x768x16.size a
  inb_S1x2x768x72_S1x2x768x9_0_0_0_36 : ∀ a, (![0, 0, 0, 36] : Fin 4 → Nat) a + S1x2x768x9.size a ≤ S1x2x768x72.size a
  inb_S1x2x768x16_S1x2x768x1_0_0_0_4 : ∀ a, (![0, 0, 0, 4] : Fin 4 → Nat) a + S1x2x768x1.size a ≤ S1x2x768x16.size a
  inb_S1x2x768x72_S1x2x768x9_0_0_0_45 : ∀ a, (![0, 0, 0, 45] : Fin 4 → Nat) a + S1x2x768x9.size a ≤ S1x2x768x72.size a
  inb_S1x2x768x16_S1x2x768x1_0_0_0_5 : ∀ a, (![0, 0, 0, 5] : Fin 4 → Nat) a + S1x2x768x1.size a ≤ S1x2x768x16.size a
  inb_S1x2x768x72_S1x2x768x9_0_0_0_54 : ∀ a, (![0, 0, 0, 54] : Fin 4 → Nat) a + S1x2x768x9.size a ≤ S1x2x768x72.size a
  inb_S1x2x768x16_S1x2x768x1_0_0_0_6 : ∀ a, (![0, 0, 0, 6] : Fin 4 → Nat) a + S1x2x768x1.size a ≤ S1x2x768x16.size a
  inb_S1x2x768x72_S1x2x768x9_0_0_0_63 : ∀ a, (![0, 0, 0, 63] : Fin 4 → Nat) a + S1x2x768x9.size a ≤ S1x2x768x72.size a
  inb_S1x2x768x16_S1x2x768x1_0_0_0_7 : ∀ a, (![0, 0, 0, 7] : Fin 4 → Nat) a + S1x2x768x1.size a ≤ S1x2x768x16.size a
  inb_S1x2x768x16_S1x2x768x1_0_0_0_8 : ∀ a, (![0, 0, 0, 8] : Fin 4 → Nat) a + S1x2x768x1.size a ≤ S1x2x768x16.size a
  inb_S1x2x768x16_S1x2x768x1_0_0_0_9 : ∀ a, (![0, 0, 0, 9] : Fin 4 → Nat) a + S1x2x768x1.size a ≤ S1x2x768x16.size a
  inb_S1x2x768x16_S1x2x768x1_0_0_0_10 : ∀ a, (![0, 0, 0, 10] : Fin 4 → Nat) a + S1x2x768x1.size a ≤ S1x2x768x16.size a
  inb_S1x2x768x16_S1x2x768x1_0_0_0_11 : ∀ a, (![0, 0, 0, 11] : Fin 4 → Nat) a + S1x2x768x1.size a ≤ S1x2x768x16.size a
  inb_S1x2x768x16_S1x2x768x1_0_0_0_12 : ∀ a, (![0, 0, 0, 12] : Fin 4 → Nat) a + S1x2x768x1.size a ≤ S1x2x768x16.size a
  inb_S1x2x768x16_S1x2x768x1_0_0_0_13 : ∀ a, (![0, 0, 0, 13] : Fin 4 → Nat) a + S1x2x768x1.size a ≤ S1x2x768x16.size a
  inb_S1x2x768x16_S1x2x768x1_0_0_0_14 : ∀ a, (![0, 0, 0, 14] : Fin 4 → Nat) a + S1x2x768x1.size a ≤ S1x2x768x16.size a
  inb_S1x2x768x16_S1x2x768x1_0_0_0_15 : ∀ a, (![0, 0, 0, 15] : Fin 4 → Nat) a + S1x2x768x1.size a ≤ S1x2x768x16.size a
  slices_S2x768x768x16_S1x768x768x16_0_0_0_0 : S2x768x768x16.Slices ![0, 0, 0, 0] S1x768x768x16
  slices_S2x768x768x16_S1x768x768x16_1_0_0_0 : S2x768x768x16.Slices ![1, 0, 0, 0] S1x768x768x16
  slices_S2x768x768x1_S1x768x768x1_0_0_0_0 : S2x768x768x1.Slices ![0, 0, 0, 0] S1x768x768x1
  slices_S2x768x768x1_S1x768x768x1_1_0_0_0 : S2x768x768x1.Slices ![1, 0, 0, 0] S1x768x768x1
  gather_S500000x72_S1179648x1_S1179648x72_1_0_n_n_0_1_172_wf : GatherDims.WF S500000x72 S1179648x1 S1179648x72 [1] [0] [] [0] [] 1 ![1, 72]
  gather_S200000x3_S1179648x1_S1179648x3_1_0_n_n_0_1_13_wf : GatherDims.WF S200000x3 S1179648x1 S1179648x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x768x72.size a ≤ S2x768x768x72.size a
  hwx0_0 : ∀ i : grid0.Coords, EltTy.bits .f32 = 32 ∨ (Rect.block (s := S2x768x768x72) S1x2x768x72.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x768x72.size a ≤ S2x768x768x72.size a
  hwx0_1 : ∀ i : grid0.Coords, EltTy.bits .f32 = 32 ∨ (Rect.block (s := S2x768x768x72) S1x2x768x72.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x768x72.size a ≤ S2x768x768x72.size a
  hwx0_2 : ∀ i : grid0.Coords, EltTy.bits .f32 = 32 ∨ (Rect.block (s := S2x768x768x72) S1x2x768x72.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x768x72.size a ≤ S2x768x768x72.size a
  hwx0_3 : ∀ i : grid0.Coords, EltTy.bits .f32 = 32 ∨ (Rect.block (s := S2x768x768x72) S1x2x768x72.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x768x3.size a ≤ S2x768x768x3.size a
  hwx0_4 : ∀ i : grid0.Coords, EltTy.bits .f32 = 32 ∨ (Rect.block (s := S2x768x768x3) S1x2x768x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x768x1.size a ≤ S2x768x768x1.size a
  hwx0_5 : ∀ i : grid0.Coords, EltTy.bits .f32 = 32 ∨ (Rect.block (s := S2x768x768x1) S1x2x768x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x768x1.size a ≤ S2x768x768x1.size a
  hwx0_6 : ∀ i : grid0.Coords, EltTy.bits .f32 = 32 ∨ (Rect.block (s := S2x768x768x1) S1x2x768x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x768x1.size a ≤ S2x768x768x1.size a
  hwx0_7 : ∀ i : grid0.Coords, EltTy.bits .f32 = 32 ∨ (Rect.block (s := S2x768x768x1) S1x2x768x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x768x3.size a ≤ S768x768x3.size a
  hwx0_8 : ∀ i : grid0.Coords, EltTy.bits .f32 = 32 ∨ (Rect.block (s := S768x768x3) S2x768x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x2x768x16.size a ≤ S2x768x768x16.size a
  hwx0_9 : ∀ i : grid0.Coords, EltTy.bits .f32 = 32 ∨ (Rect.block (s := S2x768x768x16) S1x2x768x16.size (cc0_transform_9 i) (hinb0_9 i)).WholeWords (EltTy.packing .f32)

variable [Facts₀]

def gather_S500000x72_S1179648x1_S1179648x72_1_0_n_n_0_1_172 : GatherDims S500000x72 S1179648x1 S1179648x72 where
  offsetDims := [1]
  collapsedSliceDims := [0]
  operandBatchingDims := []
  startIndicesBatchingDims := []
  startIndexMap := [0]
  indexVectorDim := 1
  sliceSizes := ![1, 72]
  wf := gather_S500000x72_S1179648x1_S1179648x72_1_0_n_n_0_1_172_wf
def gather_S200000x3_S1179648x1_S1179648x3_1_0_n_n_0_1_13 : GatherDims S200000x3 S1179648x1 S1179648x3 where
  offsetDims := [1]
  collapsedSliceDims := [0]
  operandBatchingDims := []
  startIndicesBatchingDims := []
  startIndexMap := [0]
  indexVectorDim := 1
  sliceSizes := ![1, 3]
  wf := gather_S200000x3_S1179648x1_S1179648x3_1_0_n_n_0_1_13_wf

abbrev win0_0 : Pipeline.Window sig grid0 :=
  Pipeline.Window.ofSpec (Memref.whole main_v8) S1x2x768x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x2x768x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x2x768x72.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x2x768x72.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x2x768x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x2x768x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x2x768x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v36) S1x2x768x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v39) S2x768x3.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x2x768x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x72 : Shape := ⟨2, ![500000, 72]⟩
abbrev S2x768x768x1 : Shape := ⟨4, ![2, 768, 768, 1]⟩
abbrev S2x768x768x1x3 : Shape := ⟨5, ![2, 768, 768, 1, 3]⟩
abbrev S3x768x768 : Shape := ⟨3, ![3, 768, 768]⟩
abbrev S200000x3 : Shape := ⟨2, ![200000, 3]⟩
abbrev S_ : Shape := ⟨0, ![]⟩
abbrev S2x768x768x1x1 : Shape := ⟨5, ![2, 768, 768, 1, 1]⟩
abbrev S2x768x768x1x72 : Shape := ⟨5, ![2, 768, 768, 1, 72]⟩
abbrev S2x768x768x72 : Shape := ⟨4, ![2, 768, 768, 72]⟩
abbrev S2x768x768x144 : Shape := ⟨4, ![2, 768, 768, 144]⟩
abbrev S768x768x3 : Shape := ⟨3, ![768, 768, 3]⟩
abbrev S589824x3 : Shape := ⟨2, ![589824, 3]⟩
abbrev S2x589824x16x9 : Shape := ⟨4, ![2, 589824, 16, 9]⟩
abbrev S589824x1 : Shape := ⟨2, ![589824, 1]⟩
abbrev S589824 : Shape := ⟨1, ![589824]⟩
abbrev S1x589824x1 : Shape := ⟨3, ![1, 589824, 1]⟩
abbrev S2x589824x16x1 : Shape := ⟨4, ![2, 589824, 16, 1]⟩
abbrev S2x589824x16 : Shape := ⟨3, ![2, 589824, 16]⟩
abbrev S2x768x768x16 : Shape := ⟨4, ![2, 768, 768, 16]⟩
abbrev S1x768x768x16 : Shape := ⟨4, ![1, 768, 768, 16]⟩
abbrev S1x768x768x1 : Shape := ⟨4, ![1, 768, 768, 1]⟩

abbrev nBuf : Space → Nat
  | .hbm => 205
  | .vmem => 0
  | .smem => 0
  | _ => 0

abbrev hbmTy0_0 (i : Nat) : BufTy := match i % 128 with
  | 0 => ⟨S500000x72, .f32⟩
  | 1 => ⟨S2x768x768x1, .f32⟩
  | 2 => ⟨S2x768x768x1x3, .f32⟩
  | 3 => ⟨S3x768x768, .f32⟩
  | 4 => ⟨S200000x3, .i32⟩
  | 5 => ⟨S2x768x768x1, .i32⟩
  | 6 => ⟨S2x768x768x1, .i32⟩
  | 7 => ⟨S_, .i32⟩
  | 8 => ⟨S2x768x768x1, .i32⟩
  | 9 => ⟨S2x768x768x1, .i1⟩
  | 10 => ⟨S_, .i32⟩
  | 11 => ⟨S2x768x768x1, .i32⟩
  | 12 => ⟨S2x768x768x1, .i1⟩
  | 13 => ⟨S2x768x768x1, .i1⟩
  | 14 => ⟨S_, .f32⟩
  | 15 => ⟨S2x768x768x1, .f32⟩
  | 16 => ⟨S2x768x768x1, .f32⟩
  | 17 => ⟨S_, .f32⟩
  | 18 => ⟨S2x768x768x1, .f32⟩
  | 19 => ⟨S2x768x768x1, .f32⟩
  | 20 => ⟨S_, .i32⟩
  | 21 => ⟨S2x768x768x1, .i32⟩
  | 22 => ⟨S2x768x768x1, .i32⟩
  | 23 => ⟨S_, .i32⟩
  | 24 => ⟨S2x768x768x1, .i32⟩
  | 25 => ⟨S2x768x768x1, .i1⟩
  | 26 => ⟨S_, .i32⟩
  | 27 => ⟨S2x768x768x1, .i32⟩
  | 28 => ⟨S2x768x768x1, .i32⟩
  | 29 => ⟨S2x768x768x1, .i32⟩
  | 30 => ⟨S2x768x768x1x1, .i32⟩
  | 31 => ⟨S2x768x768x1x72, .f32⟩
  | 32 => ⟨S2x768x768x1x1, .i1⟩
  | 33 => ⟨S2x768x768x1x1, .f32⟩
  | 34 => ⟨S2x768x768x1x72, .f32⟩
  | 35 => ⟨S2x768x768x1x72, .f32⟩
  | 36 => ⟨S2x768x768x1x1, .f32⟩
  | 37 => ⟨S2x768x768x1x72, .f32⟩
  | 38 => ⟨S2x768x768x1x72, .f32⟩
  | 39 => ⟨S2x768x768x72, .f32⟩
  | 40 => ⟨S_, .i32⟩
  | 41 => ⟨S2x768x768x1, .i32⟩
  | 42 => ⟨S2x768x768x1, .i32⟩
  | 43 => ⟨S_, .i32⟩
  | 44 => ⟨S2x768x768x1, .i32⟩
  | 45 => ⟨S2x768x768x1, .i1⟩
  | 46 => ⟨S_, .i32⟩
  | 47 => ⟨S2x768x768x1, .i32⟩
  | 48 => ⟨S2x768x768x1, .i32⟩
  | 49 => ⟨S2x768x768x1, .i32⟩
  | 50 => ⟨S2x768x768x1x1, .i32⟩
  | 51 => ⟨S2x768x768x1x3, .i32⟩
  | 52 => ⟨S_, .f32⟩
  | 53 => ⟨S2x768x768x72, .f32⟩
  | 54 => ⟨S2x768x768x1x72, .f32⟩
  | 55 => ⟨S2x768x768x1x1, .f32⟩
  | 56 => ⟨S2x768x768x1x1, .i32⟩
  | 57 => ⟨S2x768x768x1, .i32⟩
  | 58 => ⟨S_, .i32⟩
  | 59 => ⟨S2x768x768x1, .i32⟩
  | 60 => ⟨S2x768x768x1, .i1⟩
  | 61 => ⟨S_, .i32⟩
  | 62 => ⟨S2x768x768x1, .i32⟩
  | 63 => ⟨S2x768x768x1, .i32⟩
  | 64 => ⟨S2x768x768x1, .i32⟩
  | 65 => ⟨S2x768x768x1x1, .i32⟩
  | 66 => ⟨S2x768x768x1x72, .f32⟩
  | 67 => ⟨S2x768x768x1x72, .f32⟩
  | 68 => ⟨S2x768x768x1x72, .f32⟩
  | 69 => ⟨S2x768x768x1x72, .f32⟩
  | 70 => ⟨S2x768x768x1x1, .f32⟩
  | 71 => ⟨S2x768x768x1x1, .i32⟩
  | 72 => ⟨S2x768x768x1, .i32⟩
  | 73 => ⟨S_, .i32⟩
  | 74 => ⟨S2x768x768x1, .i32⟩
  | 75 => ⟨S2x768x768x1, .i1⟩
  | 76 => ⟨S_, .i32⟩
  | 77 => ⟨S2x768x768x1, .i32⟩
  | 78 => ⟨S2x768x768x1, .i32⟩
  | 79 => ⟨S2x768x768x1, .i32⟩
  | 80 => ⟨S2x768x768x1x1, .i32⟩
  | 81 => ⟨S2x768x768x1x72, .f32⟩
  | 82 => ⟨S2x768x768x1x72, .f32⟩
  | 83 => ⟨S2x768x768x1x72, .f32⟩
  | 84 => ⟨S2x768x768x1x72, .f32⟩
  | 85 => ⟨S2x768x768x1x1, .f32⟩
  | 86 => ⟨S2x768x768x1x1, .i32⟩
  | 87 => ⟨S2x768x768x1, .i32⟩
  | 88 => ⟨S_, .i32⟩
  | 89 => ⟨S2x768x768x1, .i32⟩
  | 90 => ⟨S2x768x768x1, .i1⟩
  | 91 => ⟨S_, .i32⟩
  | 92 => ⟨S2x768x768x1, .i32⟩
  | 93 => ⟨S2x768x768x1, .i32⟩
  | 94 => ⟨S2x768x768x1, .i32⟩
  | 95 => ⟨S2x768x768x1x1, .i32⟩
  | 96 => ⟨S2x768x768x1x72, .f32⟩
  | 97 => ⟨S2x768x768x1x72, .f32⟩
  | 98 => ⟨S2x768x768x1x72, .f32⟩
  | 99 => ⟨S2x768x768x1x72, .f32⟩
  | 100 => ⟨S2x768x768x1x1, .i1⟩
  | 101 => ⟨S2x768x768x1x1, .f32⟩
  | 102 => ⟨S2x768x768x1x72, .f32⟩
  | 103 => ⟨S2x768x768x1x72, .f32⟩
  | 104 => ⟨S2x768x768x72, .f32⟩
  | 105 => ⟨S2x768x768x144, .f32⟩
  | 106 => ⟨S3x768x768, .f32⟩
  | 107 => ⟨S768x768x3, .f32⟩
  | 108 => ⟨S589824x3, .f32⟩
  | 109 => ⟨S2x589824x16x9, .f32⟩
  | 110 => ⟨S589824x1, .f32⟩
  | 111 => ⟨S589824, .f32⟩
  | 112 => ⟨S1x589824x1, .f32⟩
  | 113 => ⟨S589824x1, .f32⟩
  | 114 => ⟨S589824, .f32⟩
  | 115 => ⟨S1x589824x1, .f32⟩
  | 116 => ⟨S589824x1, .f32⟩
  | 117 => ⟨S589824, .f32⟩
  | 118 => ⟨S1x589824x1, .f32⟩
  | 119 => ⟨S1x589824x1, .f32⟩
  | 120 => ⟨S1x589824x1, .f32⟩
  | 121 => ⟨S1x589824x1, .f32⟩
  | 122 => ⟨S2x589824x16x1, .f32⟩
  | 123 => ⟨S2x589824x16, .f32⟩
  | 124 => ⟨S_, .f32⟩
  | 125 => ⟨S2x589824x16, .f32⟩
  | 126 => ⟨S2x589824x16, .f32⟩
  | 127 => ⟨S_, .f32⟩
  | _ => ⟨S500000x72, .f32⟩

abbrev hbmTy0_1 (i : Nat) : BufTy := match i % 128 with
  | 0 => ⟨S1x589824x1, .f32⟩
  | 1 => ⟨S1x589824x1, .f32⟩
  | 2 => ⟨S2x589824x16x1, .f32⟩
  | 3 => ⟨S2x589824x16, .f32⟩
  | 4 => ⟨S2x589824x16, .f32⟩
  | 5 => ⟨S2x589824x16, .f32⟩
  | 6 => ⟨S2x589824x16, .f32⟩
  | 7 => ⟨S_, .f32⟩
  | 8 => ⟨S1x589824x1, .f32⟩
  | 9 => ⟨S1x589824x1, .f32⟩
  | 10 => ⟨S2x589824x16x1, .f32⟩
  | 11 => ⟨S2x589824x16, .f32⟩
  | 12 => ⟨S2x589824x16, .f32⟩
  | 13 => ⟨S2x589824x16, .f32⟩
  | 14 => ⟨S2x589824x16, .f32⟩
  | 15 => ⟨S_, .f32⟩
  | 16 => ⟨S1x589824x1, .f32⟩
  | 17 => ⟨S1x589824x1, .f32⟩
  | 18 => ⟨S2x589824x16x1, .f32⟩
  | 19 => ⟨S2x589824x16, .f32⟩
  | 20 => ⟨S2x589824x16, .f32⟩
  | 21 => ⟨S2x589824x16, .f32⟩
  | 22 => ⟨S2x589824x16, .f32⟩
  | 23 => ⟨S1x589824x1, .f32⟩
  | 24 => ⟨S_, .f32⟩
  | 25 => ⟨S1x589824x1, .f32⟩
  | 26 => ⟨S1x589824x1, .f32⟩
  | 27 => ⟨S2x589824x16x1, .f32⟩
  | 28 => ⟨S2x589824x16, .f32⟩
  | 29 => ⟨S2x589824x16, .f32⟩
  | 30 => ⟨S2x589824x16, .f32⟩
  | 31 => ⟨S2x589824x16, .f32⟩
  | 32 => ⟨S1x589824x1, .f32⟩
  | 33 => ⟨S_, .f32⟩
  | 34 => ⟨S1x589824x1, .f32⟩
  | 35 => ⟨S1x589824x1, .f32⟩
  | 36 => ⟨S2x589824x16x1, .f32⟩
  | 37 => ⟨S2x589824x16, .f32⟩
  | 38 => ⟨S2x589824x16, .f32⟩
  | 39 => ⟨S2x589824x16, .f32⟩
  | 40 => ⟨S2x589824x16, .f32⟩
  | 41 => ⟨S_, .f32⟩
  | 42 => ⟨S1x589824x1, .f32⟩
  | 43 => ⟨S1x589824x1, .f32⟩
  | 44 => ⟨S1x589824x1, .f32⟩
  | 45 => ⟨S1x589824x1, .f32⟩
  | 46 => ⟨S_, .f32⟩
  | 47 => ⟨S1x589824x1, .f32⟩
  | 48 => ⟨S1x589824x1, .f32⟩
  | 49 => ⟨S2x589824x16x1, .f32⟩
  | 50 => ⟨S2x589824x16, .f32⟩
  | 51 => ⟨S2x589824x16, .f32⟩
  | 52 => ⟨S2x589824x16, .f32⟩
  | 53 => ⟨S2x589824x16, .f32⟩
  | 54 => ⟨S1x589824x1, .f32⟩
  | 55 => ⟨S_, .f32⟩
  | 56 => ⟨S1x589824x1, .f32⟩
  | 57 => ⟨S1x589824x1, .f32⟩
  | 58 => ⟨S2x589824x16x1, .f32⟩
  | 59 => ⟨S2x589824x16, .f32⟩
  | 60 => ⟨S2x589824x16, .f32⟩
  | 61 => ⟨S2x589824x16, .f32⟩
  | 62 => ⟨S2x589824x16, .f32⟩
  | 63 => ⟨S1x589824x1, .f32⟩
  | 64 => ⟨S_, .f32⟩
  | 65 => ⟨S1x589824x1, .f32⟩
  | 66 => ⟨S1x589824x1, .f32⟩
  | 67 => ⟨S2x589824x16x1, .f32⟩
  | 68 => ⟨S2x589824x16, .f32⟩
  | 69 => ⟨S2x589824x16, .f32⟩
  | 70 => ⟨S2x589824x16, .f32⟩
  | 71 => ⟨S2x589824x16, .f32⟩
  | 72 => ⟨S2x768x768x16, .f32⟩
  | 73 => ⟨S1x768x768x16, .f32⟩
  | 74 => ⟨S1x768x768x16, .f32⟩
  | 75 => ⟨S1x768x768x1, .i1⟩
  | 76 => ⟨S1x768x768x1, .i1⟩
  | _ => ⟨S500000x72, .f32⟩

abbrev hbmTy (i : Nat) : BufTy := match i / 128 with
  | 0 => hbmTy0_0 i
  | 1 => hbmTy0_1 i
  | _ => ⟨S500000x72, .f32⟩

abbrev bufTy : (tb : Table) → Fin (tcTables nBuf tb) → BufTy
  | .hbm, ⟨i, _⟩ => hbmTy i
  | _, _ => ⟨S500000x72, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_11 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_v66 : Ref sig .tc := ⟨.hbm, 89, rfl⟩
abbrev main_v67 : Ref sig .tc := ⟨.hbm, 90, rfl⟩
abbrev main_c_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_15 : Ref sig .tc := ⟨.hbm, 124, rfl⟩
abbrev main_v100 : Ref sig .tc := ⟨.hbm, 125, rfl⟩
abbrev main_v101 : Ref sig .tc := ⟨.hbm, 126, rfl⟩
abbrev main_cst_16 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_17 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_18 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_cst_19 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_20 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_21 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_22 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_23 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_cst_24 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩

abbrev nD : Nat := 1
abbrev τ : Topo := Topo.v7x

variable {F : FTy → Type} [FloatOps F]

class Facts₀ : Prop where
  bcast_S_S2x768x768x1 : S_.BroadcastsInDim S2x768x768x1 (![] : Fin 0 → Fin S2x768x768x1.rank)
  bcast_S2x768x768x1_S2x768x768x1x1_0_1_2_3 : S2x768x768x1.BroadcastsInDim S2x768x768x1x1 (![0, 1, 2, 3] : Fin 4 → Fin S2x768x768x1x1.rank)
  bcast_S2x768x768x1x1_S2x768x768x1x72_0_1_2_3_4 : S2x768x768x1x1.BroadcastsInDim S2x768x768x1x72 (![0, 1, 2, 3, 4] : Fin 5 → Fin S2x768x768x1x72.rank)
  shapeCasts_S2x768x768x1x72_S2x768x768x72 : S2x768x768x1x72.ShapeCasts S2x768x768x72
  bcast_S_S2x768x768x72 : S_.BroadcastsInDim S2x768x768x72 (![] : Fin 0 → Fin S2x768x768x72.rank)
  bcast_S2x768x768x72_S2x768x768x1x72_0_1_2_4 : S2x768x768x72.BroadcastsInDim S2x768x768x1x72 (![0, 1, 2, 4] : Fin 4 → Fin S2x768x768x1x72.rank)
  slices_S2x768x768x1x3_S2x768x768x1x1_0_0_0_0_0 : S2x768x768x1x3.Slices ![0, 0, 0, 0, 0] S2x768x768x1x1
  shapeCasts_S2x768x768x1x1_S2x768x768x1 : S2x768x768x1x1.ShapeCasts S2x768x768x1
  slices_S2x768x768x1x3_S2x768x768x1x1_0_0_0_0_1 : S2x768x768x1x3.Slices ![0, 0, 0, 0, 1] S2x768x768x1x1
  slices_S2x768x768x1x3_S2x768x768x1x1_0_0_0_0_2 : S2x768x768x1x3.Slices ![0, 0, 0, 0, 2] S2x768x768x1x1
  concatenates_S2x768x768x72_S2x768x768x72_S2x768x768x144_d3 : Shape.Concatenates [S2x768x768x72, S2x768x768x72] S2x768x768x144 3
  transposes_S3x768x768_S768x768x3_1_2_0 : S3x768x768.Transposes [1, 2, 0] S768x768x3
  shapeCasts_S768x768x3_S589824x3 : S768x768x3.ShapeCasts S589824x3
  shapeCasts_S2x768x768x144_S2x589824x16x9 : S2x768x768x144.ShapeCasts S2x589824x16x9
  slices_S589824x3_S589824x1_0_0 : S589824x3.Slices ![0, 0] S589824x1
  shapeCasts_S589824x1_S589824 : S589824x1.ShapeCasts S589824
  bcast_S589824_S1x589824x1_1 : S589824.BroadcastsInDim S1x589824x1 (![1] : Fin 1 → Fin S1x589824x1.rank)
  slices_S589824x3_S589824x1_0_1 : S589824x3.Slices ![0, 1] S589824x1
  slices_S589824x3_S589824x1_0_2 : S589824x3.Slices ![0, 2] S589824x1
  slices_S2x589824x16x9_S2x589824x16x1_0_0_0_0 : S2x589824x16x9.Slices ![0, 0, 0, 0] S2x589824x16x1
  shapeCasts_S2x589824x16x1_S2x589824x16 : S2x589824x16x1.ShapeCasts S2x589824x16
  bcast_S_S2x589824x16 : S_.BroadcastsInDim S2x589824x16 (![] : Fin 0 → Fin S2x589824x16.rank)
  bcast_S_S1x589824x1 : S_.BroadcastsInDim S1x589824x1 (![] : Fin 0 → Fin S1x589824x1.rank)
  slices_S2x589824x16x9_S2x589824x16x1_0_0_0_1 : S2x589824x16x9.Slices ![0, 0, 0, 1] S2x589824x16x1
  bcast_S1x589824x1_S2x589824x16_0_1_2 : S1x589824x1.BroadcastsInDim S2x589824x16 (![0, 1, 2] : Fin 3 → Fin S2x589824x16.rank)
  slices_S2x589824x16x9_S2x589824x16x1_0_0_0_2 : S2x589824x16x9.Slices ![0, 0, 0, 2] S2x589824x16x1
  slices_S2x589824x16x9_S2x589824x16x1_0_0_0_3 : S2x589824x16x9.Slices ![0, 0, 0, 3] S2x589824x16x1
  slices_S2x589824x16x9_S2x589824x16x1_0_0_0_4 : S2x589824x16x9.Slices ![0, 0, 0, 4] S2x589824x16x1
  slices_S2x589824x16x9_S2x589824x16x1_0_0_0_5 : S2x589824x16x9.Slices ![0, 0, 0, 5] S2x589824x16x1
  slices_S2x589824x16x9_S2x589824x16x1_0_0_0_6 : S2x589824x16x9.Slices ![0, 0, 0, 6] S2x589824x16x1
  slices_S2x589824x16x9_S2x589824x16x1_0_0_0_7 : S2x589824x16x9.Slices ![0, 0, 0, 7] S2x589824x16x1
  slices_S2x589824x16x9_S2x589824x16x1_0_0_0_8 : S2x589824x16x9.Slices ![0, 0, 0, 8] S2x589824x16x1
  shapeCasts_S2x589824x16_S2x768x768x16 : S2x589824x16.ShapeCasts S2x768x768x16
  slices_S2x768x768x16_S1x768x768x16_0_0_0_0 : S2x768x768x16.Slices ![0, 0, 0, 0] S1x768x768x16
  slices_S2x768x768x16_S1x768x768x16_1_0_0_0 : S2x768x768x16.Slices ![1, 0, 0, 0] S1x768x768x16
  slices_S2x768x768x1_S1x768x768x1_0_0_0_0 : S2x768x768x1.Slices ![0, 0, 0, 0] S1x768x768x1
  slices_S2x768x768x1_S1x768x768x1_1_0_0_0 : S2x768x768x1.Slices ![1, 0, 0, 0] S1x768x768x1
  gather_S500000x72_S2x768x768x1x1_S2x768x768x1x72_4_0_n_n_0_4_172_wf : GatherDims.WF S500000x72 S2x768x768x1x1 S2x768x768x1x72 [4] [0] [] [0] [] 4 ![1, 72]
  gather_S200000x3_S2x768x768x1x1_S2x768x768x1x3_4_0_n_n_0_4_13_wf : GatherDims.WF S200000x3 S2x768x768x1x1 S2x768x768x1x3 [4] [0] [] [0] [] 4 ![1, 3]

variable [Facts₀]

def gather_S500000x72_S2x768x768x1x1_S2x768x768x1x72_4_0_n_n_0_4_172 : GatherDims S500000x72 S2x768x768x1x1 S2x768x768x1x72 where
  offsetDims := [4]
  collapsedSliceDims := [0]
  operandBatchingDims := []
  startIndicesBatchingDims := []
  startIndexMap := [0]
  indexVectorDim := 4
  sliceSizes := ![1, 72]
  wf := gather_S500000x72_S2x768x768x1x1_S2x768x768x1x72_4_0_n_n_0_4_172_wf
def gather_S200000x3_S2x768x768x1x1_S2x768x768x1x3_4_0_n_n_0_4_13 : GatherDims S200000x3 S2x768x768x1x1 S2x768x768x1x3 where
  offsetDims := [4]
  collapsedSliceDims := [0]
  operandBatchingDims := []
  startIndicesBatchingDims := []
  startIndexMap := [0]
  indexVectorDim := 4
  sliceSizes := ![1, 3]
  wf := gather_S200000x3_S2x768x768x1x1_S2x768x768x1x3_4_0_n_n_0_4_13_wf

class Facts : Prop extends Facts₀ where

variable [Facts]
-- ==== Proof.Spec.lean ====
/-
  The shading, pixel by pixel, written twice: in the order the kernel evaluates it (`outK`) and in the order the
  reference evaluates it (`outR`), both as functions of the seven argument arrays at an output index
  (b, h, w, g) of [2, 768, 768, 16].

  Per pixel (b, h, w) there are 144 coefficients in 16 groups of 9. Groups 0–7 are the 72 features of the point
  the pixel sees, times the point mask and the distance weight; groups 8–15 are the barycentric mix of the 72
  features of the three vertices of the face the pixel sees, times the face mask. Each group is contracted with the
  nine real spherical harmonics of degree ≤ 2 at the pixel's ray direction (the ray image flipped on both axes).

  The two orders differ in three places, none of which needs finiteness on the extended reals:
  * the kernel multiplies by the constant −c₁ and adds where the reference multiplies by c₁ and subtracts
    (`(−a)·b = −(a·b)`, `p − q = p + (−q)`);
  * the kernel forms `f · (mask · weight)` where the reference forms `(f · mask) · weight` (associativity);
  * the reference starts the barycentric sum from zero (`0 + a = a`).
  They also differ in how a row index is turned into a row: both clamp into the table, but the reference first adds the
  table's length to a negative index. For the point and face indices, which are first raised to at least zero, that
  changes nothing; for the vertex indices stored in `faces` it changes nothing exactly when they are non-negative.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The constants, as the words both programs print -/

abbrev c0 : EReal := Ideal.ofBits .f32 0x3E906EBB#32
abbrev c1 : EReal := Ideal.ofBits .f32 0x3EFA2A1C#32
abbrev c1n : EReal := Ideal.ofBits .f32 0xBEFA2A1C#32
abbrev c2a : EReal := Ideal.ofBits .f32 0x3F8BD8A1#32
abbrev c2b : EReal := Ideal.ofBits .f32 0xBF8BD8A1#32
abbrev c2c : EReal := Ideal.ofBits .f32 0x3EA17B01#32
abbrev c2e : EReal := Ideal.ofBits .f32 0x3F0BD8A1#32
abbrev two : EReal := Ideal.ofBits .f32 0x40000000#32
abbrev one : EReal := Ideal.ofBits .f32 0x3F800000#32
abbrev r2 : EReal := Ideal.ofBits .f32 0x3816FEB5#32

/-! ## One group against the nine harmonics -/

/-- The kernel's order: every term added, the sign carried by the constant. -/
def shK (x y z : EReal) (s : Fin 9 → EReal) : EReal :=
  c0 * s 0 + (c1n * y) * s 1 + (c1 * z) * s 2 + (c1n * x) * s 3 + (c2a * (x * y)) * s 4 + (c2b * (y * z)) * s 5
    + (c2c * (two * (z * z) - x * x - y * y)) * s 6 + (c2b * (x * z)) * s 7 + (c2e * (x * x - y * y)) * s 8

/-- The reference's order: the terms in y and x subtracted. -/
def shR (x y z : EReal) (s : Fin 9 → EReal) : EReal :=
  c0 * s 0 - (c1 * y) * s 1 + (c1 * z) * s 2 - (c1 * x) * s 3 + (c2a * (x * y)) * s 4 + (c2b * (y * z)) * s 5
    + (c2c * (two * (z * z) - x * x - y * y)) * s 6 + (c2b * (x * z)) * s 7 + (c2e * (x * x - y * y)) * s 8

/-! ## One coefficient -/

/-- Coefficient `k` of group `g` in the kernel's order, from the pixel's gathered feature rows `f1`, `v0`, `v1`, `v2`
    (72 entries each), its barycentric weights, its two masks and its distance weight. -/
def chK (f1 v0 v1 v2 : Fin 72 → EReal) (b0 b1 b2 m1 m2 wt : EReal) (g : Fin 16) (k : Fin 9) : EReal :=
  if h : g.val < 8 then f1 ⟨9 * g.val + k.val, by omega⟩ * (m1 * wt)
  else (b0 * v0 ⟨9 * (g.val - 8) + k.val, by omega⟩ + b1 * v1 ⟨9 * (g.val - 8) + k.val, by omega⟩
    + b2 * v2 ⟨9 * (g.val - 8) + k.val, by omega⟩) * m2

/-- The same coefficient in the reference's order. -/
def chR (f1 v0 v1 v2 : Fin 72 → EReal) (b0 b1 b2 m1 m2 wt : EReal) (g : Fin 16) (k : Fin 9) : EReal :=
  if h : g.val < 8 then f1 ⟨9 * g.val + k.val, by omega⟩ * m1 * wt
  else (0 + b0 * v0 ⟨9 * (g.val - 8) + k.val, by omega⟩ + b1 * v1 ⟨9 * (g.val - 8) + k.val, by omega⟩
    + b2 * v2 ⟨9 * (g.val - 8) + k.val, by omega⟩) * m2

/-! ## Rows of a table from index words -/

/-- A signed word clamped into the rows `0 … N − 1` of a table: what a gather does with a start index. -/
def clampRow (N : Nat) (hN : 0 < N) (w : BitVec 32) : Fin N := ⟨min w.toInt.toNat (N - 1), by omega⟩

/-- A negative index counted from the end of a table of `N` rows, as array indexing normalises it. -/
def wrapIdx (N : BitVec 32) (w : BitVec 32) : BitVec 32 :=
  Scalar.select (IntOp.cmpi .slt w 0#32) (IntOp.addi w N) w

/-! ## The argument arrays -/

abbrev SFeat : Shape := ⟨2, ![500000, 72]⟩
abbrev SPix : Shape := ⟨4, ![2, 768, 768, 1]⟩
abbrev SBary : Shape := ⟨5, ![2, 768, 768, 1, 3]⟩
abbrev SRay : Shape := ⟨3, ![3, 768, 768]⟩
abbrev SFace : Shape := ⟨2, ![200000, 3]⟩
abbrev SOut : Shape := ⟨4, ![2, 768, 768, 16]⟩

/-- The seven arguments: point features, squared distances, barycentric weights, ray directions, the faces' vertex
    indices, the pixel's point index and the pixel's face index. -/
structure Args where
  feat : SFeat.Idx → EReal
  dist : SPix.Idx → EReal
  bary : SBary.Idx → EReal
  ray : SRay.Idx → EReal
  face : SFace.Idx → BitVec 32
  pidx : SPix.Idx → BitVec 32
  fidx : SPix.Idx → BitVec 32

variable (A : Args) (b : Fin 2) (h w : Fin 768)

/-- Component `k` of the ray direction at pixel (h, w): the ray image flipped on both image axes. -/
def dir (k : Fin 3) : EReal := A.ray (ix3 k h.rev w.rev)

/-- The point mask: 1 where the pixel sees a point. -/
def m1 : EReal := FloatOps.uitofp (F := Ideal) .f32 (IntOp.cmpi .sge (A.pidx (ix4 b h w 0)) 0#32)
/-- The face mask: 1 where the pixel sees a face. -/
def m2 : EReal := FloatOps.uitofp (F := Ideal) .f32 (IntOp.cmpi .sge (A.fidx (ix4 b h w 0)) 0#32)
/-- The distance weight 1 − d / r². -/
def wt : EReal := one - Ideal.div (A.dist (ix4 b h w 0)) r2

/-- The kernel's rows: each index word clamped into its table. -/
def rowK1 : Fin 500000 := clampRow 500000 (by norm_num) (IntOp.maxsi (A.pidx (ix4 b h w 0)) 0#32)
def rowKF : Fin 200000 := clampRow 200000 (by norm_num) (IntOp.maxsi (A.fidx (ix4 b h w 0)) 0#32)
def rowKV (v : Fin 3) : Fin 500000 := clampRow 500000 (by norm_num) (A.face (ix2 (rowKF A b h w) v))

/-- The reference's rows: each index word first normalised, then clamped. -/
def rowR1 : Fin 500000 := clampRow 500000 (by norm_num) (wrapIdx 500000#32 (IntOp.maxsi (A.pidx (ix4 b h w 0)) 0#32))
def rowRF : Fin 200000 := clampRow 200000 (by norm_num) (wrapIdx 200000#32 (IntOp.maxsi (A.fidx (ix4 b h w 0)) 0#32))
def rowRV (v : Fin 3) : Fin 500000 :=
  clampRow 500000 (by norm_num) (wrapIdx 500000#32 (A.face (ix2 (rowRF A b h w) v)))

/-- The kernel's result at (b, h, w, g). -/
def pixK (g : Fin 16) : EReal :=
  shK (dir A h w 0) (dir A h w 1) (dir A h w 2)
    (chK (fun ch => A.feat (ix2 (rowK1 A b h w) ch)) (fun ch => A.feat (ix2 (rowKV A b h w 0) ch))
      (fun ch => A.feat (ix2 (rowKV A b h w 1) ch)) (fun ch => A.feat (ix2 (rowKV A b h w 2) ch))
      (A.bary (ix5 b h w 0 0)) (A.bary (ix5 b h w 0 1)) (A.bary (ix5 b h w 0 2))
      (m1 A b h w) (m2 A b h w) (wt A b h w) g)

/-- The reference's result at (b, h, w, g). -/
def pixR (g : Fin 16) : EReal :=
  shR (dir A h w 0) (dir A h w 1) (dir A h w 2)
    (chR (fun ch => A.feat (ix2 (rowR1 A b h w) ch)) (fun ch => A.feat (ix2 (rowRV A b h w 0) ch))
      (fun ch => A.feat (ix2 (rowRV A b h w 1) ch)) (fun ch => A.feat (ix2 (rowRV A b h w 2) ch))
      (A.bary (ix5 b h w 0 0)) (A.bary (ix5 b h w 0 1)) (A.bary (ix5 b h w 0 2))
      (m1 A b h w) (m2 A b h w) (wt A b h w) g)

end Cert.Spec

end
-- ==== Proof.Algebra.lean ====
/-
  The kernel's order of the shading equals the reference's, pixel by pixel, on the extended reals.

  Three laws join them, none needing finite inputs: `(−a)·b = −(a·b)` with `p − q = p + (−q)` (the kernel carries the
  sign of the y and x terms in its constant −c₁, the reference subtracts), associativity of the product (the kernel
  forms mask · weight first), and `0 + a = a` (the reference starts its barycentric sum at zero).

  The rows agree as well: a word that is not negative is left alone by the negative-index normalisation, so the
  point row and the face row (both of a word first raised to at least zero) are the same row on both sides, and a
  vertex row is the same row wherever the vertex index stored in the face table is not negative.
-/
import proofs.«415965_j58050777972780_3_alg».proof.Proof.Spec
import Mathlib.Data.EReal.Basic

noncomputable section

namespace Cert.Spec

open Idealize.ShloMosaic Idealize.ShloMosaic.ValueIdx

/-! ## The harmonics -/

/-- The kernel's negative constant is the negation of the reference's positive one: the two words differ in the sign
    bit only. -/
theorem c1n_eq : c1n = -c1 := by
  simp [c1n, c1, Ideal.ofBits, Ideal.ieee]

/-- One group against the harmonics: adding `(−c₁·t)·s` is subtracting `(c₁·t)·s`. -/
theorem shK_eq_shR (x y z : EReal) (s : Fin 9 → EReal) : shK x y z s = shR x y z s := by
  unfold shK shR
  rw [c1n_eq]
  simp only [EReal.neg_mul, sub_eq_add_neg]

/-! ## The coefficients -/

/-- One coefficient: the product re-associated in the point branch, the leading zero dropped in the face branch. -/
theorem chK_eq_chR (f1 v0 v1 v2 : Fin 72 → EReal) (b0 b1 b2 m1 m2 wt : EReal) (g : Fin 16) (k : Fin 9) :
    chK f1 v0 v1 v2 b0 b1 b2 m1 m2 wt g k = chR f1 v0 v1 v2 b0 b1 b2 m1 m2 wt g k := by
  unfold chK chR
  by_cases hg : g.val < 8
  · rw [dif_pos hg, dif_pos hg, mul_assoc]
  · rw [dif_neg hg, dif_neg hg, zero_add]

/-! ## The rows -/

/-- A word that is not negative is its own normalisation. -/
theorem wrapIdx_of_not_neg (N w : BitVec 32) (hw : w.slt 0#32 = false) : wrapIdx N w = w := by
  unfold wrapIdx IntOp.cmpi
  simp only [hw]
  exact select_zero _ _

/-- A word raised to at least zero is not negative. -/
theorem maxsi_zero_not_neg (x : BitVec 32) : (IntOp.maxsi x 0#32).slt 0#32 = false := by
  unfold IntOp.maxsi
  by_cases hx : (0#32).slt x
  · rw [if_pos hx]
    simp only [BitVec.slt, decide_eq_true_eq, decide_eq_false_iff_not, BitVec.toInt_zero] at hx ⊢
    omega
  · rw [if_neg hx]
    decide

/-- A word that passes the signed test `≥ 0` is not negative. -/
theorem not_neg_of_sge (x : BitVec 32) (hx : IntOp.cmpi .sge x 0#32 = 1#1) : x.slt 0#32 = false := by
  have h1 : (0#32).sle x = true := by
    have hb : BitVec.ofBool ((0#32).sle x) = 1#1 := hx
    cases h : (0#32).sle x
    · rw [h] at hb; exact absurd hb (by decide)
    · rfl
  simp only [BitVec.sle, BitVec.slt, decide_eq_true_eq, decide_eq_false_iff_not, BitVec.toInt_zero] at h1 ⊢
  omega

variable (A : Args) (b : Fin 2) (h w : Fin 768)

theorem rowR1_eq : rowR1 A b h w = rowK1 A b h w := by
  unfold rowR1 rowK1
  rw [wrapIdx_of_not_neg _ _ (maxsi_zero_not_neg _)]

theorem rowRF_eq : rowRF A b h w = rowKF A b h w := by
  unfold rowRF rowKF
  rw [wrapIdx_of_not_neg _ _ (maxsi_zero_not_neg _)]

/-- Where every vertex index in the face table passes the signed test `≥ 0`, the two sides read the same vertex rows. -/
theorem rowRV_eq (hface : ∀ i, IntOp.cmpi .sge (A.face i) 0#32 = 1#1) (v : Fin 3) :
    rowRV A b h w v = rowKV A b h w v := by
  unfold rowRV rowKV
  rw [rowRF_eq, wrapIdx_of_not_neg _ _ (not_neg_of_sge _ (hface _))]

/-! ## The pixel -/

/-- The kernel's value at a pixel and group is the reference's, where the face table's vertex indices are not negative. -/
theorem pixK_eq_pixR (hface : ∀ i, IntOp.cmpi .sge (A.face i) 0#32 = 1#1) (g : Fin 16) :
    pixK A b h w g = pixR A b h w g := by
  unfold pixK pixR
  rw [shK_eq_shR, rowR1_eq, rowRV_eq A b h w hface 0, rowRV_eq A b h w hface 1, rowRV_eq A b h w hface 2]
  congr 1
  funext k
  exact chK_eq_chR _ _ _ _ _ _ _ _ _ _ g k

end Cert.Spec

end
-- ==== Proof.PreFacts.lean ====
/-
  What the precondition says of the face table: its last conjunct is `all (faces ≥ 0)`, a reduction by `and` of the
  elementwise signed comparison with zero; where the whole conjunction is 1, that reduction is 1, and a reduction by
  `and` that is 1 met a 1 at every element. So every vertex index stored in the face table passes the signed test ≥ 0.
-/
import proofs.«415965_j58050777972780_3_alg».proof.Pre_finite_inputs
import Idealize.ShloMosaic.Lib.ReduceAll
import Idealize.ShloMosaic.Lib.ValueIdx

noncomputable section

namespace Cert.PreFacts

open Idealize.ShloMosaic Cert.Pre_finite_inputs

variable [hP : Cert.Pre_finite_inputs.Facts]

/-- The rank-0 shape has one index. -/
instance : Subsingleton S_.Idx := ⟨fun a b => funext fun d => d.elim0⟩

/-- Where the precondition holds, every entry of the face table is a non-negative word under the signed comparison. -/
theorem faces_nonneg {F : FTy → Type} [FloatOps F] (a0 : FVec F S500000x72 .f32) (a1 : FVec F S2x768x768x1 .f32)
    (a2 : FVec F S2x768x768x1x3 .f32) (a3 : FVec F S3x768x768 .f32) (a4 : IVec S200000x3 32)
    (a5 a6 : IVec S2x768x768x1 32)
    (hpre : fn (F := F) a0 a1 a2 a3 a4 a5 a6 = fun _ => 1#1) (i : S200000x3.Idx) :
    IntOp.cmpi .sge (a4 i) 0#32 = 1#1 := by
  have h0 := congrFun hpre ValueIdx.ix0
  dsimp only [fn, fn_part1] at h0
  obtain ⟨-, h2⟩ := IntOp.andi_eq_one.1 h0
  exact Host.reduce_andi_all _ _ _ _ _ h2 i

end Cert.PreFacts

end
-- ==== Proof.KTail.lean ====
/-
  The kernel program after its one region: the two float results are the two batch slices of the region's output
  array, and the two mask results are the two batch slices of `(point index ≥ 0) or (face index ≥ 0)`, computed from
  the argument arrays, which no operation writes. Read off the run: every buffer outside the region's arrays ends at
  what the operations after the region compute from the arrays as the region leaves them.
-/
import proofs.«415965_j58050777972780_3_alg».proof.Proof.Gen.KernelIdeal.Frame
import Idealize.ShloMosaic.Lib.StableHlo.Run
import Idealize.ShloMosaic.PureOps.Ideal

set_option maxRecDepth 16384

noncomputable section

namespace Cert.KernelIdeal.TailValue

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- The region's output array [2, 768, 768, 16] as the run leaves it. -/
abbrev outArr (c : Dev nD) : (⟨S2x768x768x16, .f32⟩ : BufTy).Contents (Elt Ideal) :=
  (dats (F := Ideal) m 0 c).arrAt 9 cfg0.N

/-- The mask `(point index ≥ 0) or (face index ≥ 0)` over [2, 768, 768, 1], from the argument arrays. -/
abbrev maskArr (c : Dev nD) : (⟨S2x768x768x1, .i1⟩ : BufTy).Contents (Elt Ideal) :=
  ori (cmpi .sge (m ((c : Thread nD τ).loc main_arg5)) (broadcastInDim S2x768x768x1 ![] bcast_S_S2x768x768x1 (constantI S_ 32 0#32)))
    (cmpi .sge (m ((c : Thread nD τ).loc main_arg6)) (broadcastInDim S2x768x768x1 ![] bcast_S_S2x768x768x1 (constantI S_ 32 0#32)))

/-- The first float result is batch 0 of the output array. -/
theorem tail_v46 (c : Dev nD) :
    Pipeline.afterTail₀ cfgs (dats (F := Ideal) m) 0 (V0 m) [hostOps1] c main_v46
      = extractStridedSlice S1x768x768x16 ![0, 0, 0, 0] (outArr m c) slices_S2x768x768x16_S1x768x768x16_0_0_0_0 := by
  unfold Pipeline.afterTail₀
  show StableHlo.after hostOps1 _ (Proc.devRef .tc main_v46) = _
  after_results
  rw [Pipeline.withArrays_arr spec0 launch0.win.arr_inj c _ _ 9]

/-- The second float result is batch 1 of the output array. -/
theorem tail_v47 (c : Dev nD) :
    Pipeline.afterTail₀ cfgs (dats (F := Ideal) m) 0 (V0 m) [hostOps1] c main_v47
      = extractStridedSlice S1x768x768x16 ![1, 0, 0, 0] (outArr m c) slices_S2x768x768x16_S1x768x768x16_1_0_0_0 := by
  unfold Pipeline.afterTail₀
  show StableHlo.after hostOps1 _ (Proc.devRef .tc main_v47) = _
  after_results
  rw [Pipeline.withArrays_arr spec0 launch0.win.arr_inj c _ _ 9]

/-- The first mask result is batch 0 of the mask. -/
theorem tail_v48 (c : Dev nD) :
    Pipeline.afterTail₀ cfgs (dats (F := Ideal) m) 0 (V0 m) [hostOps1] c main_v48
      = extractStridedSlice S1x768x768x1 ![0, 0, 0, 0] (maskArr m c) slices_S2x768x768x1_S1x768x768x1_0_0_0_0 := by
  unfold Pipeline.afterTail₀
  show StableHlo.after hostOps1 _ (Proc.devRef .tc main_v48) = _
  after_results
  rw [Pipeline.withArrays_of_ne _ c (V0 m c) _ main_arg5 (by exact (by decide : ∀ w, Pipeline.arrRef spec0 w ≠ main_arg5)),
    Pipeline.withArrays_of_ne _ c (V0 m c) _ main_arg6 (by exact (by decide : ∀ w, Pipeline.arrRef spec0 w ≠ main_arg6))]
  rw [show V0 m c (Proc.devRef .tc main_arg5) = m ((c : Thread nD τ).loc main_arg5) from V_main_arg5 m c,
    show V0 m c (Proc.devRef .tc main_arg6) = m ((c : Thread nD τ).loc main_arg6) from V_main_arg6 m c]

/-- The second mask result is batch 1 of the mask. -/
theorem tail_v49 (c : Dev nD) :
    Pipeline.afterTail₀ cfgs (dats (F := Ideal) m) 0 (V0 m) [hostOps1] c main_v49
      = extractStridedSlice S1x768x768x1 ![1, 0, 0, 0] (maskArr m c) slices_S2x768x768x1_S1x768x768x1_1_0_0_0 := by
  unfold Pipeline.afterTail₀
  show StableHlo.after hostOps1 _ (Proc.devRef .tc main_v49) = _
  after_results
  rw [Pipeline.withArrays_of_ne _ c (V0 m c) _ main_arg5 (by exact (by decide : ∀ w, Pipeline.arrRef spec0 w ≠ main_arg5)),
    Pipeline.withArrays_of_ne _ c (V0 m c) _ main_arg6 (by exact (by decide : ∀ w, Pipeline.arrRef spec0 w ≠ main_arg6))]
  rw [show V0 m c (Proc.devRef .tc main_arg5) = m ((c : Thread nD τ).loc main_arg5) from V_main_arg5 m c,
    show V0 m c (Proc.devRef .tc main_arg6) = m ((c : Thread nD τ).loc main_arg6) from V_main_arg6 m c]

/-- The kernel program's run with every result named: the float results the output array's batch slices, the mask
    results the mask's, the arguments unchanged. -/
theorem run_results : θ_run defs (onTc (τ := τ) (main (F := Ideal))) ⟨m, fun _ => 0, ρ⟩ (fun r => ∀ c : Dev nD,
      r.2.mem ((c.tc : Thread nD τ).loc main_v46)
        = extractStridedSlice S1x768x768x16 ![0, 0, 0, 0] (outArr m c) slices_S2x768x768x16_S1x768x768x16_0_0_0_0
      ∧ r.2.mem ((c.tc : Thread nD τ).loc main_v47)
        = extractStridedSlice S1x768x768x16 ![1, 0, 0, 0] (outArr m c) slices_S2x768x768x16_S1x768x768x16_1_0_0_0
      ∧ r.2.mem ((c.tc : Thread nD τ).loc main_v48)
        = extractStridedSlice S1x768x768x1 ![0, 0, 0, 0] (maskArr m c) slices_S2x768x768x1_S1x768x768x1_0_0_0_0
      ∧ r.2.mem ((c.tc : Thread nD τ).loc main_v49)
        = extractStridedSlice S1x768x768x1 ![1, 0, 0, 0] (maskArr m c) slices_S2x768x768x1_S1x768x768x1_1_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v46 (Pipeline.mem_restRefs_of main_v46 (by decide) (by decide))).trans (tail_v46 m c),
      ((h c).2 main_v47 (Pipeline.mem_restRefs_of main_v47 (by decide) (by decide))).trans (tail_v47 m c),
      ((h c).2 main_v48 (Pipeline.mem_restRefs_of main_v48 (by decide) (by decide))).trans (tail_v48 m c),
      ((h c).2 main_v49 (Pipeline.mem_restRefs_of main_v49 (by decide) (by decide))).trans (tail_v49 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.TailValue

end
-- ==== Proof.KBody.lean ====
/-
  The kernel body's value. The pallas_call walks a grid of 2 × 384 points; point (b, q) is handed rows 2q and 2q + 1 of
  image b of each per-pixel array (and rows 2q, 2q + 1 of the direction image), and stores sixteen one-channel slabs
  into its block of the output. This module reads those stores at a pixel (`block_apply`: channel g of pixel (r, w)
  is group g of the pixel's coefficients contracted with the nine harmonics at the pixel's direction, in the kernel's
  order of evaluation), identifies each input block with the rows of its array (`iblk…_apply`), and assembles the
  blocks into the whole output array (`out_apply`).
-/
import proofs.«415965_j58050777972780_3_alg».proof.Proof.Gen.KernelIdeal.Frame
import proofs.«415965_j58050777972780_3_alg».proof.Proof.Spec
import Idealize.ShloMosaic.Lib.Pipeline.Value
import Idealize.ShloMosaic.Lib.ValueIdx

set_option maxRecDepth 16384

noncomputable section

namespace Cert.KernelIdeal.BodyValue

open Cert.KernelIdeal Cert.KernelIdeal.Gen Idealize.ShloMosaic Idealize.ShloMosaic.ValueIdx
open Idealize.ShloMosaic.Pipeline (Dat)

/-! ## The layout operations of the body, read at a pixel

Every value of the body lives over a block of two image rows: a pixel is (r, w), a channel k. The body's layout
operations move a channel between the block with its leading unit axis and the block without it, pick one channel of
nine or of three, or repeat one channel nine times. -/

section Layout
variable {α : Type}

/-- Dropping the block's leading unit axis keeps row, column and channel. -/
theorem cast_drop {n : Nat} (v : (⟨4, ![1, 2, 768, n]⟩ : Shape).Idx → α)
    (h : (⟨4, ![1, 2, 768, n]⟩ : Shape).ShapeCasts ⟨3, ![2, 768, n]⟩) (r : Fin 2) (w : Fin 768) (k : Fin n) :
    shapeCast ⟨3, ![2, 768, n]⟩ v h (ix3 r w k) = v (ix4 0 r w k) := by
  refine shapeCast_apply v h _ _ ?_
  rw [Shape.rowMajor_val_four, Shape.rowMajor_val_three]
  show ((0 * 2 + r.val) * 768 + w.val) * n + k.val = (r.val * 768 + w.val) * n + k.val
  rw [Nat.zero_mul, Nat.zero_add]

/-- Adding it back does too. -/
theorem cast_add {n : Nat} (v : (⟨3, ![2, 768, n]⟩ : Shape).Idx → α)
    (h : (⟨3, ![2, 768, n]⟩ : Shape).ShapeCasts ⟨4, ![1, 2, 768, n]⟩) (a : Fin 1) (r : Fin 2) (w : Fin 768) (k : Fin n) :
    shapeCast ⟨4, ![1, 2, 768, n]⟩ v h (ix4 a r w k) = v (ix3 r w k) := by
  refine shapeCast_apply v h _ _ ?_
  rw [Shape.rowMajor_val_four, Shape.rowMajor_val_three]
  show (r.val * 768 + w.val) * n + k.val = ((a.val * 2 + r.val) * 768 + w.val) * n + k.val
  rw [show a.val = 0 from by omega, Nat.zero_mul, Nat.zero_add]

/-- A one-channel block cut at channel `o` of `n` lies inside the `n`. -/
theorem slice_lt {n o : Nat} (h : (⟨3, ![2, 768, n]⟩ : Shape).Slices ![0, 0, o] ⟨3, ![2, 768, 1]⟩) : o < n := by
  have := h.2 2
  have e : o + 1 ≤ n := this
  omega

/-- One channel `o` of `n`, as a block of one channel. -/
theorem slice_chan {n : Nat} (o : Nat) (v : (⟨3, ![2, 768, n]⟩ : Shape).Idx → α)
    (h : (⟨3, ![2, 768, n]⟩ : Shape).Slices ![0, 0, o] ⟨3, ![2, 768, 1]⟩) (r : Fin 2) (w : Fin 768) (k : Fin 1) :
    extractStridedSlice ⟨3, ![2, 768, 1]⟩ ![0, 0, o] v h (ix3 r w k) = v (ix3 r w ⟨o, slice_lt h⟩) := by
  refine extractStridedSlice_apply _ v h _ _ fun a => ?_
  match a with
  | ⟨0, _⟩ => show r.val = 0 + r.val; omega
  | ⟨1, _⟩ => show w.val = 0 + w.val; omega
  | ⟨2, _⟩ => show o = o + k.val; omega

/-- One channel repeated `n` times. -/
theorem bcast_chan {n : Nat} (v : (⟨3, ![2, 768, 1]⟩ : Shape).Idx → α)
    (h : (⟨3, ![2, 768, 1]⟩ : Shape).Broadcasts ⟨3, ![2, 768, n]⟩) (r : Fin 2) (w : Fin 768) (k : Fin n) :
    broadcastTo ⟨3, ![2, 768, n]⟩ v h (ix3 r w k) = v (ix3 r w 0) := by
  refine broadcastTo_apply v h _ _ fun a => ?_
  match a with
  | ⟨0, _⟩ => rfl
  | ⟨1, _⟩ => rfl
  | ⟨2, _⟩ => rfl

end Layout

/-! ## The body's loads -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- Nine channels of the 72 from channel `o` on: channel `k` of the nine is channel `o + k` of the 72. -/
theorem idx_chan (o : Nat)
    (inb : ∀ a, (![0, 0, 0, o] : Fin 4 → Nat) a + S1x2x768x9.size a ≤ S1x2x768x72.size a) (r : Fin 2) (w : Fin 768) (k : Fin 9) :
    (Rect.unit (s := S1x2x768x72) ![0, 0, 0, o] S1x2x768x9.size inb).toLoadRect.idx (ix4 0 r w k)
      = ix4 0 r w ⟨o + k.val, by have e : o + 9 ≤ 72 := inb 3; omega⟩ := by
  funext a
  apply Fin.ext
  match a with
  | ⟨0, _⟩ => show 0 + 1 * 0 = 0; rfl
  | ⟨1, _⟩ => show 0 + 1 * r.val = r.val; omega
  | ⟨2, _⟩ => show 0 + 1 * w.val = w.val; omega
  | ⟨3, _⟩ => show o + 1 * k.val = o + k.val; omega

/-! ## One pixel of the block -/

/-- Group `g` of pixel (r, w) of the block after the body, from the nine input blocks: the group's nine coefficients
    against the nine harmonics at the pixel's direction. -/
def pixel (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) (g : Fin 16) : EReal :=
  Cert.Spec.shK (x8 (ix3 r w 0)) (x8 (ix3 r w 1)) (x8 (ix3 r w 2))
    (Cert.Spec.chK (fun ch => x0 (ix4 0 r w ch)) (fun ch => x1 (ix4 0 r w ch)) (fun ch => x2 (ix4 0 r w ch))
      (fun ch => x3 (ix4 0 r w ch)) (x4 (ix4 0 r w 0)) (x4 (ix4 0 r w 1)) (x4 (ix4 0 r w 2))
      (x5 (ix4 0 r w 0)) (x6 (ix4 0 r w 0)) (x7 (ix4 0 r w 0)) g)

/-! ## The sixteen stores, each at a pixel

Store `g` writes channel `g` of the output block. Its value is built from the same few shared values (the eight
direction polynomials, the product of point mask and weight, the three barycentric weights, the face mask) and from the
nine channels `9 g' … 9 g' + 8` of the point features (g = g' < 8) or of the three vertex features (g = 8 + g'); the
sixteen differ only in which of the shared values they receive ready-made and which they form themselves. At a pixel
every one of them is the contraction `pixel`. -/

/-- Store 0's value at pixel (r, w). -/
theorem pay_g0 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay26 (k0_pay2 (View.ld x5 r0_0)) (k0_pay4 (View.ld x7 r0_0)) (k0_pay10 (View.ld x8 r0_2)) (k0_pay11 (View.ld x8 r0_2)) (k0_pay12 (View.ld x8 r0_2)) (k0_pay13 (View.ld x8 r0_2)) (k0_pay14 (View.ld x8 r0_2)) (k0_pay15 (View.ld x8 r0_2)) (k0_pay16 (View.ld x8 r0_2)) (k0_pay17 (View.ld x8 r0_2)) (k0_pay18 (View.ld x8 r0_2)) (View.ld x0 r0_3) (ix4 0 r w 0)
      = pixel x0 x1 x2 x3 x4 x5 x6 x7 x8 r w 0 := by
  simp only [View.ld_unit_zero (S := S1x2x768x1) hz4, View.ld_unit_zero (S := S1x2x768x3) hz4, View.ld_unit_zero (S := S2x768x3) hz3]
  unfold k0_pay26 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 1's value at pixel (r, w). -/
theorem pay_g1 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay27 (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay22 (k0_pay2 (View.ld x5 r0_0)) (k0_pay4 (View.ld x7 r0_0))) (View.ld x0 r0_5) (ix4 0 r w 0)
      = pixel x0 x1 x2 x3 x4 x5 x6 x7 x8 r w 1 := by
  simp only [View.ld_unit_zero (S := S1x2x768x1) hz4, View.ld_unit_zero (S := S1x2x768x3) hz4, View.ld_unit_zero (S := S2x768x3) hz3]
  unfold k0_pay27 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 2's value at pixel (r, w). -/
theorem pay_g2 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay30 (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay28 (k0_pay22 (k0_pay2 (View.ld x5 r0_0)) (k0_pay4 (View.ld x7 r0_0))) (View.ld x0 r0_7)) (k0_pay29 (k0_pay13 (View.ld x8 r0_2)) (k0_pay14 (View.ld x8 r0_2)) (k0_pay22 (k0_pay2 (View.ld x5 r0_0)) (k0_pay4 (View.ld x7 r0_0))) (View.ld x0 r0_7)) (ix4 0 r w 0)
      = pixel x0 x1 x2 x3 x4 x5 x6 x7 x8 r w 2 := by
  simp only [View.ld_unit_zero (S := S1x2x768x1) hz4, View.ld_unit_zero (S := S1x2x768x3) hz4, View.ld_unit_zero (S := S2x768x3) hz3]
  unfold k0_pay30 k0_pay29 k0_pay28 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 3's value at pixel (r, w). -/
theorem pay_g3 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay34 (k0_pay21 (k0_pay10 (View.ld x8 r0_2)) (k0_pay11 (View.ld x8 r0_2))) (k0_pay32 (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay22 (k0_pay2 (View.ld x5 r0_0)) (k0_pay4 (View.ld x7 r0_0))) (View.ld x0 r0_9)) (k0_pay33 (k0_pay22 (k0_pay2 (View.ld x5 r0_0)) (k0_pay4 (View.ld x7 r0_0))) (View.ld x0 r0_9)) (ix4 0 r w 0)
      = pixel x0 x1 x2 x3 x4 x5 x6 x7 x8 r w 3 := by
  simp only [View.ld_unit_zero (S := S1x2x768x1) hz4, View.ld_unit_zero (S := S1x2x768x3) hz4, View.ld_unit_zero (S := S2x768x3) hz3]
  unfold k0_pay34 k0_pay33 k0_pay32 k0_pay31 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 4's value at pixel (r, w). -/
theorem pay_g4 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay35 (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay22 (k0_pay2 (View.ld x5 r0_0)) (k0_pay4 (View.ld x7 r0_0))) (View.ld x0 r0_11) (ix4 0 r w 0)
      = pixel x0 x1 x2 x3 x4 x5 x6 x7 x8 r w 4 := by
  simp only [View.ld_unit_zero (S := S1x2x768x1) hz4, View.ld_unit_zero (S := S1x2x768x3) hz4, View.ld_unit_zero (S := S2x768x3) hz3]
  unfold k0_pay35 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 5's value at pixel (r, w). -/
theorem pay_g5 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay37 (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay22 (k0_pay2 (View.ld x5 r0_0)) (k0_pay4 (View.ld x7 r0_0))) (k0_pay36 (View.ld x0 r0_13)) (ix4 0 r w 0)
      = pixel x0 x1 x2 x3 x4 x5 x6 x7 x8 r w 5 := by
  simp only [View.ld_unit_zero (S := S1x2x768x1) hz4, View.ld_unit_zero (S := S1x2x768x3) hz4, View.ld_unit_zero (S := S2x768x3) hz3]
  unfold k0_pay37 k0_pay36 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 6's value at pixel (r, w). -/
theorem pay_g6 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay41 (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay38 (k0_pay22 (k0_pay2 (View.ld x5 r0_0)) (k0_pay4 (View.ld x7 r0_0))) (View.ld x0 r0_15)) (k0_pay39 (k0_pay13 (View.ld x8 r0_2)) (k0_pay14 (View.ld x8 r0_2)) (k0_pay15 (View.ld x8 r0_2)) (k0_pay22 (k0_pay2 (View.ld x5 r0_0)) (k0_pay4 (View.ld x7 r0_0))) (View.ld x0 r0_15)) (k0_pay40 (k0_pay22 (k0_pay2 (View.ld x5 r0_0)) (k0_pay4 (View.ld x7 r0_0))) (View.ld x0 r0_15)) (ix4 0 r w 0)
      = pixel x0 x1 x2 x3 x4 x5 x6 x7 x8 r w 6 := by
  simp only [View.ld_unit_zero (S := S1x2x768x1) hz4, View.ld_unit_zero (S := S1x2x768x3) hz4, View.ld_unit_zero (S := S2x768x3) hz3]
  unfold k0_pay41 k0_pay40 k0_pay39 k0_pay38 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 7's value at pixel (r, w). -/
theorem pay_g7 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay43 (k0_pay42 (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay22 (k0_pay2 (View.ld x5 r0_0)) (k0_pay4 (View.ld x7 r0_0))) (View.ld x0 r0_17)) (ix4 0 r w 0)
      = pixel x0 x1 x2 x3 x4 x5 x6 x7 x8 r w 7 := by
  simp only [View.ld_unit_zero (S := S1x2x768x1) hz4, View.ld_unit_zero (S := S1x2x768x3) hz4, View.ld_unit_zero (S := S2x768x3) hz3]
  unfold k0_pay43 k0_pay42 k0_pay22 k0_pay21 k0_pay20 k0_pay19 k0_pay18 k0_pay17 k0_pay16 k0_pay15 k0_pay14 k0_pay13 k0_pay12 k0_pay11 k0_pay10 k0_pay9 k0_pay8 k0_pay7 k0_pay6 k0_pay4 k0_pay2
  simp only [mulf_apply, addf_apply, subf_apply, broadcast_apply, cast_add, cast_drop, slice_chan, bcast_chan, shapeCast_self, View.ld, idx_chan]
  rfl

/-- Store 8's value at pixel (r, w). -/
theorem pay_g8 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay47 (k0_pay21 (k0_pay10 (View.ld x8 r0_2)) (k0_pay11 (View.ld x8 r0_2))) (k0_pay45 (k0_pay3 (View.ld x6 r0_0)) (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay23 (k0_pay5 (View.ld x4 r0_1))) (k0_pay24 (k0_pay5 (View.ld x4 r0_1))) (k0_pay25 (k0_pay5 (View.ld x4 r0_1))) (View.ld x1 r0_3) (View.ld x2 r0_3) (View.ld x3 r0_3)) (k0_pay46 (k0_pay3 (View.ld x6 r0_0)) (k0_pay23 (k0_pay5 (View.ld x4 r0_1))) (k0_pay24 (k0_pay5 (View.ld x4 r0_1))) (k0_pay25 (k0_pay5 (View.ld x4 r0_1))) (View.ld x1 r0_3) (View.ld x2 r0_3) (View.ld x3 r0_3)) (ix4 0 r w 0)
      = pixel x0 x1 x2 x3 x4 x5 x6 x7 x8 r w 8 := by
  simp only [View.ld_unit_zero (S := S1x2x768x1) hz4, View.ld_unit_zero (S := S1x2x768x3) hz4, View.ld_unit_zero (S := S2x768x3) hz3]
  unfold k0_pay47 k0_pay46 k0_pay45 k0_pay44 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3
  simp only [mulf_apply, addf_apply, subf_apply, broadcast_apply, cast_add, cast_drop, slice_chan, bcast_chan, shapeCast_self, View.ld, idx_chan]
  rfl

/-- Store 9's value at pixel (r, w). -/
theorem pay_g9 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay50 (k0_pay20 (k0_pay12 (View.ld x8 r0_2))) (k0_pay21 (k0_pay10 (View.ld x8 r0_2)) (k0_pay11 (View.ld x8 r0_2))) (k0_pay48 (k0_pay3 (View.ld x6 r0_0)) (k0_pay23 (k0_pay5 (View.ld x4 r0_1))) (k0_pay24 (k0_pay5 (View.ld x4 r0_1))) (k0_pay25 (k0_pay5 (View.ld x4 r0_1))) (View.ld x1 r0_5) (View.ld x2 r0_5) (View.ld x3 r0_5)) (k0_pay49 (k0_pay3 (View.ld x6 r0_0)) (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay23 (k0_pay5 (View.ld x4 r0_1))) (k0_pay24 (k0_pay5 (View.ld x4 r0_1))) (k0_pay25 (k0_pay5 (View.ld x4 r0_1))) (View.ld x1 r0_5) (View.ld x2 r0_5) (View.ld x3 r0_5)) (ix4 0 r w 0)
      = pixel x0 x1 x2 x3 x4 x5 x6 x7 x8 r w 9 := by
  simp only [View.ld_unit_zero (S := S1x2x768x1) hz4, View.ld_unit_zero (S := S1x2x768x3) hz4, View.ld_unit_zero (S := S2x768x3) hz3]
  unfold k0_pay50 k0_pay49 k0_pay48 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3
  simp only [mulf_apply, addf_apply, subf_apply, broadcast_apply, cast_add, cast_drop, slice_chan, bcast_chan, shapeCast_self, View.ld, idx_chan]
  rfl

/-- Store 10's value at pixel (r, w). -/
theorem pay_g10 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay54 (k0_pay19 (k0_pay18 (View.ld x8 r0_2))) (k0_pay20 (k0_pay12 (View.ld x8 r0_2))) (k0_pay21 (k0_pay10 (View.ld x8 r0_2)) (k0_pay11 (View.ld x8 r0_2))) (k0_pay51 (k0_pay3 (View.ld x6 r0_0)) (k0_pay23 (k0_pay5 (View.ld x4 r0_1))) (k0_pay24 (k0_pay5 (View.ld x4 r0_1))) (k0_pay25 (k0_pay5 (View.ld x4 r0_1))) (View.ld x1 r0_7) (View.ld x2 r0_7) (View.ld x3 r0_7)) (k0_pay52 (k0_pay3 (View.ld x6 r0_0)) (k0_pay13 (View.ld x8 r0_2)) (k0_pay14 (View.ld x8 r0_2)) (k0_pay15 (View.ld x8 r0_2)) (k0_pay16 (View.ld x8 r0_2)) (k0_pay23 (k0_pay5 (View.ld x4 r0_1))) (k0_pay24 (k0_pay5 (View.ld x4 r0_1))) (k0_pay25 (k0_pay5 (View.ld x4 r0_1))) (View.ld x1 r0_7) (View.ld x2 r0_7) (View.ld x3 r0_7)) (k0_pay53 (k0_pay3 (View.ld x6 r0_0)) (k0_pay17 (View.ld x8 r0_2)) (k0_pay23 (k0_pay5 (View.ld x4 r0_1))) (k0_pay24 (k0_pay5 (View.ld x4 r0_1))) (k0_pay25 (k0_pay5 (View.ld x4 r0_1))) (View.ld x1 r0_7) (View.ld x2 r0_7) (View.ld x3 r0_7)) (ix4 0 r w 0)
      = pixel x0 x1 x2 x3 x4 x5 x6 x7 x8 r w 10 := by
  simp only [View.ld_unit_zero (S := S1x2x768x1) hz4, View.ld_unit_zero (S := S1x2x768x3) hz4, View.ld_unit_zero (S := S2x768x3) hz3]
  unfold k0_pay54 k0_pay53 k0_pay52 k0_pay51 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3
  simp only [mulf_apply, addf_apply, subf_apply, broadcast_apply, cast_add, cast_drop, slice_chan, bcast_chan, shapeCast_self, View.ld, idx_chan]
  rfl

/-- Store 11's value at pixel (r, w). -/
theorem pay_g11 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay58 (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay55 (k0_pay3 (View.ld x6 r0_0)) (k0_pay23 (k0_pay5 (View.ld x4 r0_1))) (k0_pay24 (k0_pay5 (View.ld x4 r0_1))) (k0_pay25 (k0_pay5 (View.ld x4 r0_1))) (View.ld x1 r0_9) (View.ld x2 r0_9) (View.ld x3 r0_9)) (k0_pay56 (k0_pay3 (View.ld x6 r0_0)) (k0_pay13 (View.ld x8 r0_2)) (k0_pay14 (View.ld x8 r0_2)) (k0_pay15 (View.ld x8 r0_2)) (k0_pay23 (k0_pay5 (View.ld x4 r0_1))) (k0_pay24 (k0_pay5 (View.ld x4 r0_1))) (k0_pay25 (k0_pay5 (View.ld x4 r0_1))) (View.ld x1 r0_9) (View.ld x2 r0_9) (View.ld x3 r0_9)) (k0_pay57 (k0_pay3 (View.ld x6 r0_0)) (k0_pay23 (k0_pay5 (View.ld x4 r0_1))) (k0_pay24 (k0_pay5 (View.ld x4 r0_1))) (k0_pay25 (k0_pay5 (View.ld x4 r0_1))) (View.ld x1 r0_9) (View.ld x2 r0_9) (View.ld x3 r0_9)) (ix4 0 r w 0)
      = pixel x0 x1 x2 x3 x4 x5 x6 x7 x8 r w 11 := by
  simp only [View.ld_unit_zero (S := S1x2x768x1) hz4, View.ld_unit_zero (S := S1x2x768x3) hz4, View.ld_unit_zero (S := S2x768x3) hz3]
  unfold k0_pay58 k0_pay57 k0_pay56 k0_pay55 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3
  simp only [mulf_apply, addf_apply, subf_apply, broadcast_apply, cast_add, cast_drop, slice_chan, bcast_chan, shapeCast_self, View.ld, idx_chan]
  rfl

/-- Store 12's value at pixel (r, w). -/
theorem pay_g12 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay61 (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay59 (k0_pay3 (View.ld x6 r0_0)) (k0_pay23 (k0_pay5 (View.ld x4 r0_1))) (k0_pay24 (k0_pay5 (View.ld x4 r0_1))) (k0_pay25 (k0_pay5 (View.ld x4 r0_1))) (View.ld x1 r0_11) (View.ld x2 r0_11) (View.ld x3 r0_11)) (k0_pay60 (k0_pay3 (View.ld x6 r0_0)) (k0_pay13 (View.ld x8 r0_2)) (k0_pay14 (View.ld x8 r0_2)) (k0_pay23 (k0_pay5 (View.ld x4 r0_1))) (k0_pay24 (k0_pay5 (View.ld x4 r0_1))) (k0_pay25 (k0_pay5 (View.ld x4 r0_1))) (View.ld x1 r0_11) (View.ld x2 r0_11) (View.ld x3 r0_11)) (ix4 0 r w 0)
      = pixel x0 x1 x2 x3 x4 x5 x6 x7 x8 r w 12 := by
  simp only [View.ld_unit_zero (S := S1x2x768x1) hz4, View.ld_unit_zero (S := S1x2x768x3) hz4, View.ld_unit_zero (S := S2x768x3) hz3]
  unfold k0_pay61 k0_pay60 k0_pay59 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3
  simp only [mulf_apply, addf_apply, subf_apply, broadcast_apply, cast_add, cast_drop, slice_chan, bcast_chan, shapeCast_self, View.ld, idx_chan]
  rfl

/-- Store 13's value at pixel (r, w). -/
theorem pay_g13 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay65 (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay62 (k0_pay3 (View.ld x6 r0_0)) (k0_pay23 (k0_pay5 (View.ld x4 r0_1))) (k0_pay24 (k0_pay5 (View.ld x4 r0_1))) (k0_pay25 (k0_pay5 (View.ld x4 r0_1))) (View.ld x1 r0_13) (View.ld x2 r0_13) (View.ld x3 r0_13)) (k0_pay63 (k0_pay3 (View.ld x6 r0_0)) (k0_pay23 (k0_pay5 (View.ld x4 r0_1))) (k0_pay24 (k0_pay5 (View.ld x4 r0_1))) (k0_pay25 (k0_pay5 (View.ld x4 r0_1))) (View.ld x1 r0_13) (View.ld x2 r0_13) (View.ld x3 r0_13)) (k0_pay64 (k0_pay3 (View.ld x6 r0_0)) (k0_pay13 (View.ld x8 r0_2)) (k0_pay23 (k0_pay5 (View.ld x4 r0_1))) (k0_pay24 (k0_pay5 (View.ld x4 r0_1))) (k0_pay25 (k0_pay5 (View.ld x4 r0_1))) (View.ld x1 r0_13) (View.ld x2 r0_13) (View.ld x3 r0_13)) (ix4 0 r w 0)
      = pixel x0 x1 x2 x3 x4 x5 x6 x7 x8 r w 13 := by
  simp only [View.ld_unit_zero (S := S1x2x768x1) hz4, View.ld_unit_zero (S := S1x2x768x3) hz4, View.ld_unit_zero (S := S2x768x3) hz3]
  unfold k0_pay65 k0_pay64 k0_pay63 k0_pay62 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3
  simp only [mulf_apply, addf_apply, subf_apply, broadcast_apply, cast_add, cast_drop, slice_chan, bcast_chan, shapeCast_self, View.ld, idx_chan]
  rfl

/-- Store 14's value at pixel (r, w). -/
theorem pay_g14 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay68 (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay66 (k0_pay3 (View.ld x6 r0_0)) (k0_pay23 (k0_pay5 (View.ld x4 r0_1))) (k0_pay24 (k0_pay5 (View.ld x4 r0_1))) (k0_pay25 (k0_pay5 (View.ld x4 r0_1))) (View.ld x1 r0_15) (View.ld x2 r0_15) (View.ld x3 r0_15)) (k0_pay67 (k0_pay3 (View.ld x6 r0_0)) (k0_pay23 (k0_pay5 (View.ld x4 r0_1))) (k0_pay24 (k0_pay5 (View.ld x4 r0_1))) (k0_pay25 (k0_pay5 (View.ld x4 r0_1))) (View.ld x1 r0_15) (View.ld x2 r0_15) (View.ld x3 r0_15)) (Scalar.ofBits .f32 0x3E906EBB#32) (ix4 0 r w 0)
      = pixel x0 x1 x2 x3 x4 x5 x6 x7 x8 r w 14 := by
  simp only [View.ld_unit_zero (S := S1x2x768x1) hz4, View.ld_unit_zero (S := S1x2x768x3) hz4, View.ld_unit_zero (S := S2x768x3) hz3]
  unfold k0_pay68 k0_pay67 k0_pay66 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3
  simp only [mulf_apply, addf_apply, subf_apply, broadcast_apply, cast_add, cast_drop, slice_chan, bcast_chan, shapeCast_self, View.ld, idx_chan]
  rfl

/-- Store 15's value at pixel (r, w). -/
theorem pay_g15 (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) :
    k0_pay1 (k0_pay3 (View.ld x6 r0_0)) (k0_pay13 (View.ld x8 r0_2)) (k0_pay14 (View.ld x8 r0_2)) (k0_pay15 (View.ld x8 r0_2)) (k0_pay16 (View.ld x8 r0_2)) (k0_pay17 (View.ld x8 r0_2)) (k0_pay19 (k0_pay18 (View.ld x8 r0_2))) (k0_pay20 (k0_pay12 (View.ld x8 r0_2))) (k0_pay21 (k0_pay10 (View.ld x8 r0_2)) (k0_pay11 (View.ld x8 r0_2))) (k0_pay69 (k0_pay23 (k0_pay5 (View.ld x4 r0_1))) (k0_pay24 (k0_pay5 (View.ld x4 r0_1))) (k0_pay25 (k0_pay5 (View.ld x4 r0_1))) (View.ld x1 r0_17) (View.ld x2 r0_17) (View.ld x3 r0_17)) (ix4 0 r w 0)
      = pixel x0 x1 x2 x3 x4 x5 x6 x7 x8 r w 15 := by
  simp only [View.ld_unit_zero (S := S1x2x768x1) hz4, View.ld_unit_zero (S := S1x2x768x3) hz4, View.ld_unit_zero (S := S2x768x3) hz3]
  unfold k0_pay69 k0_pay25 k0_pay24 k0_pay23 k0_pay21 k0_pay20 k0_pay19 k0_pay18 k0_pay17 k0_pay16 k0_pay15 k0_pay14 k0_pay13 k0_pay12 k0_pay11 k0_pay10 k0_pay9 k0_pay8 k0_pay7 k0_pay6 k0_pay5 k0_pay3 k0_pay1
  simp only [mulf_apply, addf_apply, subf_apply, broadcast_apply, cast_add, cast_drop, slice_chan, bcast_chan, shapeCast_self, View.ld, idx_chan]
  rfl

/-! ## The block after the body -/

/-- The one-channel rectangle of store `g` places pixel (r, w) at channel `g` of the output block. -/
theorem emb_chan (g : Nat)
    (inb : ∀ a, (![0, 0, 0, g] : Fin 4 → Nat) a + S1x2x768x1.size a ≤ S1x2x768x16.size a) (a : Fin 1) (r : Fin 2) (w : Fin 768) (d : Fin 1) :
    (Rect.unit (s := S1x2x768x16) ![0, 0, 0, g] S1x2x768x1.size inb).emb (ix4 a r w d)
      = ix4 0 r w ⟨g, by have e : g + 1 ≤ 16 := inb 3; omega⟩ := by
  funext i
  apply Fin.ext
  match i with
  | ⟨0, _⟩ => show 0 + 1 * a.val = 0; omega
  | ⟨1, _⟩ => show 0 + 1 * r.val = r.val; omega
  | ⟨2, _⟩ => show 0 + 1 * w.val = w.val; omega
  | ⟨3, _⟩ => show g + 1 * d.val = g; omega

/-- THE BLOCK AFTER THE BODY, pixel by pixel and group by group: the sixteen stores tile the block by channel, and store
    `g` leaves `pixel … g` at every pixel. -/
theorem block_apply (x0 x1 x2 x3 : Vec Ideal S1x2x768x72 .f32) (x4 : Vec Ideal S1x2x768x3 .f32) (x5 x6 x7 : Vec Ideal S1x2x768x1 .f32)
    (x8 : Vec Ideal S2x768x3 .f32) (r : Fin 2) (w : Fin 768) (g : Fin 16) :
    out0_9 x0 x1 x2 x3 x4 x5 x6 x7 x8 (ix4 0 r w g) = pixel x0 x1 x2 x3 x4 x5 x6 x7 x8 r w g := by
  unfold out0_9
  refine View.canon_apply_of_pieces (Val := Elt Ideal) (fun y : S1x2x768x16.Idx => pixel x0 x1 x2 x3 x4 x5 x6 x7 x8 (y 1) (y 2) (y 3)) _ ?_ (ix4 0 r w g)
    (cover0_9 _ _ _ _ _ _ _ _ _ _ _ _ _ _ _ _ _)
  intro p hp
  simp only [List.mem_cons, List.not_mem_nil, or_false] at hp
  rcases hp with rfl | rfl | rfl | rfl | rfl | rfl | rfl | rfl | rfl | rfl | rfl | rfl | rfl | rfl | rfl | rfl
  all_goals
    intro x
    obtain ⟨a, r', w', d, rfl⟩ : ∃ (a : Fin 1) (r' : Fin 2) (w' : Fin 768) (d : Fin 1), x = ix4 a r' w' d :=
      ⟨x 0, x 1, x 2, x 3, eq_ix4 x⟩
    obtain rfl : a = 0 := Subsingleton.elim _ _
    obtain rfl : d = 0 := Subsingleton.elim _ _
    dsimp only
    rw [emb_chan]
  · exact pay_g15 x0 x1 x2 x3 x4 x5 x6 x7 x8 r' w'
  · exact pay_g14 x0 x1 x2 x3 x4 x5 x6 x7 x8 r' w'
  · exact pay_g13 x0 x1 x2 x3 x4 x5 x6 x7 x8 r' w'
  · exact pay_g12 x0 x1 x2 x3 x4 x5 x6 x7 x8 r' w'
  · exact pay_g11 x0 x1 x2 x3 x4 x5 x6 x7 x8 r' w'
  · exact pay_g10 x0 x1 x2 x3 x4 x5 x6 x7 x8 r' w'
  · exact pay_g9 x0 x1 x2 x3 x4 x5 x6 x7 x8 r' w'
  · exact pay_g8 x0 x1 x2 x3 x4 x5 x6 x7 x8 r' w'
  · exact pay_g7 x0 x1 x2 x3 x4 x5 x6 x7 x8 r' w'
  · exact pay_g6 x0 x1 x2 x3 x4 x5 x6 x7 x8 r' w'
  · exact pay_g5 x0 x1 x2 x3 x4 x5 x6 x7 x8 r' w'
  · exact pay_g4 x0 x1 x2 x3 x4 x5 x6 x7 x8 r' w'
  · exact pay_g3 x0 x1 x2 x3 x4 x5 x6 x7 x8 r' w'
  · exact pay_g2 x0 x1 x2 x3 x4 x5 x6 x7 x8 r' w'
  · exact pay_g1 x0 x1 x2 x3 x4 x5 x6 x7 x8 r' w'
  · exact pay_g0 x0 x1 x2 x3 x4 x5 x6 x7 x8 r' w'

/-! ## From blocks to the array

Grid point `t` of the 768 is image `t / 384`, row pair `t % 384`: every per-pixel window's block index there is
(t / 384, t % 384, 0, 0), the direction window's (t % 384, 0, 0). -/

variable (m : (ℓ : Loc nD τ sig) → Buf (Elt Ideal) ℓ)

/-- The printed index maps, decided once over the grid. -/
theorem idx_facts : ∀ t : Fin cfg0.N,
    (win0_0.index t (0 : Fin 4) = t.val / 384 ∧ win0_0.index t (1 : Fin 4) = t.val % 384 ∧ win0_0.index t (2 : Fin 4) = 0 ∧ win0_0.index t (3 : Fin 4) = 0)
    ∧ (win0_1.index t (0 : Fin 4) = t.val / 384 ∧ win0_1.index t (1 : Fin 4) = t.val % 384 ∧ win0_1.index t (2 : Fin 4) = 0 ∧ win0_1.index t (3 : Fin 4) = 0)
    ∧ (win0_2.index t (0 : Fin 4) = t.val / 384 ∧ win0_2.index t (1 : Fin 4) = t.val % 384 ∧ win0_2.index t (2 : Fin 4) = 0 ∧ win0_2.index t (3 : Fin 4) = 0)
    ∧ (win0_3.index t (0 : Fin 4) = t.val / 384 ∧ win0_3.index t (1 : Fin 4) = t.val % 384 ∧ win0_3.index t (2 : Fin 4) = 0 ∧ win0_3.index t (3 : Fin 4) = 0)
    ∧ (win0_4.index t (0 : Fin 4) = t.val / 384 ∧ win0_4.index t (1 : Fin 4) = t.val % 384 ∧ win0_4.index t (2 : Fin 4) = 0 ∧ win0_4.index t (3 : Fin 4) = 0)
    ∧ (win0_5.index t (0 : Fin 4) = t.val / 384 ∧ win0_5.index t (1 : Fin 4) = t.val % 384 ∧ win0_5.index t (2 : Fin 4) = 0 ∧ win0_5.index t (3 : Fin 4) = 0)
    ∧ (win0_6.index t (0 : Fin 4) = t.val / 384 ∧ win0_6.index t (1 : Fin 4) = t.val % 384 ∧ win0_6.index t (2 : Fin 4) = 0 ∧ win0_6.index t (3 : Fin 4) = 0)
    ∧ (win0_7.index t (0 : Fin 4) = t.val / 384 ∧ win0_7.index t (1 : Fin 4) = t.val % 384 ∧ win0_7.index t (2 : Fin 4) = 0 ∧ win0_7.index t (3 : Fin 4) = 0)
    ∧ (win0_8.index t (0 : Fin 3) = t.val % 384 ∧ win0_8.index t (1 : Fin 3) = 0 ∧ win0_8.index t (2 : Fin 3) = 0)
    ∧ (win0_9.index t (0 : Fin 4) = t.val / 384 ∧ win0_9.index t (1 : Fin 4) = t.val % 384 ∧ win0_9.index t (2 : Fin 4) = 0 ∧ win0_9.index t (3 : Fin 4) = 0) :=
  (by decide +kernel : ∀ t : Fin grid0.N, _)

/-- There are 768 grid points. -/
theorem pt_lt (t : Fin cfg0.N) : t.val < 768 := by
  have h : t.val < grid0.N := t.isLt
  have e : grid0.N = 768 := N_0
  omega

/-- The image grid point `t` works on, -/
def img (t : Fin cfg0.N) : Fin 2 := ⟨t.val / 384, by have := pt_lt t; omega⟩
/-- and the image row its block's row `r` is. -/
def row (t : Fin cfg0.N) (r : Fin 2) : Fin 768 := ⟨2 * (t.val % 384) + r.val, by have := pt_lt t; omega⟩

/-! ### Each input block is rows of its array -/

/-- Window 0's block at point `t` is rows `2 (t % 384)`, `2 (t % 384) + 1` of image `t / 384` of its array. -/
theorem iblk0_apply (c : Dev nD) (t : Fin cfg0.N) (r : Fin 2) (w : Fin 768) (ch : Fin 72) :
    (iblk m c 0 t : Vec Ideal S1x2x768x72 .f32) (ix4 0 r w ch)
      = (V m c main_v8 : S2x768x768x72.Idx → EReal) (ix4 (img t) (row t r) w ch) := by
  obtain ⟨e0, e1, e2, e3⟩ := (idx_facts t).1
  unfold iblk
  rw [View.read_apply]
  show V m c main_v8 _ = V m c main_v8 _
  congr 1
  funext a
  apply Fin.ext
  match a with
  | ⟨0, _⟩ => show win0_0.index t (0 : Fin 4) * 1 + 1 * 0 = t.val / 384; rw [e0]; omega
  | ⟨1, _⟩ => show win0_0.index t (1 : Fin 4) * 2 + 1 * r.val = 2 * (t.val % 384) + r.val; rw [e1]; omega
  | ⟨2, _⟩ => show win0_0.index t (2 : Fin 4) * 768 + 1 * w.val = w.val; rw [e2]; omega
  | ⟨3, _⟩ => show win0_0.index t (3 : Fin 4) * 72 + 1 * ch.val = ch.val; rw [e3]; omega

/-- Window 1's block at point `t` is rows `2 (t % 384)`, `2 (t % 384) + 1` of image `t / 384` of its array. -/
theorem iblk1_apply (c : Dev nD) (t : Fin cfg0.N) (r : Fin 2) (w : Fin 768) (ch : Fin 72) :
    (iblk m c 1 t : Vec Ideal S1x2x768x72 .f32) (ix4 0 r w ch)
      = (V m c main_v16 : S2x768x768x72.Idx → EReal) (ix4 (img t) (row t r) w ch) := by
  obtain ⟨e0, e1, e2, e3⟩ := (idx_facts t).2.1
  unfold iblk
  rw [View.read_apply]
  show V m c main_v16 _ = V m c main_v16 _
  congr 1
  funext a
  apply Fin.ext
  match a with
  | ⟨0, _⟩ => show win0_1.index t (0 : Fin 4) * 1 + 1 * 0 = t.val / 384; rw [e0]; omega
  | ⟨1, _⟩ => show win0_1.index t (1 : Fin 4) * 2 + 1 * r.val = 2 * (t.val % 384) + r.val; rw [e1]; omega
  | ⟨2, _⟩ => show win0_1.index t (2 : Fin 4) * 768 + 1 * w.val = w.val; rw [e2]; omega
  | ⟨3, _⟩ => show win0_1.index t (3 : Fin 4) * 72 + 1 * ch.val = ch.val; rw [e3]; omega

/-- Window 2's block at point `t` is rows `2 (t % 384)`, `2 (t % 384) + 1` of image `t / 384` of its array. -/
theorem iblk2_apply (c : Dev nD) (t : Fin cfg0.N) (r : Fin 2) (w : Fin 768) (ch : Fin 72) :
    (iblk m c 2 t : Vec Ideal S1x2x768x72 .f32) (ix4 0 r w ch)
      = (V m c main_v21 : S2x768x768x72.Idx → EReal) (ix4 (img t) (row t r) w ch) := by
  obtain ⟨e0, e1, e2, e3⟩ := (idx_facts t).2.2.1
  unfold iblk
  rw [View.read_apply]
  show V m c main_v21 _ = V m c main_v21 _
  congr 1
  funext a
  apply Fin.ext
  match a with
  | ⟨0, _⟩ => show win0_2.index t (0 : Fin 4) * 1 + 1 * 0 = t.val / 384; rw [e0]; omega
  | ⟨1, _⟩ => show win0_2.index t (1 : Fin 4) * 2 + 1 * r.val = 2 * (t.val % 384) + r.val; rw [e1]; omega
  | ⟨2, _⟩ => show win0_2.index t (2 : Fin 4) * 768 + 1 * w.val = w.val; rw [e2]; omega
  | ⟨3, _⟩ => show win0_2.index t (3 : Fin 4) * 72 + 1 * ch.val = ch.val; rw [e3]; omega

/-- Window 3's block at point `t` is rows `2 (t % 384)`, `2 (t % 384) + 1` of image `t / 384` of its array. -/
theorem iblk3_apply (c : Dev nD) (t : Fin cfg0.N) (r : Fin 2) (w : Fin 768) (ch : Fin 72) :
    (iblk m c 3 t : Vec Ideal S1x2x768x72 .f32) (ix4 0 r w ch)
      = (V m c main_v26 : S2x768x768x72.Idx → EReal) (ix4 (img t) (row t r) w ch) := by
  obtain ⟨e0, e1, e2, e3⟩ := (idx_facts t).2.2.2.1
  unfold iblk
  rw [View.read_apply]
  show V m c main_v26 _ = V m c main_v26 _
  congr 1
  funext a
  apply Fin.ext
  match a with
  | ⟨0, _⟩ => show win0_3.index t (0 : Fin 4) * 1 + 1 * 0 = t.val / 384; rw [e0]; omega
  | ⟨1, _⟩ => show win0_3.index t (1 : Fin 4) * 2 + 1 * r.val = 2 * (t.val % 384) + r.val; rw [e1]; omega
  | ⟨2, _⟩ => show win0_3.index t (2 : Fin 4) * 768 + 1 * w.val = w.val; rw [e2]; omega
  | ⟨3, _⟩ => show win0_3.index t (3 : Fin 4) * 72 + 1 * ch.val = ch.val; rw [e3]; omega

/-- Window 4's block at point `t` is rows `2 (t % 384)`, `2 (t % 384) + 1` of image `t / 384` of its array. -/
theorem iblk4_apply (c : Dev nD) (t : Fin cfg0.N) (r : Fin 2) (w : Fin 768) (ch : Fin 3) :
    (iblk m c 4 t : Vec Ideal S1x2x768x3 .f32) (ix4 0 r w ch)
      = (V m c main_v37 : S2x768x768x3.Idx → EReal) (ix4 (img t) (row t r) w ch) := by
  obtain ⟨e0, e1, e2, e3⟩ := (idx_facts t).2.2.2.2.1
  unfold iblk
  rw [View.read_apply]
  show V m c main_v37 _ = V m c main_v37 _
  congr 1
  funext a
  apply Fin.ext
  match a with
  | ⟨0, _⟩ => show win0_4.index t (0 : Fin 4) * 1 + 1 * 0 = t.val / 384; rw [e0]; omega
  | ⟨1, _⟩ => show win0_4.index t (1 : Fin 4) * 2 + 1 * r.val = 2 * (t.val % 384) + r.val; rw [e1]; omega
  | ⟨2, _⟩ => show win0_4.index t (2 : Fin 4) * 768 + 1 * w.val = w.val; rw [e2]; omega
  | ⟨3, _⟩ => show win0_4.index t (3 : Fin 4) * 3 + 1 * ch.val = ch.val; rw [e3]; omega

/-- Window 5's block at point `t` is rows `2 (t % 384)`, `2 (t % 384) + 1` of image `t / 384` of its array. -/
theorem iblk5_apply (c : Dev nD) (t : Fin cfg0.N) (r : Fin 2) (w : Fin 768) (ch : Fin 1) :
    (iblk m c 5 t : Vec Ideal S1x2x768x1 .f32) (ix4 0 r w ch)
      = (V m c main_v29 : S2x768x768x1.Idx → EReal) (ix4 (img t) (row t r) w ch) := by
  obtain ⟨e0, e1, e2, e3⟩ := (idx_facts t).2.2.2.2.2.1
  unfold iblk
  rw [View.read_apply]
  show V m c main_v29 _ = V m c main_v29 _
  congr 1
  funext a
  apply Fin.ext
  match a with
  | ⟨0, _⟩ => show win0_5.index t (0 : Fin 4) * 1 + 1 * 0 = t.val / 384; rw [e0]; omega
  | ⟨1, _⟩ => show win0_5.index t (1 : Fin 4) * 2 + 1 * r.val = 2 * (t.val % 384) + r.val; rw [e1]; omega
  | ⟨2, _⟩ => show win0_5.index t (2 : Fin 4) * 768 + 1 * w.val = w.val; rw [e2]; omega
  | ⟨3, _⟩ => show win0_5.index t (3 : Fin 4) * 1 + 1 * ch.val = ch.val; rw [e3]; omega

/-- Window 6's block at point `t` is rows `2 (t % 384)`, `2 (t % 384) + 1` of image `t / 384` of its array. -/
theorem iblk6_apply (c : Dev nD) (t : Fin cfg0.N) (r : Fin 2) (w : Fin 768) (ch : Fin 1) :
    (iblk m c 6 t : Vec Ideal S1x2x768x1 .f32) (ix4 0 r w ch)
      = (V m c main_v32 : S2x768x768x1.Idx → EReal) (ix4 (img t) (row t r) w ch) := by
  obtain ⟨e0, e1, e2, e3⟩ := (idx_facts t).2.2.2.2.2.2.1
  unfold iblk
  rw [View.read_apply]
  show V m c main_v32 _ = V m c main_v32 _
  congr 1
  funext a
  apply Fin.ext
  match a with
  | ⟨0, _⟩ => show win0_6.index t (0 : Fin 4) * 1 + 1 * 0 = t.val / 384; rw [e0]; omega
  | ⟨1, _⟩ => show win0_6.index t (1 : Fin 4) * 2 + 1 * r.val = 2 * (t.val % 384) + r.val; rw [e1]; omega
  | ⟨2, _⟩ => show win0_6.index t (2 : Fin 4) * 768 + 1 * w.val = w.val; rw [e2]; omega
  | ⟨3, _⟩ => show win0_6.index t (3 : Fin 4) * 1 + 1 * ch.val = ch.val; rw [e3]; omega

/-- Window 7's block at point `t` is rows `2 (t % 384)`, `2 (t % 384) + 1` of image `t / 384` of its array. -/
theorem iblk7_apply (c : Dev nD) (t : Fin cfg0.N) (r : Fin 2) (w : Fin 768) (ch : Fin 1) :
    (iblk m c 7 t : Vec Ideal S1x2x768x1 .f32) (ix4 0 r w ch)
      = (V m c main_v36 : S2x768x768x1.Idx → EReal) (ix4 (img t) (row t r) w ch) := by
  obtain ⟨e0, e1, e2, e3⟩ := (idx_facts t).2.2.2.2.2.2.2.1
  unfold iblk
  rw [View.read_apply]
  show V m c main_v36 _ = V m c main_v36 _
  congr 1
  funext a
  apply Fin.ext
  match a with
  | ⟨0, _⟩ => show win0_7.index t (0 : Fin 4) * 1 + 1 * 0 = t.val / 384; rw [e0]; omega
  | ⟨1, _⟩ => show win0_7.index t (1 : Fin 4) * 2 + 1 * r.val = 2 * (t.val % 384) + r.val; rw [e1]; omega
  | ⟨2, _⟩ => show win0_7.index t (2 : Fin 4) * 768 + 1 * w.val = w.val; rw [e2]; omega
  | ⟨3, _⟩ => show win0_7.index t (3 : Fin 4) * 1 + 1 * ch.val = ch.val; rw [e3]; omega

/-- The direction window's block at point `t` is rows `2 (t % 384)`, `2 (t % 384) + 1` of the direction image. -/
theorem iblk8_apply (c : Dev nD) (t : Fin cfg0.N) (r : Fin 2) (w : Fin 768) (k : Fin 3) :
    (iblk m c 8 t : Vec Ideal S2x768x3 .f32) (ix3 r w k)
      = (V m c main_v39 : S768x768x3.Idx → EReal) (ix3 (row t r) w k) := by
  obtain ⟨e0, e1, e2⟩ := (idx_facts t).2.2.2.2.2.2.2.2.1
  unfold iblk
  rw [View.read_apply]
  show V m c main_v39 _ = V m c main_v39 _
  congr 1
  funext a
  apply Fin.ext
  match a with
  | ⟨0, _⟩ => show win0_8.index t (0 : Fin 3) * 2 + 1 * r.val = 2 * (t.val % 384) + r.val; rw [e0]; omega
  | ⟨1, _⟩ => show win0_8.index t (1 : Fin 3) * 768 + 1 * w.val = w.val; rw [e1]; omega
  | ⟨2, _⟩ => show win0_8.index t (2 : Fin 3) * 3 + 1 * k.val = k.val; rw [e2]; omega

/-! ### The whole array -/

/-- Group `g` of pixel (h, w) of image `b`, from the nine arrays the pallas_call is given. -/
def full (A0 A1 A2 A3 : S2x768x768x72.Idx → EReal) (A4 : S2x768x768x3.Idx → EReal) (A5 A6 A7 : S2x768x768x1.Idx → EReal)
    (A8 : S768x768x3.Idx → EReal) (b : Fin 2) (h w : Fin 768) (g : Fin 16) : EReal :=
  Cert.Spec.shK (A8 (ix3 h w 0)) (A8 (ix3 h w 1)) (A8 (ix3 h w 2))
    (Cert.Spec.chK (fun ch => A0 (ix4 b h w ch)) (fun ch => A1 (ix4 b h w ch)) (fun ch => A2 (ix4 b h w ch))
      (fun ch => A3 (ix4 b h w ch)) (A4 (ix4 b h w 0)) (A4 (ix4 b h w 1)) (A4 (ix4 b h w 2))
      (A5 (ix4 b h w 0)) (A6 (ix4 b h w 0)) (A7 (ix4 b h w 0)) g)

/-- Blocks whose row `r` is row `hr r` of image `b` of the arrays (of the direction image, for the last) give, after the
    body, row `hr r` of image `b` of `full`. -/
theorem block_of_rows (A0 A1 A2 A3 : S2x768x768x72.Idx → EReal) (A4 : S2x768x768x3.Idx → EReal) (A5 A6 A7 : S2x768x768x1.Idx → EReal)
    (A8 : S768x768x3.Idx → EReal)
    (x0 x1 x2 x3 : Vec Ideal S1x2x768x72 .f32) (x4 : Vec Ideal S1x2x768x3 .f32) (x5 x6 x7 : Vec Ideal S1x2x768x1 .f32)
    (x8 : Vec Ideal S2x768x3 .f32) (b : Fin 2) (hr : Fin 2 → Fin 768)
    (h0 : ∀ r w ch, x0 (ix4 0 r w ch) = A0 (ix4 b (hr r) w ch)) (h1 : ∀ r w ch, x1 (ix4 0 r w ch) = A1 (ix4 b (hr r) w ch))
    (h2 : ∀ r w ch, x2 (ix4 0 r w ch) = A2 (ix4 b (hr r) w ch)) (h3 : ∀ r w ch, x3 (ix4 0 r w ch) = A3 (ix4 b (hr r) w ch))
    (h4 : ∀ r w k, x4 (ix4 0 r w k) = A4 (ix4 b (hr r) w k)) (h5 : ∀ r w k, x5 (ix4 0 r w k) = A5 (ix4 b (hr r) w k))
    (h6 : ∀ r w k, x6 (ix4 0 r w k) = A6 (ix4 b (hr r) w k)) (h7 : ∀ r w k, x7 (ix4 0 r w k) = A7 (ix4 b (hr r) w k))
    (h8 : ∀ r w k, x8 (ix3 r w k) = A8 (ix3 (hr r) w k)) (r : Fin 2) (w : Fin 768) (g : Fin 16) :
    out0_9 x0 x1 x2 x3 x4 x5 x6 x7 x8 (ix4 0 r w g) = full A0 A1 A2 A3 A4 A5 A6 A7 A8 b (hr r) w g := by
  rw [block_apply]
  unfold pixel full
  simp only [h0, h1, h2, h3, h4, h5, h6, h7, h8]

/-- The output array as one function of the nine arrays as the region finds them. -/
def G (c : Dev nD) : S2x768x768x16.Idx → EReal := fun i =>
  full (V m c main_v8) (V m c main_v16) (V m c main_v21) (V m c main_v26) (V m c main_v37) (V m c main_v29) (V m c main_v32)
    (V m c main_v36) (V m c main_v39) (i 0) (i 1) (i 2) (i 3)

/-- The output window's block at point `t` sits at rows `2 (t % 384)`, `2 (t % 384) + 1` of image `t / 384`. -/
theorem emb9 (t : Fin cfg0.N) (a : Fin 1) (r : Fin 2) (w : Fin 768) (g : Fin 16) :
    ((cfg0.win 9).blk t).view.emb (ix4 a r w g : S1x2x768x16.Idx) = (ix4 (img t) (row t r) w g : S2x768x768x16.Idx) := by
  obtain ⟨e0, e1, e2, e3⟩ := (idx_facts t).2.2.2.2.2.2.2.2.2
  funext i
  apply Fin.ext
  match i with
  | ⟨0, _⟩ => show win0_9.index t (0 : Fin 4) * 1 + 1 * a.val = t.val / 384; rw [e0]; omega
  | ⟨1, _⟩ => show win0_9.index t (1 : Fin 4) * 2 + 1 * r.val = 2 * (t.val % 384) + r.val; rw [e1]; omega
  | ⟨2, _⟩ => show win0_9.index t (2 : Fin 4) * 768 + 1 * w.val = w.val; rw [e2]; omega
  | ⟨3, _⟩ => show win0_9.index t (3 : Fin 4) * 16 + 1 * g.val = g.val; rw [e3]; omega

/-- WHAT POINT `t` WRITES BACK is block `t` of `G`. -/
theorem flushed_eq (c : Dev nD) (t : Fin cfg0.N) :
    (dats (F := Ideal) m 0 c).flushed 9 t = ((cfg0.win 9).blk t).view.read (Elt Ideal) (G m c) := by
  show (cfg0.win 9).cut (grid0.coords t) ((dats m 0 c).after 9 t) = _
  rw [after0_9]
  have key : ∀ j : S1x2x768x16.Idx,
      out0_9 (iblk m c 0 t) (iblk m c 1 t) (iblk m c 2 t) (iblk m c 3 t) (iblk m c 4 t) (iblk m c 5 t) (iblk m c 6 t) (iblk m c 7 t) (iblk m c 8 t) j
        = G m c (((cfg0.win 9).blk t).view.emb j) := by
    intro j
    obtain ⟨a, r, w, g, rfl⟩ : ∃ (a : Fin 1) (r : Fin 2) (w : Fin 768) (g : Fin 16), j = ix4 a r w g :=
      ⟨j 0, j 1, j 2, j 3, eq_ix4 j⟩
    obtain rfl : a = 0 := Subsingleton.elim _ _
    rw [emb9]
    exact block_of_rows (V m c main_v8) (V m c main_v16) (V m c main_v21) (V m c main_v26) (V m c main_v37) (V m c main_v29)
      (V m c main_v32) (V m c main_v36) (V m c main_v39)
      (iblk m c 0 t) (iblk m c 1 t) (iblk m c 2 t) (iblk m c 3 t) (iblk m c 4 t) (iblk m c 5 t) (iblk m c 6 t) (iblk m c 7 t) (iblk m c 8 t)
      (img t) (row t)
      (iblk0_apply m c t) (iblk1_apply m c t) (iblk2_apply m c t) (iblk3_apply m c t) (iblk4_apply m c t) (iblk5_apply m c t)
      (iblk6_apply m c t) (iblk7_apply m c t) (iblk8_apply m c t) r w g
  funext j
  exact key j

/-- Every pixel's row lies in the block of the point of its image and row pair. -/
theorem cover (i : S2x768x768x16.Idx) :
    ∃ t : Fin cfg0.N, (cfg0.win 9).flush t = true ∧ i ∈ ((cfg0.win 9).blk t).view.set := by
  have hi0 : (i 0).val < 2 := (i 0).isLt
  have hi1 : (i 1).val < 768 := (i 1).isLt
  have hi2 : (i 2).val < 768 := (i 2).isLt
  have hi3 : (i 3).val < 16 := (i 3).isLt
  have hN : grid0.N = 768 := N_0
  have ht : (i 0).val * 384 + (i 1).val / 2 < cfg0.N := by show _ < grid0.N; omega
  refine ⟨⟨(i 0).val * 384 + (i 1).val / 2, ht⟩, flush0_9 _, ?_⟩
  obtain ⟨e0, e1, e2, e3⟩ := (idx_facts ⟨(i 0).val * 384 + (i 1).val / 2, ht⟩).2.2.2.2.2.2.2.2.2
  have e0' : win0_9.index ⟨(i 0).val * 384 + (i 1).val / 2, ht⟩ (0 : Fin 4) = ((i 0).val * 384 + (i 1).val / 2) / 384 := e0
  have e1' : win0_9.index ⟨(i 0).val * 384 + (i 1).val / 2, ht⟩ (1 : Fin 4) = ((i 0).val * 384 + (i 1).val / 2) % 384 := e1
  show i ∈ ((View.whole main_v40).slice (win0_9.rect ⟨(i 0).val * 384 + (i 1).val / 2, ht⟩)).set
  rw [View.set_slice_whole, Rect.mem_set_unit]
  intro a
  match a with
  | ⟨0, _⟩ =>
    show win0_9.index ⟨(i 0).val * 384 + (i 1).val / 2, ht⟩ (0 : Fin 4) * 1 ≤ (i 0).val
      ∧ (i 0).val < win0_9.index ⟨(i 0).val * 384 + (i 1).val / 2, ht⟩ (0 : Fin 4) * 1 + 1
    rw [e0']; omega
  | ⟨1, _⟩ =>
    show win0_9.index ⟨(i 0).val * 384 + (i 1).val / 2, ht⟩ (1 : Fin 4) * 2 ≤ (i 1).val
      ∧ (i 1).val < win0_9.index ⟨(i 0).val * 384 + (i 1).val / 2, ht⟩ (1 : Fin 4) * 2 + 2
    rw [e1']; omega
  | ⟨2, _⟩ =>
    show win0_9.index ⟨(i 0).val * 384 + (i 1).val / 2, ht⟩ (2 : Fin 4) * 768 ≤ (i 2).val
      ∧ (i 2).val < win0_9.index ⟨(i 0).val * 384 + (i 1).val / 2, ht⟩ (2 : Fin 4) * 768 + 768
    rw [e2]; omega
  | ⟨3, _⟩ =>
    show win0_9.index ⟨(i 0).val * 384 + (i 1).val / 2, ht⟩ (3 : Fin 4) * 16 ≤ (i 3).val
      ∧ (i 3).val < win0_9.index ⟨(i 0).val * 384 + (i 1).val / 2, ht⟩ (3 : Fin 4) * 16 + 16
    rw [e3]; omega

/-- THE OUTPUT ARRAY after the run is `G`. -/
theorem final (c : Dev nD) : (dats (F := Ideal) m 0 c).arrAt 9 cfg0.N = G m c :=
  (dats m 0 c).arrAt_eq_of_cover 9 (G m c) (fun t _ => flushed_eq m c t) (cover)

/-- THE KERNEL BODY'S VALUE: the output array at (b, h, w, g) is group `g` of pixel (b, h, w)'s coefficients against the nine
    harmonics at the direction of pixel (h, w), in the kernel's order of evaluation. -/
theorem out_apply (c : Dev nD) (b : Fin 2) (h w : Fin 768) (g : Fin 16) :
    (Gen.dats (F := Ideal) m 0 c).arrAt 9 cfg0.N (ix4 b h w g)
      = Cert.Spec.shK (V m c main_v39 (ix3 h w 0)) (V m c main_v39 (ix3 h w 1)) (V m c main_v39 (ix3 h w 2))
          (Cert.Spec.chK (fun ch => V m c main_v8 (ix4 b h w ch)) (fun ch => V m c main_v16 (ix4 b h w ch))
            (fun ch => V m c main_v21 (ix4 b h w ch)) (fun ch => V m c main_v26 (ix4 b h w ch))
            (V m c main_v37 (ix4 b h w 0)) (V m c main_v37 (ix4 b h w 1)) (V m c main_v37 (ix4 b h w 2))
            (V m c main_v29 (ix4 b h w 0)) (V m c main_v32 (ix4 b h w 0)) (V m c main_v36 (ix4 b h w 0)) g) := by
  rw [final]
  rfl

end Cert.KernelIdeal.BodyValue

end
-- ==== Proof.KHost.lean ====
/-
  The arrays the kernel's region finds, as functions of the arguments.

  Before its one region the program runs 57 host operations on the seven argument arrays: it drops unit axes, raises the
  two index images to at least zero, gathers the rows of the point-feature table at the point indices, the rows of the
  face table at the face indices and, column by column of those, three more rows of the point-feature table; it compares
  the raw indices with zero and converts the bits, divides the squared distances by r² and subtracts from one, and flips
  the ray image on both image axes and moves its component axis last. Each array the region reads is first written as
  the term of those operations over the arguments, then read at one index: a reshape moves a row-major position, a
  gather reads the row its start index names, signed and clamped into the table.
-/
import proofs.«415965_j58050777972780_3_alg».proof.Proof.Gen.KernelIdeal.Frame
import proofs.«415965_j58050777972780_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostValue

open Cert.KernelIdeal Cert.KernelIdeal.Gen Idealize.ShloMosaic Idealize.ShloMosaic.ValueIdx Idealize.ShloMosaic.StableHlo
open Idealize.ShloMosaic.TcCoe

variable (m : (ℓ : Loc nD τ sig) → Buf (Elt Ideal) ℓ) (c : Dev nD)

/-- The seven argument arrays of core `c` as launched. -/
def argsOf : Cert.Spec.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6)⟩

/-! ## Rows of a table gathered by a column of start indices

What `table[idx]` of a table `[N, C]` at a flat integer array prints as: a gather whose start indices are the
`[n, 1]` column of row numbers, the table's row axis collapsed and start-indexed, its column axis the result's one
offset axis, nothing batching and the index vector on axis 1. Result entry `(p, ch)` is the table at column `ch` of
the row its start index names, that word read signed and clamped into the rows `0 … N − 1`. -/

theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (ch : Fin C) (hN : 0 < N) :
    Host.gather d x idx (ix2 p ch) = x (ix2 ⟨min (idx (ix2 p 0)).toInt.toNat (N - 1), by omega⟩ ch) := by
  have hb : ∀ a : Fin 2, a ∉ d.operandBatchingDims := fun a => by rw [hob]; exact List.not_mem_nil
  -- the result's batch axes are its axis 0 alone, its offset axes its axis 1 alone
  have hbatch : ∀ X : Fin 2, X ∈ d.batchDims → ((ix2 p ch : (⟨2, ![n, C]⟩ : Shape).Idx) X).val = p.val := fun X hX => by
    rw [GatherDims.batchDims, hoff] at hX
    match X, hX with
    | ⟨0, _⟩, _ => rfl
    | ⟨1, _⟩, hX => exact absurd hX (by simp [Shape.kept, List.mem_filter])
  have hoffs : ∀ X : Fin 2, X ∈ d.offsetDims → ((ix2 p ch : (⟨2, ![n, C]⟩ : Shape).Idx) X).val = ch.val := fun X hX => by
    rw [hoff] at hX
    obtain rfl := List.mem_singleton.mp hX
    rfl
  have key : ∀ a : Fin 2, (d.operandIdx (ix2 p ch) idx a).val
      = ((ix2 ⟨min (idx (ix2 p 0)).toInt.toNat (N - 1), by omega⟩ ch : (⟨2, ![N, C]⟩ : Shape).Idx) a).val := by
    rw [Fin.forall_fin_two]
    constructor
    · -- the row axis: collapsed, so no offset; start-indexed, so the clamped start index
      have hk : (0 : Fin 2) ∉ d.sKept := by rw [GatherDims.mem_sKept, hcoll]; simp
      have hm : (0 : Fin 2) ∈ d.startIndexMap := by rw [hsim]; exact List.mem_singleton.mpr rfl
      have hsl : d.sliceSizes 0 = 1 := d.slice_collapsed 0 (by rw [hcoll]; exact List.mem_singleton.mpr rfl)
      simp only [GatherDims.operandIdx, GatherDims.batchCoord_eq_zero _ _ _ (hb _), GatherDims.offCoord_eq_zero _ _ _ hk,
        Nat.add_zero, GatherDims.start, dif_pos hm]
      show min (idx _).toInt.toNat (N - d.sliceSizes 0) = min (idx (ix2 p 0)).toInt.toNat (N - 1)
      rw [hsl]
      congr 3
      congr 1
      funext b
      match b with
      | ⟨0, _⟩ =>
        unfold GatherDims.siIdx
        rw [dif_neg (by rw [hivd]; simp)]
        unfold GatherDims.siCoord
        apply Fin.ext
        simp only [Fin.val_cast]
        exact hbatch _ (List.getElem_mem _)
      | ⟨1, _⟩ =>
        unfold GatherDims.siIdx
        rw [dif_pos (by rw [hivd])]
        apply Fin.ext
        show List.idxOf (0 : Fin 2) d.startIndexMap = 0
        rw [hsim]; simp
    · -- the column axis: not start-indexed, so it starts at 0; kept, so the result's offset coordinate
      have hk : (1 : Fin 2) ∈ d.sKept := by rw [GatherDims.mem_sKept, hcoll]; exact ⟨by simp, hb _⟩
      have hm : (1 : Fin 2) ∉ d.startIndexMap := by rw [hsim]; simp
      simp only [GatherDims.operandIdx, GatherDims.batchCoord_eq_zero _ _ _ (hb _), GatherDims.offCoord, dif_pos hk,
        Nat.add_zero, GatherDims.start, dif_neg hm, Nat.zero_add]
      exact hoffs _ (List.getElem_mem _)
  unfold Host.gather
  exact congrArg x (funext fun a => Fin.ext (key a))

/-! ## The program's take: a table's rows at an image of row numbers -/

/-- An image `[2, 768, 768]` of index words as the `[1179648, 1]` column of start indices a gather reads. -/
def idxCol (I : IVec S2x768x768 32) : IVec S1179648x1 32 :=
  broadcastInDim S1179648x1 ![0] Facts₀.bcast_S1179648_S1179648x1_0 (shapeCast S1179648 I Facts₀.shapeCasts_S2x768x768_S1179648)

/-- The rows of the point-feature table at an image of row numbers, as an image of 72-entry rows. -/
def take72 {α : Type} (T : S500000x72.Idx → α) (I : IVec S2x768x768 32) : S2x768x768x72.Idx → α :=
  shapeCast S2x768x768x72 (Host.gather gather_S500000x72_S1179648x1_S1179648x72_1_0_n_n_0_1_172 T (idxCol I))
    Facts₀.shapeCasts_S1179648x72_S2x768x768x72

/-- The rows of the face table at an image of row numbers, as an image of 3-entry rows. -/
def take3 {α : Type} (T : S200000x3.Idx → α) (I : IVec S2x768x768 32) : S2x768x768x3.Idx → α :=
  shapeCast S2x768x768x3 (Host.gather gather_S200000x3_S1179648x1_S1179648x3_1_0_n_n_0_1_13 T (idxCol I))
    Facts₀.shapeCasts_S1179648x3_S2x768x768x3

/-- An image of index words `[2, 768, 768, 1]` with its unit axis dropped and every word raised to at least zero. -/
def nonneg (J : IVec S2x768x768x1 32) : IVec S2x768x768 32 :=
  maxsi (shapeCast S2x768x768 J Facts₀.shapeCasts_S2x768x768x1_S2x768x768)
    (broadcastInDim S2x768x768 ![] Facts₀.bcast_S_S2x768x768 (constantI S_ 32 0#32))

/-- Column `o` of an image of 3-entry rows, as an image of words. -/
def col (o : Nat) (R : IVec S2x768x768x3 32) (hs : S2x768x768x3.Slices ![0, 0, 0, o] S2x768x768x1) : IVec S2x768x768 32 :=
  shapeCast S2x768x768 (extractStridedSlice S2x768x768x1 ![0, 0, 0, o] R hs) Facts₀.shapeCasts_S2x768x768x1_S2x768x768

/-- The column of start indices at pixel position `p = (b · 768 + h) · 768 + w` is the image's word at `(b, h, w)`. -/
theorem idxCol_apply (I : IVec S2x768x768 32) (b : Fin 2) (h w : Fin 768) (p : Fin 1179648)
    (hp : p.val = (b.val * 768 + h.val) * 768 + w.val) : idxCol I (ix2 p 0) = I (ix3 b h w) := by
  unfold idxCol
  refine (broadcastInDim_apply _ _ _ _ (ix1 p) (fun a => match a with
    | ⟨0, _⟩ => by
      show p.val = if (1179648 : Nat) = 1 then 0 else p.val
      rw [if_neg (by decide)])).trans ?_
  refine shapeCast_apply _ _ _ (ix3 b h w) ?_
  rw [Shape.rowMajor_val_three, Shape.rowMajor_val_one]
  show (b.val * 768 + h.val) * 768 + w.val = p.val
  omega

/-- A row of the point-feature table taken at an image of row numbers: entry `ch` at pixel `(b, h, w)` is the table's
    entry `ch` in the row the pixel's word names, clamped into the table. -/
theorem take72_apply {α : Type} (T : S500000x72.Idx → α) (I : IVec S2x768x768 32) (b : Fin 2) (h w : Fin 768) (ch : Fin 72) :
    take72 T I (ix4 b h w ch) = T (ix2 (Cert.Spec.clampRow 500000 (by norm_num) (I (ix3 b h w))) ch) := by
  have hb := b.isLt
  have hh := h.isLt
  have hw := w.isLt
  have hp : (b.val * 768 + h.val) * 768 + w.val < 1179648 := by omega
  unfold take72
  refine (shapeCast_apply _ _ _ (ix2 (⟨(b.val * 768 + h.val) * 768 + w.val, hp⟩ : Fin 1179648) ch) ?_).trans ?_
  · rw [Shape.rowMajor_val_two, Shape.rowMajor_val_four]
    show ((b.val * 768 + h.val) * 768 + w.val) * 72 + ch.val = ((b.val * 768 + h.val) * 768 + w.val) * 72 + ch.val
    rfl
  · rw [gather_rows gather_S500000x72_S1179648x1_S1179648x72_1_0_n_n_0_1_172 rfl rfl rfl rfl rfl T (idxCol I) _ ch (by norm_num)]
    refine congrArg T (congrArg (fun r => ix2 r ch) (Fin.ext ?_))
    show min (idxCol I (ix2 _ 0)).toInt.toNat (500000 - 1) = min (I (ix3 b h w)).toInt.toNat (500000 - 1)
    rw [idxCol_apply I b h w _ rfl]

/-- The same for the face table and its 3-entry rows. -/
theorem take3_apply {α : Type} (T : S200000x3.Idx → α) (I : IVec S2x768x768 32) (b : Fin 2) (h w : Fin 768) (v : Fin 3) :
    take3 T I (ix4 b h w v) = T (ix2 (Cert.Spec.clampRow 200000 (by norm_num) (I (ix3 b h w))) v) := by
  have hb := b.isLt
  have hh := h.isLt
  have hw := w.isLt
  have hp : (b.val * 768 + h.val) * 768 + w.val < 1179648 := by omega
  unfold take3
  refine (shapeCast_apply _ _ _ (ix2 (⟨(b.val * 768 + h.val) * 768 + w.val, hp⟩ : Fin 1179648) v) ?_).trans ?_
  · rw [Shape.rowMajor_val_two, Shape.rowMajor_val_four]
    show ((b.val * 768 + h.val) * 768 + w.val) * 3 + v.val = ((b.val * 768 + h.val) * 768 + w.val) * 3 + v.val
    rfl
  · rw [gather_rows gather_S200000x3_S1179648x1_S1179648x3_1_0_n_n_0_1_13 rfl rfl rfl rfl rfl T (idxCol I) _ v (by norm_num)]
    refine congrArg T (congrArg (fun r => ix2 r v) (Fin.ext ?_))
    show min (idxCol I (ix2 _ 0)).toInt.toNat (200000 - 1) = min (I (ix3 b h w)).toInt.toNat (200000 - 1)
    rw [idxCol_apply I b h w _ rfl]

/-- The raised image at `(b, h, w)` is the larger of the word at `(b, h, w, 0)` and zero, compared signed. -/
theorem nonneg_apply (J : IVec S2x768x768x1 32) (b : Fin 2) (h w : Fin 768) :
    nonneg J (ix3 b h w) = IntOp.maxsi (J (ix4 b h w 0)) 0#32 := by
  unfold nonneg
  show IntOp.maxsi (shapeCast S2x768x768 J Facts₀.shapeCasts_S2x768x768x1_S2x768x768 (ix3 b h w)) 0#32 = _
  rw [shapeCast_apply J _ (ix3 b h w) (ix4 b h w 0) (by
    rw [Shape.rowMajor_val_three, Shape.rowMajor_val_four]
    show ((b.val * 768 + h.val) * 768 + w.val) * 1 + 0 = (b.val * 768 + h.val) * 768 + w.val
    omega)]

/-- Column `o` of an image of 3-entry rows at `(b, h, w)` is the row's entry `o`. -/
theorem col_apply (o : Nat) (ho : o < 3) (R : IVec S2x768x768x3 32) (hs : S2x768x768x3.Slices ![0, 0, 0, o] S2x768x768x1)
    (b : Fin 2) (h w : Fin 768) : col o R hs (ix3 b h w) = R (ix4 b h w ⟨o, ho⟩) := by
  unfold col
  refine (shapeCast_apply _ _ (ix3 b h w) (ix4 b h w 0) (by
    rw [Shape.rowMajor_val_three, Shape.rowMajor_val_four]
    show ((b.val * 768 + h.val) * 768 + w.val) * 1 + 0 = (b.val * 768 + h.val) * 768 + w.val
    omega)).trans ?_
  refine extractStridedSlice_apply _ _ _ _ (ix4 b h w ⟨o, ho⟩) (fun a => match a with
    | ⟨0, _⟩ => by show b.val = 0 + b.val; omega
    | ⟨1, _⟩ => by show h.val = 0 + h.val; omega
    | ⟨2, _⟩ => by show w.val = 0 + w.val; omega
    | ⟨3, _⟩ => by show o = o + 0; omega)

/-! ## The nine arrays as terms of the arguments

Each is the value the fold of the 57 operations leaves in the array's buffer, read off operation by operation: the
operation that wrote the buffer applied to what its operand buffers held, every other operation passed over. -/

set_option maxHeartbeats 4000000 in
theorem e36 : (V m c main_v36 : S2x768x768x1.Idx → EReal) =
    subf (broadcastInDim S2x768x768x1 ![] Facts₀.bcast_S_S2x768x768x1 (constant (F := Ideal) S_ .f32 0x3F800000#32))
      (Host.divf (V m c main_arg1 : S2x768x768x1.Idx → EReal)
        (broadcastInDim S2x768x768x1 ![] Facts₀.bcast_S_S2x768x768x1 (constant (F := Ideal) S_ .f32 0x3816FEB5#32))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e29 : (V m c main_v29 : S2x768x768x1.Idx → EReal) =
    uitofp (F := Ideal) .f32 (cmpi .sge (V m c main_arg5 : IVec S2x768x768x1 32)
      (broadcastInDim S2x768x768x1 ![] Facts₀.bcast_S_S2x768x768x1 (constantI S_ 32 0#32))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e32 : (V m c main_v32 : S2x768x768x1.Idx → EReal) =
    uitofp (F := Ideal) .f32 (cmpi .sge (V m c main_arg6 : IVec S2x768x768x1 32)
      (broadcastInDim S2x768x768x1 ![] Facts₀.bcast_S_S2x768x768x1 (constantI S_ 32 0#32))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e37 : (V m c main_v37 : S2x768x768x3.Idx → EReal) =
    shapeCast S2x768x768x3 (V m c main_arg2 : S2x768x768x1x3.Idx → EReal) Facts₀.shapeCasts_S2x768x768x1x3_S2x768x768x3 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e39 : (V m c main_v39 : S768x768x3.Idx → EReal) =
    transpose S768x768x3 [1, 2, 0] (Host.reverse [1, 2] (V m c main_arg3 : S3x768x768.Idx → EReal))
      Facts₀.transposes_S3x768x768_S768x768x3_1_2_0 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e8 : (V m c main_v8 : S2x768x768x72.Idx → EReal) =
    take72 (V m c main_arg0 : S500000x72.Idx → EReal) (nonneg (V m c main_arg5 : IVec S2x768x768x1 32)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e16 : (V m c main_v16 : S2x768x768x72.Idx → EReal) =
    take72 (V m c main_arg0 : S500000x72.Idx → EReal)
      (col 0 (take3 (V m c main_arg4 : IVec S200000x3 32) (nonneg (V m c main_arg6 : IVec S2x768x768x1 32)))
        Facts₀.slices_S2x768x768x3_S2x768x768x1_0_0_0_0) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e21 : (V m c main_v21 : S2x768x768x72.Idx → EReal) =
    take72 (V m c main_arg0 : S500000x72.Idx → EReal)
      (col 1 (take3 (V m c main_arg4 : IVec S200000x3 32) (nonneg (V m c main_arg6 : IVec S2x768x768x1 32)))
        Facts₀.slices_S2x768x768x3_S2x768x768x1_0_0_0_1) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
theorem e26 : (V m c main_v26 : S2x768x768x72.Idx → EReal) =
    take72 (V m c main_arg0 : S500000x72.Idx → EReal)
      (col 2 (take3 (V m c main_arg4 : IVec S200000x3 32) (nonneg (V m c main_arg6 : IVec S2x768x768x1 32)))
        Facts₀.slices_S2x768x768x3_S2x768x768x1_0_0_0_2) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

/-! ## The nine arrays at an index -/

variable (b : Fin 2) (h w : Fin 768)

/-- The distance weight: one minus the squared distance over r². -/
theorem V_v36_apply :
    (V m c main_v36 : S2x768x768x1.Idx → EReal) (ix4 b h w 0) = Cert.Spec.wt (argsOf m c) b h w := by
  rw [e36, V_main_arg1]
  rfl

/-- The point mask: the bit "the point index is at least zero", converted. -/
theorem V_v29_apply :
    (V m c main_v29 : S2x768x768x1.Idx → EReal) (ix4 b h w 0) = Cert.Spec.m1 (argsOf m c) b h w := by
  rw [e29, V_main_arg5]
  rfl

/-- The face mask: the bit "the face index is at least zero", converted. -/
theorem V_v32_apply :
    (V m c main_v32 : S2x768x768x1.Idx → EReal) (ix4 b h w 0) = Cert.Spec.m2 (argsOf m c) b h w := by
  rw [e32, V_main_arg6]
  rfl

/-- The barycentric weights with their unit axis dropped. -/
theorem V_v37_apply (k : Fin 3) :
    (V m c main_v37 : S2x768x768x3.Idx → EReal) (ix4 b h w k) = (argsOf m c).bary (ix5 b h w 0 k) := by
  rw [e37, V_main_arg2]
  refine (shapeCast_apply _ _ _ (ix5 b h w 0 k) ?_).trans rfl
  rw [Shape.rowMajor_val_five, Shape.rowMajor_val_four]
  show ((((b.val * 768 + h.val) * 768 + w.val) * 1 + 0) * 3 + k.val) = ((b.val * 768 + h.val) * 768 + w.val) * 3 + k.val
  omega

/-- The ray image flipped on both image axes, its component axis moved last. -/
theorem V_v39_apply (k : Fin 3) :
    (V m c main_v39 : S768x768x3.Idx → EReal) (ix3 h w k) = Cert.Spec.dir (argsOf m c) h w k := by
  rw [e39, V_main_arg3]
  refine (transpose_apply _ _ _ _ (ix3 k h w) (fun a => match a with | ⟨0, _⟩ => rfl | ⟨1, _⟩ => rfl | ⟨2, _⟩ => rfl)).trans ?_
  unfold Host.reverse Cert.Spec.dir argsOf
  refine congrArg _ (funext fun a => ?_)
  match a with
  | ⟨0, _⟩ => rfl
  | ⟨1, _⟩ => rfl
  | ⟨2, _⟩ => rfl

/-- The features of the point the pixel sees. -/
theorem V_v8_apply (ch : Fin 72) :
    (V m c main_v8 : S2x768x768x72.Idx → EReal) (ix4 b h w ch)
      = (argsOf m c).feat (ix2 (Cert.Spec.rowK1 (argsOf m c) b h w) ch) := by
  rw [e8, take72_apply, nonneg_apply, V_main_arg0, V_main_arg5]
  rfl

/-- The features of vertex `v` of the face the pixel sees: the face's row of the face table gives the vertex's row
    number, and that word, clamped, names the row of the point-feature table. -/
theorem faceRow_apply (o : Nat) (ho : o < 3) (hs : S2x768x768x3.Slices ![0, 0, 0, o] S2x768x768x1) (ch : Fin 72) :
    take72 (V m c main_arg0 : S500000x72.Idx → EReal)
        (col o (take3 (V m c main_arg4 : IVec S200000x3 32) (nonneg (V m c main_arg6 : IVec S2x768x768x1 32))) hs) (ix4 b h w ch)
      = (argsOf m c).feat (ix2 (Cert.Spec.rowKV (argsOf m c) b h w ⟨o, ho⟩) ch) := by
  rw [take72_apply, col_apply o ho, take3_apply, nonneg_apply, V_main_arg0, V_main_arg4, V_main_arg6]
  rfl

theorem V_v16_apply (ch : Fin 72) :
    (V m c main_v16 : S2x768x768x72.Idx → EReal) (ix4 b h w ch)
      = (argsOf m c).feat (ix2 (Cert.Spec.rowKV (argsOf m c) b h w 0) ch) := by
  rw [e16]
  exact faceRow_apply m c b h w 0 (by decide) _ ch

theorem V_v21_apply (ch : Fin 72) :
    (V m c main_v21 : S2x768x768x72.Idx → EReal) (ix4 b h w ch)
      = (argsOf m c).feat (ix2 (Cert.Spec.rowKV (argsOf m c) b h w 1) ch) := by
  rw [e21]
  exact faceRow_apply m c b h w 1 (by decide) _ ch

theorem V_v26_apply (ch : Fin 72) :
    (V m c main_v26 : S2x768x768x72.Idx → EReal) (ix4 b h w ch)
      = (argsOf m c).feat (ix2 (Cert.Spec.rowKV (argsOf m c) b h w 2) ch) := by
  rw [e26]
  exact faceRow_apply m c b h w 2 (by decide) _ ch

end Cert.KernelIdeal.HostValue

end
-- ==== Proof.KSide.lean ====
/-
  The kernel program's two float results as functions of its arguments: the region's output array at (b, h, w, g) is the
  shading of pixel (b, h, w), group g, in the kernel's order — the body's value over the arrays the region finds, and
  those arrays read back to the arguments — and each result is one batch of that array.
-/
import proofs.«415965_j58050777972780_3_alg».proof.Proof.KTail
import proofs.«415965_j58050777972780_3_alg».proof.Proof.KBody
import proofs.«415965_j58050777972780_3_alg».proof.Proof.KHost
import proofs.«415965_j58050777972780_3_alg».proof.Proof.Spec
import Idealize.ShloMosaic.Lib.Pipeline.Value
import Idealize.ShloMosaic.Lib.ValueIdx

set_option maxRecDepth 16384

noncomputable section

namespace Cert.KernelIdeal.ResultValue

open Idealize.ShloMosaic Idealize.ShloMosaic.TcCoe Idealize.SL.Sem Idealize.ShloMosaic.ValueIdx
open Cert.KernelIdeal Cert.KernelIdeal.Gen Cert.KernelIdeal.TailValue Cert.KernelIdeal.HostValue

variable (m : (ℓ : Loc nD τ sig) → Buf (Elt Ideal) ℓ) (c : Dev nD)

/-- The shading depends on its direction, feature rows, weights and masks only through their values. -/
theorem shK_chK_congr {x y z x' y' z' : EReal} {f1 v0 v1 v2 f1' v0' v1' v2' : Fin 72 → EReal}
    {b0 b1 b2 m1 m2 wt b0' b1' b2' m1' m2' wt' : EReal} (g : Fin 16)
    (hx : x = x') (hy : y = y') (hz : z = z') (hf1 : ∀ ch, f1 ch = f1' ch) (hv0 : ∀ ch, v0 ch = v0' ch)
    (hv1 : ∀ ch, v1 ch = v1' ch) (hv2 : ∀ ch, v2 ch = v2' ch) (hb0 : b0 = b0') (hb1 : b1 = b1') (hb2 : b2 = b2')
    (hm1 : m1 = m1') (hm2 : m2 = m2') (hwt : wt = wt') :
    Cert.Spec.shK x y z (Cert.Spec.chK f1 v0 v1 v2 b0 b1 b2 m1 m2 wt g)
      = Cert.Spec.shK x' y' z' (Cert.Spec.chK f1' v0' v1' v2' b0' b1' b2' m1' m2' wt' g) := by
  obtain rfl : f1 = f1' := funext hf1
  obtain rfl : v0 = v0' := funext hv0
  obtain rfl : v1 = v1' := funext hv1
  obtain rfl : v2 = v2' := funext hv2
  subst hx hy hz hb0 hb1 hb2 hm1 hm2 hwt
  rfl

/-- The output array at a pixel and group is the kernel-order shading of the arguments. -/
theorem outArr_apply (b : Fin 2) (h w : Fin 768) (g : Fin 16) :
    outArr m c (ix4 b h w g) = Cert.Spec.pixK (argsOf m c) b h w g := by
  unfold outArr
  rw [Cert.KernelIdeal.BodyValue.out_apply m c b h w g]
  unfold Cert.Spec.pixK
  exact shK_chK_congr g (V_v39_apply m c h w 0) (V_v39_apply m c h w 1) (V_v39_apply m c h w 2)
    (fun ch => V_v8_apply m c b h w ch) (fun ch => V_v16_apply m c b h w ch) (fun ch => V_v21_apply m c b h w ch)
    (fun ch => V_v26_apply m c b h w ch) (V_v37_apply m c b h w 0) (V_v37_apply m c b h w 1) (V_v37_apply m c b h w 2)
    (V_v29_apply m c b h w) (V_v32_apply m c b h w) (V_v36_apply m c b h w)

/-- Batch 0 of the output array, read at an index of [1, 768, 768, 16]. -/
theorem slice0_apply (i : S1x768x768x16.Idx) :
    extractStridedSlice S1x768x768x16 ![0, 0, 0, 0] (outArr m c) slices_S2x768x768x16_S1x768x768x16_0_0_0_0 i
      = Cert.Spec.pixK (argsOf m c) 0 (i 1) (i 2) (i 3) := by
  rw [extractStridedSlice_apply ![0, 0, 0, 0] (outArr m c) slices_S2x768x768x16_S1x768x768x16_0_0_0_0 i
    (ix4 0 (i 1) (i 2) (i 3))
    (fun a => by match a with
      | ⟨0, _⟩ => exact (by have h0 : (i 0).val < 1 := (i 0).isLt; show (0 : Nat) = 0 + (i 0).val; omega)
      | ⟨1, _⟩ => exact (Nat.zero_add _).symm
      | ⟨2, _⟩ => exact (Nat.zero_add _).symm
      | ⟨3, _⟩ => exact (Nat.zero_add _).symm)]
  exact outArr_apply m c 0 (i 1) (i 2) (i 3)

/-- Batch 1 of the output array, read at an index of [1, 768, 768, 16]. -/
theorem slice1_apply (i : S1x768x768x16.Idx) :
    extractStridedSlice S1x768x768x16 ![1, 0, 0, 0] (outArr m c) slices_S2x768x768x16_S1x768x768x16_1_0_0_0 i
      = Cert.Spec.pixK (argsOf m c) 1 (i 1) (i 2) (i 3) := by
  rw [extractStridedSlice_apply ![1, 0, 0, 0] (outArr m c) slices_S2x768x768x16_S1x768x768x16_1_0_0_0 i
    (ix4 1 (i 1) (i 2) (i 3))
    (fun a => by match a with
      | ⟨0, _⟩ => exact (by have h0 : (i 0).val < 1 := (i 0).isLt; show (1 : Nat) = 1 + (i 0).val; omega)
      | ⟨1, _⟩ => exact (Nat.zero_add _).symm
      | ⟨2, _⟩ => exact (Nat.zero_add _).symm
      | ⟨3, _⟩ => exact (Nat.zero_add _).symm)]
  exact outArr_apply m c 1 (i 1) (i 2) (i 3)

end Cert.KernelIdeal.ResultValue

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefStages.lean ====
/-
  The reference program read in single-assignment form. Each of its operations writes one buffer, once, with a function of
  buffers written earlier or never; so after the whole list every buffer holds its operation's function of the final
  contents of the operation's operands, and, operation by operation in order, every buffer holds its stage: the
  operation's function composed down to the argument arrays.
-/
import proofs.«415965_j58050777972780_3_alg».proof.Proof.RefRead
import proofs.«415965_j58050777972780_3_alg».proof.Proof.LibSsa

set_option maxRecDepth 16384

noncomputable section

namespace Cert.ReferenceIdeal.Stages

open Cert.ReferenceIdeal Cert.ReferenceIdeal.Gen Cert.ReferenceIdeal.RunList Cert.ReferenceIdeal.Read Idealize.ShloMosaic
  Idealize.ShloMosaic.TcCoe Idealize.SL.Sem Idealize.ShloMosaic.StableHlo Idealize.ShloMosaic.StableHlo.Ssa

variable {F : FTy → Type} [FloatOps F]

/-- The buffer each operation writes, in the list's order. -/
abbrev W : List (Ref sig .tc) :=
  [main_c, main_v0, main_v1, main_c_0, main_v2, main_v3, main_v4, main_cst, main_v5, main_v6, main_cst_1, main_v7, main_v8, main_c_2, main_v9, main_v10, main_c_3, main_v11, main_v12, main_c_4, main_v13, main_v14, main_v15, main_v16, main_v17, main_v18, main_v19, main_v20, main_v21, main_v22, main_v23, main_v24, main_v25, main_c_5, main_v26, main_v27, main_c_6, main_v28, main_v29, main_c_7, main_v30, main_v31, main_v32, main_v33, main_v34, main_cst_8, main_v35, main_v36, main_v37, main_v38, main_v39, main_c_9, main_v40, main_v41, main_c_10, main_v42, main_v43, main_v44, main_v45, main_v46, main_v47, main_v48, main_v49, main_v50, main_v51, main_v52, main_c_11, main_v53, main_v54, main_c_12, main_v55, main_v56, main_v57, main_v58, main_v59, main_v60, main_v61, main_v62, main_v63, main_v64, main_v65, main_c_13, main_v66, main_v67, main_c_14, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_cst_15, main_v100, main_v101, main_cst_16, main_v102, main_v103, main_v104, main_v105, main_v106, main_v107, main_v108, main_cst_17, main_v109, main_v110, main_v111, main_v112, main_v113, main_v114, main_v115, main_cst_18, main_v116, main_v117, main_v118, main_v119, main_v120, main_v121, main_v122, main_v123, main_cst_19, main_v124, main_v125, main_v126, main_v127, main_v128, main_v129, main_v130, main_v131, main_cst_20, main_v132, main_v133, main_v134, main_v135, main_v136, main_v137, main_v138, main_cst_21, main_v139, main_v140, main_v141, main_v142, main_cst_22, main_v143, main_v144, main_v145, main_v146, main_v147, main_v148, main_v149, main_v150, main_cst_23, main_v151, main_v152, main_v153, main_v154, main_v155, main_v156, main_v157, main_v158, main_cst_24, main_v159, main_v160, main_v161, main_v162, main_v163, main_v164, main_v165, main_v166, main_v167, main_v168, main_v169, main_v170]

/-- Each operation writes exactly the buffer named at its position. -/
theorem hW : WritesOnly (ops (F := F)) W :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

variable (V : Valuation τ sig (Elt F))

/-- Argument 0 as the valuation holds it. -/
abbrev a0 : (⟨S500000x72, .f32⟩ : BufTy).Contents (Elt F) := V (Proc.devRef .tc main_arg0)
/-- Argument 1 as the valuation holds it. -/
abbrev a1 : (⟨S2x768x768x1, .f32⟩ : BufTy).Contents (Elt F) := V (Proc.devRef .tc main_arg1)
/-- Argument 2 as the valuation holds it. -/
abbrev a2 : (⟨S2x768x768x1x3, .f32⟩ : BufTy).Contents (Elt F) := V (Proc.devRef .tc main_arg2)
/-- Argument 3 as the valuation holds it. -/
abbrev a3 : (⟨S3x768x768, .f32⟩ : BufTy).Contents (Elt F) := V (Proc.devRef .tc main_arg3)
/-- Argument 4 as the valuation holds it. -/
abbrev a4 : (⟨S200000x3, .i32⟩ : BufTy).Contents (Elt F) := V (Proc.devRef .tc main_arg4)
/-- Argument 5 as the valuation holds it. -/
abbrev a5 : (⟨S2x768x768x1, .i32⟩ : BufTy).Contents (Elt F) := V (Proc.devRef .tc main_arg5)
/-- Argument 6 as the valuation holds it. -/
abbrev a6 : (⟨S2x768x768x1, .i32⟩ : BufTy).Contents (Elt F) := V (Proc.devRef .tc main_arg6)

theorem st_main_arg0 : after ops V (Proc.devRef .tc main_arg0) = a0 V :=
  after_arg ops W hW V main_arg0 (by decide)
theorem st_main_arg1 : after ops V (Proc.devRef .tc main_arg1) = a1 V :=
  after_arg ops W hW V main_arg1 (by decide)
theorem st_main_arg2 : after ops V (Proc.devRef .tc main_arg2) = a2 V :=
  after_arg ops W hW V main_arg2 (by decide)
theorem st_main_arg3 : after ops V (Proc.devRef .tc main_arg3) = a3 V :=
  after_arg ops W hW V main_arg3 (by decide)
theorem st_main_arg4 : after ops V (Proc.devRef .tc main_arg4) = a4 V :=
  after_arg ops W hW V main_arg4 (by decide)
theorem st_main_arg5 : after ops V (Proc.devRef .tc main_arg5) = a5 V :=
  after_arg ops W hW V main_arg5 (by decide)
theorem st_main_arg6 : after ops V (Proc.devRef .tc main_arg6) = a6 V :=
  after_arg ops W hW V main_arg6 (by decide)

theorem st_main_c : after ops V (Proc.devRef .tc main_c) = val_main_c (F := F) := by
  rw [ssa_nullary ops W hW V 0 main_c _ _ rfl (by decide)]
  rfl
theorem st_main_v0 : after ops V (Proc.devRef .tc main_v0) = val_main_v0 (F := F) := by
  rw [ssa_unary ops W hW V 1 main_c main_v0 _ _ _ rfl (by decide) (by decide), st_main_c]
  rfl
theorem st_main_v1 : after ops V (Proc.devRef .tc main_v1) = val_main_v1 (F := F) (a5 V) := by
  rw [ssa_binary ops W hW V 2 main_arg5 main_v0 main_v1 _ _ _ _ rfl (by decide) (by decide) (by decide), st_main_arg5, st_main_v0]
  rfl
theorem st_main_c_0 : after ops V (Proc.devRef .tc main_c_0) = val_main_c_0 (F := F) := by
  rw [ssa_nullary ops W hW V 3 main_c_0 _ _ rfl (by decide)]
  rfl
theorem st_main_v2 : after ops V (Proc.devRef .tc main_v2) = val_main_v2 (F := F) := by
  rw [ssa_unary ops W hW V 4 main_c_0 main_v2 _ _ _ rfl (by decide) (by decide), st_main_c_0]
  rfl
theorem st_main_v3 : after ops V (Proc.devRef .tc main_v3) = val_main_v3 (F := F) (a6 V) := by
  rw [ssa_binary ops W hW V 5 main_arg6 main_v2 main_v3 _ _ _ _ rfl (by decide) (by decide) (by decide), st_main_arg6, st_main_v2]
  rfl
theorem st_main_v4 : after ops V (Proc.devRef .tc main_v4) = val_main_v4 (F := F) (a5 V) (a6 V) := by
  rw [ssa_binary ops W hW V 6 main_v1 main_v3 main_v4 _ _ _ _ rfl (by decide) (by decide) (by decide), st_main_v1, st_main_v3]
  rfl
theorem st_main_cst : after ops V (Proc.devRef .tc main_cst) = val_main_cst (F := F) := by
  rw [ssa_nullary ops W hW V 7 main_cst _ _ rfl (by decide)]
  rfl
theorem st_main_v5 : after ops V (Proc.devRef .tc main_v5) = val_main_v5 (F := F) := by
  rw [ssa_unary ops W hW V 8 main_cst main_v5 _ _ _ rfl (by decide) (by decide), st_main_cst]
  rfl
theorem st_main_v6 : after ops V (Proc.devRef .tc main_v6) = val_main_v6 (F := F) (a1 V) := by
  rw [ssa_binary ops W hW V 9 main_arg1 main_v5 main_v6 _ _ _ _ rfl (by decide) (by decide) (by decide), st_main_arg1, st_main_v5]
  rfl
theorem st_main_cst_1 : after ops V (Proc.devRef .tc main_cst_1) = val_main_cst_1 (F := F) := by
  rw [ssa_nullary ops W hW V 10 main_cst_1 _ _ rfl (by decide)]
  rfl
theorem st_main_v7 : after ops V (Proc.devRef .tc main_v7) = val_main_v7 (F := F) := by
  rw [ssa_unary ops W hW V 11 main_cst_1 main_v7 _ _ _ rfl (by decide) (by decide), st_main_cst_1]
  rfl
theorem st_main_v8 : after ops V (Proc.devRef .tc main_v8) = val_main_v8 (F := F) (a1 V) := by
  rw [ssa_binary ops W hW V 12 main_v7 main_v6 main_v8 _ _ _ _ rfl (by decide) (by decide) (by decide), st_main_v7, st_main_v6]
  rfl
theorem st_main_c_2 : after ops V (Proc.devRef .tc main_c_2) = val_main_c_2 (F := F) := by
  rw [ssa_nullary ops W hW V 13 main_c_2 _ _ rfl (by decide)]
  rfl
theorem st_main_v9 : after ops V (Proc.devRef .tc main_v9) = val_main_v9 (F := F) := by
  rw [ssa_unary ops W hW V 14 main_c_2 main_v9 _ _ _ rfl (by decide) (by decide), st_main_c_2]
  rfl
theorem st_main_v10 : after ops V (Proc.devRef .tc main_v10) = val_main_v10 (F := F) (a5 V) := by
  rw [ssa_binary ops W hW V 15 main_arg5 main_v9 main_v10 _ _ _ _ rfl (by decide) (by decide) (by decide), st_main_arg5, st_main_v9]
  rfl
theorem st_main_c_3 : after ops V (Proc.devRef .tc main_c_3) = val_main_c_3 (F := F) := by
  rw [ssa_nullary ops W hW V 16 main_c_3 _ _ rfl (by decide)]
  rfl
theorem st_main_v11 : after ops V (Proc.devRef .tc main_v11) = val_main_v11 (F := F) := by
  rw [ssa_unary ops W hW V 17 main_c_3 main_v11 _ _ _ rfl (by decide) (by decide), st_main_c_3]
  rfl
theorem st_main_v12 : after ops V (Proc.devRef .tc main_v12) = val_main_v12 (F := F) (a5 V) := by
  rw [ssa_binary ops W hW V 18 main_v10 main_v11 main_v12 _ _ _ _ rfl (by decide) (by decide) (by decide), st_main_v10, st_main_v11]
  rfl
theorem st_main_c_4 : after ops V (Proc.devRef .tc main_c_4) = val_main_c_4 (F := F) := by
  rw [ssa_nullary ops W hW V 19 main_c_4 _ _ rfl (by decide)]
  rfl
theorem st_main_v13 : after ops V (Proc.devRef .tc main_v13) = val_main_v13 (F := F) := by
  rw [ssa_unary ops W hW V 20 main_c_4 main_v13 _ _ _ rfl (by decide) (by decide), st_main_c_4]
  rfl
theorem st_main_v14 : after ops V (Proc.devRef .tc main_v14) = val_main_v14 (F := F) (a5 V) := by
  rw [ssa_binary ops W hW V 21 main_v10 main_v13 main_v14 _ _ _ _ rfl (by decide) (by decide) (by decide), st_main_v10, st_main_v13]
  rfl
theorem st_main_v15 : after ops V (Proc.devRef .tc main_v15) = val_main_v15 (F := F) (a5 V) := by
  rw [ssa_ternary ops W hW V 22 main_v12 main_v14 main_v10 main_v15 _ _ _ _ _ rfl (by decide) (by decide) (by decide) (by decide), st_main_v12, st_main_v14, st_main_v10]
  rfl
theorem st_main_v16 : after ops V (Proc.devRef .tc main_v16) = val_main_v16 (F := F) (a5 V) := by
  rw [ssa_unary ops W hW V 23 main_v15 main_v16 _ _ _ rfl (by decide) (by decide), st_main_v15]
  rfl
theorem st_main_v17 : after ops V (Proc.devRef .tc main_v17) = val_main_v17 (F := F) (a0 V) (a5 V) := by
  rw [ssa_binary ops W hW V 24 main_arg0 main_v16 main_v17 _ _ _ _ rfl (by decide) (by decide) (by decide), st_main_arg0, st_main_v16]
  rfl
theorem st_main_v18 : after ops V (Proc.devRef .tc main_v18) = val_main_v18 (F := F) (a5 V) := by
  rw [ssa_unary ops W hW V 25 main_v1 main_v18 _ _ _ rfl (by decide) (by decide), st_main_v1]
  rfl
theorem st_main_v19 : after ops V (Proc.devRef .tc main_v19) = val_main_v19 (F := F) (a5 V) := by
  rw [ssa_unary ops W hW V 26 main_v18 main_v19 _ _ _ rfl (by decide) (by decide), st_main_v18]
  rfl
theorem st_main_v20 : after ops V (Proc.devRef .tc main_v20) = val_main_v20 (F := F) (a5 V) := by
  rw [ssa_unary ops W hW V 27 main_v19 main_v20 _ _ _ rfl (by decide) (by decide), st_main_v19]
  rfl
theorem st_main_v21 : after ops V (Proc.devRef .tc main_v21) = val_main_v21 (F := F) (a0 V) (a5 V) := by
  rw [ssa_binary ops W hW V 28 main_v17 main_v20 main_v21 _ _ _ _ rfl (by decide) (by decide) (by decide), st_main_v17, st_main_v20]
  rfl
theorem st_main_v22 : after ops V (Proc.devRef .tc main_v22) = val_main_v22 (F := F) (a1 V) := by
  rw [ssa_unary ops W hW V 29 main_v8 main_v22 _ _ _ rfl (by decide) (by decide), st_main_v8]
  rfl
theorem st_main_v23 : after ops V (Proc.devRef .tc main_v23) = val_main_v23 (F := F) (a1 V) := by
  rw [ssa_unary ops W hW V 30 main_v22 main_v23 _ _ _ rfl (by decide) (by decide), st_main_v22]
  rfl
theorem st_main_v24 : after ops V (Proc.devRef .tc main_v24) = val_main_v24 (F := F) (a0 V) (a1 V) (a5 V) := by
  rw [ssa_binary ops W hW V 31 main_v21 main_v23 main_v24 _ _ _ _ rfl (by decide) (by decide) (by decide), st_main_v21, st_main_v23]
  rfl
theorem st_main_v25 : after ops V (Proc.devRef .tc main_v25) = val_main_v25 (F := F) (a0 V) (a1 V) (a5 V) := by
  rw [ssa_reshape ops W hW V 32 main_v24 main_v25 _ _ _ _ rfl (by decide) (by decide), st_main_v24]
  rfl
theorem st_main_c_5 : after ops V (Proc.devRef .tc main_c_5) = val_main_c_5 (F := F) := by
  rw [ssa_nullary ops W hW V 33 main_c_5 _ _ rfl (by decide)]
  rfl
theorem st_main_v26 : after ops V (Proc.devRef .tc main_v26) = val_main_v26 (F := F) := by
  rw [ssa_unary ops W hW V 34 main_c_5 main_v26 _ _ _ rfl (by decide) (by decide), st_main_c_5]
  rfl
theorem st_main_v27 : after ops V (Proc.devRef .tc main_v27) = val_main_v27 (F := F) (a6 V) := by
  rw [ssa_binary ops W hW V 35 main_arg6 main_v26 main_v27 _ _ _ _ rfl (by decide) (by decide) (by decide), st_main_arg6, st_main_v26]
  rfl
theorem st_main_c_6 : after ops V (Proc.devRef .tc main_c_6) = val_main_c_6 (F := F) := by
  rw [ssa_nullary ops W hW V 36 main_c_6 _ _ rfl (by decide)]
  rfl
theorem st_main_v28 : after ops V (Proc.devRef .tc main_v28) = val_main_v28 (F := F) := by
  rw [ssa_unary ops W hW V 37 main_c_6 main_v28 _ _ _ rfl (by decide) (by decide), st_main_c_6]
  rfl
theorem st_main_v29 : after ops V (Proc.devRef .tc main_v29) = val_main_v29 (F := F) (a6 V) := by
  rw [ssa_binary ops W hW V 38 main_v27 main_v28 main_v29 _ _ _ _ rfl (by decide) (by decide) (by decide), st_main_v27, st_main_v28]
  rfl
theorem st_main_c_7 : after ops V (Proc.devRef .tc main_c_7) = val_main_c_7 (F := F) := by
  rw [ssa_nullary ops W hW V 39 main_c_7 _ _ rfl (by decide)]
  rfl
theorem st_main_v30 : after ops V (Proc.devRef .tc main_v30) = val_main_v30 (F := F) := by
  rw [ssa_unary ops W hW V 40 main_c_7 main_v30 _ _ _ rfl (by decide) (by decide), st_main_c_7]
  rfl
theorem st_main_v31 : after ops V (Proc.devRef .tc main_v31) = val_main_v31 (F := F) (a6 V) := by
  rw [ssa_binary ops W hW V 41 main_v27 main_v30 main_v31 _ _ _ _ rfl (by decide) (by decide) (by decide), st_main_v27, st_main_v30]
  rfl
theorem st_main_v32 : after ops V (Proc.devRef .tc main_v32) = val_main_v32 (F := F) (a6 V) := by
  rw [ssa_ternary ops W hW V 42 main_v29 main_v31 main_v27 main_v32 _ _ _ _ _ rfl (by decide) (by decide) (by decide) (by decide), st_main_v29, st_main_v31, st_main_v27]
  rfl
theorem st_main_v33 : after ops V (Proc.devRef .tc main_v33) = val_main_v33 (F := F) (a6 V) := by
  rw [ssa_unary ops W hW V 43 main_v32 main_v33 _ _ _ rfl (by decide) (by decide), st_main_v32]
  rfl
theorem st_main_v34 : after ops V (Proc.devRef .tc main_v34) = val_main_v34 (F := F) (a4 V) (a6 V) := by
  rw [ssa_binary ops W hW V 44 main_arg4 main_v33 main_v34 _ _ _ _ rfl (by decide) (by decide) (by decide), st_main_arg4, st_main_v33]
  rfl
theorem st_main_cst_8 : after ops V (Proc.devRef .tc main_cst_8) = val_main_cst_8 (F := F) := by
  rw [ssa_nullary ops W hW V 45 main_cst_8 _ _ rfl (by decide)]
  rfl
theorem st_main_v35 : after ops V (Proc.devRef .tc main_v35) = val_main_v35 (F := F) := by
  rw [ssa_unary ops W hW V 46 main_cst_8 main_v35 _ _ _ rfl (by decide) (by decide), st_main_cst_8]
  rfl
theorem st_main_v36 : after ops V (Proc.devRef .tc main_v36) = val_main_v36 (F := F) := by
  rw [ssa_unary ops W hW V 47 main_v35 main_v36 _ _ _ rfl (by decide) (by decide), st_main_v35]
  rfl
theorem st_main_v37 : after ops V (Proc.devRef .tc main_v37) = val_main_v37 (F := F) (a2 V) := by
  rw [ssa_unary ops W hW V 48 main_arg2 main_v37 _ _ _ rfl (by decide) (by decide), st_main_arg2]
  rfl
theorem st_main_v38 : after ops V (Proc.devRef .tc main_v38) = val_main_v38 (F := F) (a4 V) (a6 V) := by
  rw [ssa_unary ops W hW V 49 main_v34 main_v38 _ _ _ rfl (by decide) (by decide), st_main_v34]
  rfl
theorem st_main_v39 : after ops V (Proc.devRef .tc main_v39) = val_main_v39 (F := F) (a4 V) (a6 V) := by
  rw [ssa_reshape ops W hW V 50 main_v38 main_v39 _ _ _ _ rfl (by decide) (by decide), st_main_v38]
  rfl
theorem st_main_c_9 : after ops V (Proc.devRef .tc main_c_9) = val_main_c_9 (F := F) := by
  rw [ssa_nullary ops W hW V 51 main_c_9 _ _ rfl (by decide)]
  rfl
theorem st_main_v40 : after ops V (Proc.devRef .tc main_v40) = val_main_v40 (F := F) := by
  rw [ssa_unary ops W hW V 52 main_c_9 main_v40 _ _ _ rfl (by decide) (by decide), st_main_c_9]
  rfl
theorem st_main_v41 : after ops V (Proc.devRef .tc main_v41) = val_main_v41 (F := F) (a4 V) (a6 V) := by
  rw [ssa_binary ops W hW V 53 main_v39 main_v40 main_v41 _ _ _ _ rfl (by decide) (by decide) (by decide), st_main_v39, st_main_v40]
  rfl
theorem st_main_c_10 : after ops V (Proc.devRef .tc main_c_10) = val_main_c_10 (F := F) := by
  rw [ssa_nullary ops W hW V 54 main_c_10 _ _ rfl (by decide)]
  rfl
theorem st_main_v42 : after ops V (Proc.devRef .tc main_v42) = val_main_v42 (F := F) := by
  rw [ssa_unary ops W hW V 55 main_c_10 main_v42 _ _ _ rfl (by decide) (by decide), st_main_c_10]
  rfl
theorem st_main_v43 : after ops V (Proc.devRef .tc main_v43) = val_main_v43 (F := F) (a4 V) (a6 V) := by
  rw [ssa_binary ops W hW V 56 main_v39 main_v42 main_v43 _ _ _ _ rfl (by decide) (by decide) (by decide), st_main_v39, st_main_v42]
  rfl
theorem st_main_v44 : after ops V (Proc.devRef .tc main_v44) = val_main_v44 (F := F) (a4 V) (a6 V) := by
  rw [ssa_ternary ops W hW V 57 main_v41 main_v43 main_v39 main_v44 _ _ _ _ _ rfl (by decide) (by decide) (by decide) (by decide), st_main_v41, st_main_v43, st_main_v39]
  rfl
theorem st_main_v45 : after ops V (Proc.devRef .tc main_v45) = val_main_v45 (F := F) (a4 V) (a6 V) := by
  rw [ssa_unary ops W hW V 58 main_v44 main_v45 _ _ _ rfl (by decide) (by decide), st_main_v44]
  rfl
theorem st_main_v46 : after ops V (Proc.devRef .tc main_v46) = val_main_v46 (F := F) (a0 V) (a4 V) (a6 V) := by
  rw [ssa_binary ops W hW V 59 main_arg0 main_v45 main_v46 _ _ _ _ rfl (by decide) (by decide) (by decide), st_main_arg0, st_main_v45]
  rfl
theorem st_main_v47 : after ops V (Proc.devRef .tc main_v47) = val_main_v47 (F := F) (a2 V) := by
  rw [ssa_unary ops W hW V 60 main_v37 main_v47 _ _ _ rfl (by decide) (by decide), st_main_v37]
  rfl
theorem st_main_v48 : after ops V (Proc.devRef .tc main_v48) = val_main_v48 (F := F) (a0 V) (a2 V) (a4 V) (a6 V) := by
  rw [ssa_binary ops W hW V 61 main_v47 main_v46 main_v48 _ _ _ _ rfl (by decide) (by decide) (by decide), st_main_v47, st_main_v46]
  rfl
theorem st_main_v49 : after ops V (Proc.devRef .tc main_v49) = val_main_v49 (F := F) (a0 V) (a2 V) (a4 V) (a6 V) := by
  rw [ssa_binary ops W hW V 62 main_v36 main_v48 main_v49 _ _ _ _ rfl (by decide) (by decide) (by decide), st_main_v36, st_main_v48]
  rfl
theorem st_main_v50 : after ops V (Proc.devRef .tc main_v50) = val_main_v50 (F := F) (a2 V) := by
  rw [ssa_unary ops W hW V 63 main_arg2 main_v50 _ _ _ rfl (by decide) (by decide), st_main_arg2]
  rfl
theorem st_main_v51 : after ops V (Proc.devRef .tc main_v51) = val_main_v51 (F := F) (a4 V) (a6 V) := by
  rw [ssa_unary ops W hW V 64 main_v34 main_v51 _ _ _ rfl (by decide) (by decide), st_main_v34]
  rfl
theorem st_main_v52 : after ops V (Proc.devRef .tc main_v52) = val_main_v52 (F := F) (a4 V) (a6 V) := by
  rw [ssa_reshape ops W hW V 65 main_v51 main_v52 _ _ _ _ rfl (by decide) (by decide), st_main_v51]
  rfl
theorem st_main_c_11 : after ops V (Proc.devRef .tc main_c_11) = val_main_c_11 (F := F) := by
  rw [ssa_nullary ops W hW V 66 main_c_11 _ _ rfl (by decide)]
  rfl
theorem st_main_v53 : after ops V (Proc.devRef .tc main_v53) = val_main_v53 (F := F) := by
  rw [ssa_unary ops W hW V 67 main_c_11 main_v53 _ _ _ rfl (by decide) (by decide), st_main_c_11]
  rfl
theorem st_main_v54 : after ops V (Proc.devRef .tc main_v54) = val_main_v54 (F := F) (a4 V) (a6 V) := by
  rw [ssa_binary ops W hW V 68 main_v52 main_v53 main_v54 _ _ _ _ rfl (by decide) (by decide) (by decide), st_main_v52, st_main_v53]
  rfl
theorem st_main_c_12 : after ops V (Proc.devRef .tc main_c_12) = val_main_c_12 (F := F) := by
  rw [ssa_nullary ops W hW V 69 main_c_12 _ _ rfl (by decide)]
  rfl
theorem st_main_v55 : after ops V (Proc.devRef .tc main_v55) = val_main_v55 (F := F) := by
  rw [ssa_unary ops W hW V 70 main_c_12 main_v55 _ _ _ rfl (by decide) (by decide), st_main_c_12]
  rfl
theorem st_main_v56 : after ops V (Proc.devRef .tc main_v56) = val_main_v56 (F := F) (a4 V) (a6 V) := by
  rw [ssa_binary ops W hW V 71 main_v52 main_v55 main_v56 _ _ _ _ rfl (by decide) (by decide) (by decide), st_main_v52, st_main_v55]
  rfl
theorem st_main_v57 : after ops V (Proc.devRef .tc main_v57) = val_main_v57 (F := F) (a4 V) (a6 V) := by
  rw [ssa_ternary ops W hW V 72 main_v54 main_v56 main_v52 main_v57 _ _ _ _ _ rfl (by decide) (by decide) (by decide) (by decide), st_main_v54, st_main_v56, st_main_v52]
  rfl
theorem st_main_v58 : after ops V (Proc.devRef .tc main_v58) = val_main_v58 (F := F) (a4 V) (a6 V) := by
  rw [ssa_unary ops W hW V 73 main_v57 main_v58 _ _ _ rfl (by decide) (by decide), st_main_v57]
  rfl
theorem st_main_v59 : after ops V (Proc.devRef .tc main_v59) = val_main_v59 (F := F) (a0 V) (a4 V) (a6 V) := by
  rw [ssa_binary ops W hW V 74 main_arg0 main_v58 main_v59 _ _ _ _ rfl (by decide) (by decide) (by decide), st_main_arg0, st_main_v58]
  rfl
theorem st_main_v60 : after ops V (Proc.devRef .tc main_v60) = val_main_v60 (F := F) (a2 V) := by
  rw [ssa_unary ops W hW V 75 main_v50 main_v60 _ _ _ rfl (by decide) (by decide), st_main_v50]
  rfl
theorem st_main_v61 : after ops V (Proc.devRef .tc main_v61) = val_main_v61 (F := F) (a0 V) (a2 V) (a4 V) (a6 V) := by
  rw [ssa_binary ops W hW V 76 main_v60 main_v59 main_v61 _ _ _ _ rfl (by decide) (by decide) (by decide), st_main_v60, st_main_v59]
  rfl
theorem st_main_v62 : after ops V (Proc.devRef .tc main_v62) = val_main_v62 (F := F) (a0 V) (a2 V) (a4 V) (a6 V) := by
  rw [ssa_binary ops W hW V 77 main_v49 main_v61 main_v62 _ _ _ _ rfl (by decide) (by decide) (by decide), st_main_v49, st_main_v61]
  rfl
theorem st_main_v63 : after ops V (Proc.devRef .tc main_v63) = val_main_v63 (F := F) (a2 V) := by
  rw [ssa_unary ops W hW V 78 main_arg2 main_v63 _ _ _ rfl (by decide) (by decide), st_main_arg2]
  rfl
theorem st_main_v64 : after ops V (Proc.devRef .tc main_v64) = val_main_v64 (F := F) (a4 V) (a6 V) := by
  rw [ssa_unary ops W hW V 79 main_v34 main_v64 _ _ _ rfl (by decide) (by decide), st_main_v34]
  rfl
theorem st_main_v65 : after ops V (Proc.devRef .tc main_v65) = val_main_v65 (F := F) (a4 V) (a6 V) := by
  rw [ssa_reshape ops W hW V 80 main_v64 main_v65 _ _ _ _ rfl (by decide) (by decide), st_main_v64]
  rfl
theorem st_main_c_13 : after ops V (Proc.devRef .tc main_c_13) = val_main_c_13 (F := F) := by
  rw [ssa_nullary ops W hW V 81 main_c_13 _ _ rfl (by decide)]
  rfl
theorem st_main_v66 : after ops V (Proc.devRef .tc main_v66) = val_main_v66 (F := F) := by
  rw [ssa_unary ops W hW V 82 main_c_13 main_v66 _ _ _ rfl (by decide) (by decide), st_main_c_13]
  rfl
theorem st_main_v67 : after ops V (Proc.devRef .tc main_v67) = val_main_v67 (F := F) (a4 V) (a6 V) := by
  rw [ssa_binary ops W hW V 83 main_v65 main_v66 main_v67 _ _ _ _ rfl (by decide) (by decide) (by decide), st_main_v65, st_main_v66]
  rfl
theorem st_main_c_14 : after ops V (Proc.devRef .tc main_c_14) = val_main_c_14 (F := F) := by
  rw [ssa_nullary ops W hW V 84 main_c_14 _ _ rfl (by decide)]
  rfl
theorem st_main_v68 : after ops V (Proc.devRef .tc main_v68) = val_main_v68 (F := F) := by
  rw [ssa_unary ops W hW V 85 main_c_14 main_v68 _ _ _ rfl (by decide) (by decide), st_main_c_14]
  rfl
theorem st_main_v69 : after ops V (Proc.devRef .tc main_v69) = val_main_v69 (F := F) (a4 V) (a6 V) := by
  rw [ssa_binary ops W hW V 86 main_v65 main_v68 main_v69 _ _ _ _ rfl (by decide) (by decide) (by decide), st_main_v65, st_main_v68]
  rfl
theorem st_main_v70 : after ops V (Proc.devRef .tc main_v70) = val_main_v70 (F := F) (a4 V) (a6 V) := by
  rw [ssa_ternary ops W hW V 87 main_v67 main_v69 main_v65 main_v70 _ _ _ _ _ rfl (by decide) (by decide) (by decide) (by decide), st_main_v67, st_main_v69, st_main_v65]
  rfl
theorem st_main_v71 : after ops V (Proc.devRef .tc main_v71) = val_main_v71 (F := F) (a4 V) (a6 V) := by
  rw [ssa_unary ops W hW V 88 main_v70 main_v71 _ _ _ rfl (by decide) (by decide), st_main_v70]
  rfl
theorem st_main_v72 : after ops V (Proc.devRef .tc main_v72) = val_main_v72 (F := F) (a0 V) (a4 V) (a6 V) := by
  rw [ssa_binary ops W hW V 89 main_arg0 main_v71 main_v72 _ _ _ _ rfl (by decide) (by decide) (by decide), st_main_arg0, st_main_v71]
  rfl
theorem st_main_v73 : after ops V (Proc.devRef .tc main_v73) = val_main_v73 (F := F) (a2 V) := by
  rw [ssa_unary ops W hW V 90 main_v63 main_v73 _ _ _ rfl (by decide) (by decide), st_main_v63]
  rfl
theorem st_main_v74 : after ops V (Proc.devRef .tc main_v74) = val_main_v74 (F := F) (a0 V) (a2 V) (a4 V) (a6 V) := by
  rw [ssa_binary ops W hW V 91 main_v73 main_v72 main_v74 _ _ _ _ rfl (by decide) (by decide) (by decide), st_main_v73, st_main_v72]
  rfl
theorem st_main_v75 : after ops V (Proc.devRef .tc main_v75) = val_main_v75 (F := F) (a0 V) (a2 V) (a4 V) (a6 V) := by
  rw [ssa_binary ops W hW V 92 main_v62 main_v74 main_v75 _ _ _ _ rfl (by decide) (by decide) (by decide), st_main_v62, st_main_v74]
  rfl
theorem st_main_v76 : after ops V (Proc.devRef .tc main_v76) = val_main_v76 (F := F) (a6 V) := by
  rw [ssa_unary ops W hW V 93 main_v3 main_v76 _ _ _ rfl (by decide) (by decide), st_main_v3]
  rfl
theorem st_main_v77 : after ops V (Proc.devRef .tc main_v77) = val_main_v77 (F := F) (a6 V) := by
  rw [ssa_unary ops W hW V 94 main_v76 main_v77 _ _ _ rfl (by decide) (by decide), st_main_v76]
  rfl
theorem st_main_v78 : after ops V (Proc.devRef .tc main_v78) = val_main_v78 (F := F) (a6 V) := by
  rw [ssa_unary ops W hW V 95 main_v77 main_v78 _ _ _ rfl (by decide) (by decide), st_main_v77]
  rfl
theorem st_main_v79 : after ops V (Proc.devRef .tc main_v79) = val_main_v79 (F := F) (a0 V) (a2 V) (a4 V) (a6 V) := by
  rw [ssa_binary ops W hW V 96 main_v75 main_v78 main_v79 _ _ _ _ rfl (by decide) (by decide) (by decide), st_main_v75, st_main_v78]
  rfl
theorem st_main_v80 : after ops V (Proc.devRef .tc main_v80) = val_main_v80 (F := F) (a0 V) (a2 V) (a4 V) (a6 V) := by
  rw [ssa_reshape ops W hW V 97 main_v79 main_v80 _ _ _ _ rfl (by decide) (by decide), st_main_v79]
  rfl
theorem st_main_v81 : after ops V (Proc.devRef .tc main_v81) = val_main_v81 (F := F) (a0 V) (a1 V) (a2 V) (a4 V) (a5 V) (a6 V) := by
  rw [ssa_binary ops W hW V 98 main_v25 main_v80 main_v81 _ _ _ _ rfl (by decide) (by decide) (by decide), st_main_v25, st_main_v80]
  rfl
theorem st_main_v82 : after ops V (Proc.devRef .tc main_v82) = val_main_v82 (F := F) (a3 V) := by
  rw [ssa_unary ops W hW V 99 main_arg3 main_v82 _ _ _ rfl (by decide) (by decide), st_main_arg3]
  rfl
theorem st_main_v83 : after ops V (Proc.devRef .tc main_v83) = val_main_v83 (F := F) (a3 V) := by
  rw [ssa_unary ops W hW V 100 main_v82 main_v83 _ _ _ rfl (by decide) (by decide), st_main_v82]
  rfl
theorem st_main_v84 : after ops V (Proc.devRef .tc main_v84) = val_main_v84 (F := F) (a3 V) := by
  rw [ssa_reshape ops W hW V 101 main_v83 main_v84 _ _ _ _ rfl (by decide) (by decide), st_main_v83]
  rfl
theorem st_main_v85 : after ops V (Proc.devRef .tc main_v85) = val_main_v85 (F := F) (a0 V) (a1 V) (a2 V) (a4 V) (a5 V) (a6 V) := by
  rw [ssa_reshape ops W hW V 102 main_v81 main_v85 _ _ _ _ rfl (by decide) (by decide), st_main_v81]
  rfl
theorem st_main_v86 : after ops V (Proc.devRef .tc main_v86) = val_main_v86 (F := F) (a3 V) := by
  rw [ssa_unary ops W hW V 103 main_v84 main_v86 _ _ _ rfl (by decide) (by decide), st_main_v84]
  rfl
theorem st_main_v87 : after ops V (Proc.devRef .tc main_v87) = val_main_v87 (F := F) (a3 V) := by
  rw [ssa_reshape ops W hW V 104 main_v86 main_v87 _ _ _ _ rfl (by decide) (by decide), st_main_v86]
  rfl
theorem st_main_v88 : after ops V (Proc.devRef .tc main_v88) = val_main_v88 (F := F) (a3 V) := by
  rw [ssa_unary ops W hW V 105 main_v87 main_v88 _ _ _ rfl (by decide) (by decide), st_main_v87]
  rfl
theorem st_main_v89 : after ops V (Proc.devRef .tc main_v89) = val_main_v89 (F := F) (a3 V) := by
  rw [ssa_unary ops W hW V 106 main_v84 main_v89 _ _ _ rfl (by decide) (by decide), st_main_v84]
  rfl
theorem st_main_v90 : after ops V (Proc.devRef .tc main_v90) = val_main_v90 (F := F) (a3 V) := by
  rw [ssa_reshape ops W hW V 107 main_v89 main_v90 _ _ _ _ rfl (by decide) (by decide), st_main_v89]
  rfl
theorem st_main_v91 : after ops V (Proc.devRef .tc main_v91) = val_main_v91 (F := F) (a3 V) := by
  rw [ssa_unary ops W hW V 108 main_v90 main_v91 _ _ _ rfl (by decide) (by decide), st_main_v90]
  rfl
theorem st_main_v92 : after ops V (Proc.devRef .tc main_v92) = val_main_v92 (F := F) (a3 V) := by
  rw [ssa_unary ops W hW V 109 main_v84 main_v92 _ _ _ rfl (by decide) (by decide), st_main_v84]
  rfl
theorem st_main_v93 : after ops V (Proc.devRef .tc main_v93) = val_main_v93 (F := F) (a3 V) := by
  rw [ssa_reshape ops W hW V 110 main_v92 main_v93 _ _ _ _ rfl (by decide) (by decide), st_main_v92]
  rfl
theorem st_main_v94 : after ops V (Proc.devRef .tc main_v94) = val_main_v94 (F := F) (a3 V) := by
  rw [ssa_unary ops W hW V 111 main_v93 main_v94 _ _ _ rfl (by decide) (by decide), st_main_v93]
  rfl
theorem st_main_v95 : after ops V (Proc.devRef .tc main_v95) = val_main_v95 (F := F) (a3 V) := by
  rw [ssa_binary ops W hW V 112 main_v88 main_v88 main_v95 _ _ _ _ rfl (by decide) (by decide) (by decide), st_main_v88]
  rfl
theorem st_main_v96 : after ops V (Proc.devRef .tc main_v96) = val_main_v96 (F := F) (a3 V) := by
  rw [ssa_binary ops W hW V 113 main_v91 main_v91 main_v96 _ _ _ _ rfl (by decide) (by decide) (by decide), st_main_v91]
  rfl
theorem st_main_v97 : after ops V (Proc.devRef .tc main_v97) = val_main_v97 (F := F) (a3 V) := by
  rw [ssa_binary ops W hW V 114 main_v94 main_v94 main_v97 _ _ _ _ rfl (by decide) (by decide) (by decide), st_main_v94]
  rfl
theorem st_main_v98 : after ops V (Proc.devRef .tc main_v98) = val_main_v98 (F := F) (a0 V) (a1 V) (a2 V) (a4 V) (a5 V) (a6 V) := by
  rw [ssa_unary ops W hW V 115 main_v85 main_v98 _ _ _ rfl (by decide) (by decide), st_main_v85]
  rfl
theorem st_main_v99 : after ops V (Proc.devRef .tc main_v99) = val_main_v99 (F := F) (a0 V) (a1 V) (a2 V) (a4 V) (a5 V) (a6 V) := by
  rw [ssa_reshape ops W hW V 116 main_v98 main_v99 _ _ _ _ rfl (by decide) (by decide), st_main_v98]
  rfl
theorem st_main_cst_15 : after ops V (Proc.devRef .tc main_cst_15) = val_main_cst_15 (F := F) := by
  rw [ssa_nullary ops W hW V 117 main_cst_15 _ _ rfl (by decide)]
  rfl
theorem st_main_v100 : after ops V (Proc.devRef .tc main_v100) = val_main_v100 (F := F) := by
  rw [ssa_unary ops W hW V 118 main_cst_15 main_v100 _ _ _ rfl (by decide) (by decide), st_main_cst_15]
  rfl
theorem st_main_v101 : after ops V (Proc.devRef .tc main_v101) = val_main_v101 (F := F) (a0 V) (a1 V) (a2 V) (a4 V) (a5 V) (a6 V) := by
  rw [ssa_binary ops W hW V 119 main_v100 main_v99 main_v101 _ _ _ _ rfl (by decide) (by decide) (by decide), st_main_v100, st_main_v99]
  rfl
theorem st_main_cst_16 : after ops V (Proc.devRef .tc main_cst_16) = val_main_cst_16 (F := F) := by
  rw [ssa_nullary ops W hW V 120 main_cst_16 _ _ rfl (by decide)]
  rfl
theorem st_main_v102 : after ops V (Proc.devRef .tc main_v102) = val_main_v102 (F := F) := by
  rw [ssa_unary ops W hW V 121 main_cst_16 main_v102 _ _ _ rfl (by decide) (by decide), st_main_cst_16]
  rfl
theorem st_main_v103 : after ops V (Proc.devRef .tc main_v103) = val_main_v103 (F := F) (a3 V) := by
  rw [ssa_binary ops W hW V 122 main_v102 main_v91 main_v103 _ _ _ _ rfl (by decide) (by decide) (by decide), st_main_v102, st_main_v91]
  rfl
theorem st_main_v104 : after ops V (Proc.devRef .tc main_v104) = val_main_v104 (F := F) (a0 V) (a1 V) (a2 V) (a4 V) (a5 V) (a6 V) := by
  rw [ssa_unary ops W hW V 123 main_v85 main_v104 _ _ _ rfl (by decide) (by decide), st_main_v85]
  rfl
theorem st_main_v105 : after ops V (Proc.devRef .tc main_v105) = val_main_v105 (F := F) (a0 V) (a1 V) (a2 V) (a4 V) (a5 V) (a6 V) := by
  rw [ssa_reshape ops W hW V 124 main_v104 main_v105 _ _ _ _ rfl (by decide) (by decide), st_main_v104]
  rfl
theorem st_main_v106 : after ops V (Proc.devRef .tc main_v106) = val_main_v106 (F := F) (a3 V) := by
  rw [ssa_unary ops W hW V 125 main_v103 main_v106 _ _ _ rfl (by decide) (by decide), st_main_v103]
  rfl
theorem st_main_v107 : after ops V (Proc.devRef .tc main_v107) = val_main_v107 (F := F) (a0 V) (a1 V) (a2 V) (a3 V) (a4 V) (a5 V) (a6 V) := by
  rw [ssa_binary ops W hW V 126 main_v106 main_v105 main_v107 _ _ _ _ rfl (by decide) (by decide) (by decide), st_main_v106, st_main_v105]
  rfl
theorem st_main_v108 : after ops V (Proc.devRef .tc main_v108) = val_main_v108 (F := F) (a0 V) (a1 V) (a2 V) (a3 V) (a4 V) (a5 V) (a6 V) := by
  rw [ssa_binary ops W hW V 127 main_v101 main_v107 main_v108 _ _ _ _ rfl (by decide) (by decide) (by decide), st_main_v101, st_main_v107]
  rfl
theorem st_main_cst_17 : after ops V (Proc.devRef .tc main_cst_17) = val_main_cst_17 (F := F) := by
  rw [ssa_nullary ops W hW V 128 main_cst_17 _ _ rfl (by decide)]
  rfl
theorem st_main_v109 : after ops V (Proc.devRef .tc main_v109) = val_main_v109 (F := F) := by
  rw [ssa_unary ops W hW V 129 main_cst_17 main_v109 _ _ _ rfl (by decide) (by decide), st_main_cst_17]
  rfl
theorem st_main_v110 : after ops V (Proc.devRef .tc main_v110) = val_main_v110 (F := F) (a3 V) := by
  rw [ssa_binary ops W hW V 130 main_v109 main_v94 main_v110 _ _ _ _ rfl (by decide) (by decide) (by decide), st_main_v109, st_main_v94]
  rfl
theorem st_main_v111 : after ops V (Proc.devRef .tc main_v111) = val_main_v111 (F := F) (a0 V) (a1 V) (a2 V) (a4 V) (a5 V) (a6 V) := by
  rw [ssa_unary ops W hW V 131 main_v85 main_v111 _ _ _ rfl (by decide) (by decide), st_main_v85]
  rfl
theorem st_main_v112 : after ops V (Proc.devRef .tc main_v112) = val_main_v112 (F := F) (a0 V) (a1 V) (a2 V) (a4 V) (a5 V) (a6 V) := by
  rw [ssa_reshape ops W hW V 132 main_v111 main_v112 _ _ _ _ rfl (by decide) (by decide), st_main_v111]
  rfl
theorem st_main_v113 : after ops V (Proc.devRef .tc main_v113) = val_main_v113 (F := F) (a3 V) := by
  rw [ssa_unary ops W hW V 133 main_v110 main_v113 _ _ _ rfl (by decide) (by decide), st_main_v110]
  rfl
theorem st_main_v114 : after ops V (Proc.devRef .tc main_v114) = val_main_v114 (F := F) (a0 V) (a1 V) (a2 V) (a3 V) (a4 V) (a5 V) (a6 V) := by
  rw [ssa_binary ops W hW V 134 main_v113 main_v112 main_v114 _ _ _ _ rfl (by decide) (by decide) (by decide), st_main_v113, st_main_v112]
  rfl
theorem st_main_v115 : after ops V (Proc.devRef .tc main_v115) = val_main_v115 (F := F) (a0 V) (a1 V) (a2 V) (a3 V) (a4 V) (a5 V) (a6 V) := by
  rw [ssa_binary ops W hW V 135 main_v108 main_v114 main_v115 _ _ _ _ rfl (by decide) (by decide) (by decide), st_main_v108, st_main_v114]
  rfl
theorem st_main_cst_18 : after ops V (Proc.devRef .tc main_cst_18) = val_main_cst_18 (F := F) := by
  rw [ssa_nullary ops W hW V 136 main_cst_18 _ _ rfl (by decide)]
  rfl
theorem st_main_v116 : after ops V (Proc.devRef .tc main_v116) = val_main_v116 (F := F) := by
  rw [ssa_unary ops W hW V 137 main_cst_18 main_v116 _ _ _ rfl (by decide) (by decide), st_main_cst_18]
  rfl
theorem st_main_v117 : after ops V (Proc.devRef .tc main_v117) = val_main_v117 (F := F) (a3 V) := by
  rw [ssa_binary ops W hW V 138 main_v116 main_v88 main_v117 _ _ _ _ rfl (by decide) (by decide) (by decide), st_main_v116, st_main_v88]
  rfl
theorem st_main_v118 : after ops V (Proc.devRef .tc main_v118) = val_main_v118 (F := F) (a0 V) (a1 V) (a2 V) (a4 V) (a5 V) (a6 V) := by
  rw [ssa_unary ops W hW V 139 main_v85 main_v118 _ _ _ rfl (by decide) (by decide), st_main_v85]
  rfl
theorem st_main_v119 : after ops V (Proc.devRef .tc main_v119) = val_main_v119 (F := F) (a0 V) (a1 V) (a2 V) (a4 V) (a5 V) (a6 V) := by
  rw [ssa_reshape ops W hW V 140 main_v118 main_v119 _ _ _ _ rfl (by decide) (by decide), st_main_v118]
  rfl
theorem st_main_v120 : after ops V (Proc.devRef .tc main_v120) = val_main_v120 (F := F) (a3 V) := by
  rw [ssa_unary ops W hW V 141 main_v117 main_v120 _ _ _ rfl (by decide) (by decide), st_main_v117]
  rfl
theorem st_main_v121 : after ops V (Proc.devRef .tc main_v121) = val_main_v121 (F := F) (a0 V) (a1 V) (a2 V) (a3 V) (a4 V) (a5 V) (a6 V) := by
  rw [ssa_binary ops W hW V 142 main_v120 main_v119 main_v121 _ _ _ _ rfl (by decide) (by decide) (by decide), st_main_v120, st_main_v119]
  rfl
theorem st_main_v122 : after ops V (Proc.devRef .tc main_v122) = val_main_v122 (F := F) (a0 V) (a1 V) (a2 V) (a3 V) (a4 V) (a5 V) (a6 V) := by
  rw [ssa_binary ops W hW V 143 main_v115 main_v121 main_v122 _ _ _ _ rfl (by decide) (by decide) (by decide), st_main_v115, st_main_v121]
  rfl
theorem st_main_v123 : after ops V (Proc.devRef .tc main_v123) = val_main_v123 (F := F) (a3 V) := by
  rw [ssa_binary ops W hW V 144 main_v88 main_v91 main_v123 _ _ _ _ rfl (by decide) (by decide) (by decide), st_main_v88, st_main_v91]
  rfl
theorem st_main_cst_19 : after ops V (Proc.devRef .tc main_cst_19) = val_main_cst_19 (F := F) := by
  rw [ssa_nullary ops W hW V 145 main_cst_19 _ _ rfl (by decide)]
  rfl
theorem st_main_v124 : after ops V (Proc.devRef .tc main_v124) = val_main_v124 (F := F) := by
  rw [ssa_unary ops W hW V 146 main_cst_19 main_v124 _ _ _ rfl (by decide) (by decide), st_main_cst_19]
  rfl
theorem st_main_v125 : after ops V (Proc.devRef .tc main_v125) = val_main_v125 (F := F) (a3 V) := by
  rw [ssa_binary ops W hW V 147 main_v124 main_v123 main_v125 _ _ _ _ rfl (by decide) (by decide) (by decide), st_main_v124, st_main_v123]
  rfl
theorem st_main_v126 : after ops V (Proc.devRef .tc main_v126) = val_main_v126 (F := F) (a0 V) (a1 V) (a2 V) (a4 V) (a5 V) (a6 V) := by
  rw [ssa_unary ops W hW V 148 main_v85 main_v126 _ _ _ rfl (by decide) (by decide), st_main_v85]
  rfl
theorem st_main_v127 : after ops V (Proc.devRef .tc main_v127) = val_main_v127 (F := F) (a0 V) (a1 V) (a2 V) (a4 V) (a5 V) (a6 V) := by
  rw [ssa_reshape ops W hW V 149 main_v126 main_v127 _ _ _ _ rfl (by decide) (by decide), st_main_v126]
  rfl
theorem st_main_v128 : after ops V (Proc.devRef .tc main_v128) = val_main_v128 (F := F) (a3 V) := by
  rw [ssa_unary ops W hW V 150 main_v125 main_v128 _ _ _ rfl (by decide) (by decide), st_main_v125]
  rfl
theorem st_main_v129 : after ops V (Proc.devRef .tc main_v129) = val_main_v129 (F := F) (a0 V) (a1 V) (a2 V) (a3 V) (a4 V) (a5 V) (a6 V) := by
  rw [ssa_binary ops W hW V 151 main_v128 main_v127 main_v129 _ _ _ _ rfl (by decide) (by decide) (by decide), st_main_v128, st_main_v127]
  rfl
theorem st_main_v130 : after ops V (Proc.devRef .tc main_v130) = val_main_v130 (F := F) (a0 V) (a1 V) (a2 V) (a3 V) (a4 V) (a5 V) (a6 V) := by
  rw [ssa_binary ops W hW V 152 main_v122 main_v129 main_v130 _ _ _ _ rfl (by decide) (by decide) (by decide), st_main_v122, st_main_v129]
  rfl
theorem st_main_v131 : after ops V (Proc.devRef .tc main_v131) = val_main_v131 (F := F) (a3 V) := by
  rw [ssa_binary ops W hW V 153 main_v91 main_v94 main_v131 _ _ _ _ rfl (by decide) (by decide) (by decide), st_main_v91, st_main_v94]
  rfl
theorem st_main_cst_20 : after ops V (Proc.devRef .tc main_cst_20) = val_main_cst_20 (F := F) := by
  rw [ssa_nullary ops W hW V 154 main_cst_20 _ _ rfl (by decide)]
  rfl
theorem st_main_v132 : after ops V (Proc.devRef .tc main_v132) = val_main_v132 (F := F) := by
  rw [ssa_unary ops W hW V 155 main_cst_20 main_v132 _ _ _ rfl (by decide) (by decide), st_main_cst_20]
  rfl
theorem st_main_v133 : after ops V (Proc.devRef .tc main_v133) = val_main_v133 (F := F) (a3 V) := by
  rw [ssa_binary ops W hW V 156 main_v132 main_v131 main_v133 _ _ _ _ rfl (by decide) (by decide) (by decide), st_main_v132, st_main_v131]
  rfl
theorem st_main_v134 : after ops V (Proc.devRef .tc main_v134) = val_main_v134 (F := F) (a0 V) (a1 V) (a2 V) (a4 V) (a5 V) (a6 V) := by
  rw [ssa_unary ops W hW V 157 main_v85 main_v134 _ _ _ rfl (by decide) (by decide), st_main_v85]
  rfl
theorem st_main_v135 : after ops V (Proc.devRef .tc main_v135) = val_main_v135 (F := F) (a0 V) (a1 V) (a2 V) (a4 V) (a5 V) (a6 V) := by
  rw [ssa_reshape ops W hW V 158 main_v134 main_v135 _ _ _ _ rfl (by decide) (by decide), st_main_v134]
  rfl
theorem st_main_v136 : after ops V (Proc.devRef .tc main_v136) = val_main_v136 (F := F) (a3 V) := by
  rw [ssa_unary ops W hW V 159 main_v133 main_v136 _ _ _ rfl (by decide) (by decide), st_main_v133]
  rfl
theorem st_main_v137 : after ops V (Proc.devRef .tc main_v137) = val_main_v137 (F := F) (a0 V) (a1 V) (a2 V) (a3 V) (a4 V) (a5 V) (a6 V) := by
  rw [ssa_binary ops W hW V 160 main_v136 main_v135 main_v137 _ _ _ _ rfl (by decide) (by decide) (by decide), st_main_v136, st_main_v135]
  rfl
theorem st_main_v138 : after ops V (Proc.devRef .tc main_v138) = val_main_v138 (F := F) (a0 V) (a1 V) (a2 V) (a3 V) (a4 V) (a5 V) (a6 V) := by
  rw [ssa_binary ops W hW V 161 main_v130 main_v137 main_v138 _ _ _ _ rfl (by decide) (by decide) (by decide), st_main_v130, st_main_v137]
  rfl
theorem st_main_cst_21 : after ops V (Proc.devRef .tc main_cst_21) = val_main_cst_21 (F := F) := by
  rw [ssa_nullary ops W hW V 162 main_cst_21 _ _ rfl (by decide)]
  rfl
theorem st_main_v139 : after ops V (Proc.devRef .tc main_v139) = val_main_v139 (F := F) := by
  rw [ssa_unary ops W hW V 163 main_cst_21 main_v139 _ _ _ rfl (by decide) (by decide), st_main_cst_21]
  rfl
theorem st_main_v140 : after ops V (Proc.devRef .tc main_v140) = val_main_v140 (F := F) (a3 V) := by
  rw [ssa_binary ops W hW V 164 main_v139 main_v97 main_v140 _ _ _ _ rfl (by decide) (by decide) (by decide), st_main_v139, st_main_v97]
  rfl
theorem st_main_v141 : after ops V (Proc.devRef .tc main_v141) = val_main_v141 (F := F) (a3 V) := by
  rw [ssa_binary ops W hW V 165 main_v140 main_v95 main_v141 _ _ _ _ rfl (by decide) (by decide) (by decide), st_main_v140, st_main_v95]
  rfl
theorem st_main_v142 : after ops V (Proc.devRef .tc main_v142) = val_main_v142 (F := F) (a3 V) := by
  rw [ssa_binary ops W hW V 166 main_v141 main_v96 main_v142 _ _ _ _ rfl (by decide) (by decide) (by decide), st_main_v141, st_main_v96]
  rfl
theorem st_main_cst_22 : after ops V (Proc.devRef .tc main_cst_22) = val_main_cst_22 (F := F) := by
  rw [ssa_nullary ops W hW V 167 main_cst_22 _ _ rfl (by decide)]
  rfl
theorem st_main_v143 : after ops V (Proc.devRef .tc main_v143) = val_main_v143 (F := F) := by
  rw [ssa_unary ops W hW V 168 main_cst_22 main_v143 _ _ _ rfl (by decide) (by decide), st_main_cst_22]
  rfl
theorem st_main_v144 : after ops V (Proc.devRef .tc main_v144) = val_main_v144 (F := F) (a3 V) := by
  rw [ssa_binary ops W hW V 169 main_v143 main_v142 main_v144 _ _ _ _ rfl (by decide) (by decide) (by decide), st_main_v143, st_main_v142]
  rfl
theorem st_main_v145 : after ops V (Proc.devRef .tc main_v145) = val_main_v145 (F := F) (a0 V) (a1 V) (a2 V) (a4 V) (a5 V) (a6 V) := by
  rw [ssa_unary ops W hW V 170 main_v85 main_v145 _ _ _ rfl (by decide) (by decide), st_main_v85]
  rfl
theorem st_main_v146 : after ops V (Proc.devRef .tc main_v146) = val_main_v146 (F := F) (a0 V) (a1 V) (a2 V) (a4 V) (a5 V) (a6 V) := by
  rw [ssa_reshape ops W hW V 171 main_v145 main_v146 _ _ _ _ rfl (by decide) (by decide), st_main_v145]
  rfl
theorem st_main_v147 : after ops V (Proc.devRef .tc main_v147) = val_main_v147 (F := F) (a3 V) := by
  rw [ssa_unary ops W hW V 172 main_v144 main_v147 _ _ _ rfl (by decide) (by decide), st_main_v144]
  rfl
theorem st_main_v148 : after ops V (Proc.devRef .tc main_v148) = val_main_v148 (F := F) (a0 V) (a1 V) (a2 V) (a3 V) (a4 V) (a5 V) (a6 V) := by
  rw [ssa_binary ops W hW V 173 main_v147 main_v146 main_v148 _ _ _ _ rfl (by decide) (by decide) (by decide), st_main_v147, st_main_v146]
  rfl
theorem st_main_v149 : after ops V (Proc.devRef .tc main_v149) = val_main_v149 (F := F) (a0 V) (a1 V) (a2 V) (a3 V) (a4 V) (a5 V) (a6 V) := by
  rw [ssa_binary ops W hW V 174 main_v138 main_v148 main_v149 _ _ _ _ rfl (by decide) (by decide) (by decide), st_main_v138, st_main_v148]
  rfl
theorem st_main_v150 : after ops V (Proc.devRef .tc main_v150) = val_main_v150 (F := F) (a3 V) := by
  rw [ssa_binary ops W hW V 175 main_v88 main_v94 main_v150 _ _ _ _ rfl (by decide) (by decide) (by decide), st_main_v88, st_main_v94]
  rfl
theorem st_main_cst_23 : after ops V (Proc.devRef .tc main_cst_23) = val_main_cst_23 (F := F) := by
  rw [ssa_nullary ops W hW V 176 main_cst_23 _ _ rfl (by decide)]
  rfl
theorem st_main_v151 : after ops V (Proc.devRef .tc main_v151) = val_main_v151 (F := F) := by
  rw [ssa_unary ops W hW V 177 main_cst_23 main_v151 _ _ _ rfl (by decide) (by decide), st_main_cst_23]
  rfl
theorem st_main_v152 : after ops V (Proc.devRef .tc main_v152) = val_main_v152 (F := F) (a3 V) := by
  rw [ssa_binary ops W hW V 178 main_v151 main_v150 main_v152 _ _ _ _ rfl (by decide) (by decide) (by decide), st_main_v151, st_main_v150]
  rfl
theorem st_main_v153 : after ops V (Proc.devRef .tc main_v153) = val_main_v153 (F := F) (a0 V) (a1 V) (a2 V) (a4 V) (a5 V) (a6 V) := by
  rw [ssa_unary ops W hW V 179 main_v85 main_v153 _ _ _ rfl (by decide) (by decide), st_main_v85]
  rfl
theorem st_main_v154 : after ops V (Proc.devRef .tc main_v154) = val_main_v154 (F := F) (a0 V) (a1 V) (a2 V) (a4 V) (a5 V) (a6 V) := by
  rw [ssa_reshape ops W hW V 180 main_v153 main_v154 _ _ _ _ rfl (by decide) (by decide), st_main_v153]
  rfl
theorem st_main_v155 : after ops V (Proc.devRef .tc main_v155) = val_main_v155 (F := F) (a3 V) := by
  rw [ssa_unary ops W hW V 181 main_v152 main_v155 _ _ _ rfl (by decide) (by decide), st_main_v152]
  rfl
theorem st_main_v156 : after ops V (Proc.devRef .tc main_v156) = val_main_v156 (F := F) (a0 V) (a1 V) (a2 V) (a3 V) (a4 V) (a5 V) (a6 V) := by
  rw [ssa_binary ops W hW V 182 main_v155 main_v154 main_v156 _ _ _ _ rfl (by decide) (by decide) (by decide), st_main_v155, st_main_v154]
  rfl
theorem st_main_v157 : after ops V (Proc.devRef .tc main_v157) = val_main_v157 (F := F) (a0 V) (a1 V) (a2 V) (a3 V) (a4 V) (a5 V) (a6 V) := by
  rw [ssa_binary ops W hW V 183 main_v149 main_v156 main_v157 _ _ _ _ rfl (by decide) (by decide) (by decide), st_main_v149, st_main_v156]
  rfl
theorem st_main_v158 : after ops V (Proc.devRef .tc main_v158) = val_main_v158 (F := F) (a3 V) := by
  rw [ssa_binary ops W hW V 184 main_v95 main_v96 main_v158 _ _ _ _ rfl (by decide) (by decide) (by decide), st_main_v95, st_main_v96]
  rfl
theorem st_main_cst_24 : after ops V (Proc.devRef .tc main_cst_24) = val_main_cst_24 (F := F) := by
  rw [ssa_nullary ops W hW V 185 main_cst_24 _ _ rfl (by decide)]
  rfl
theorem st_main_v159 : after ops V (Proc.devRef .tc main_v159) = val_main_v159 (F := F) := by
  rw [ssa_unary ops W hW V 186 main_cst_24 main_v159 _ _ _ rfl (by decide) (by decide), st_main_cst_24]
  rfl
theorem st_main_v160 : after ops V (Proc.devRef .tc main_v160) = val_main_v160 (F := F) (a3 V) := by
  rw [ssa_binary ops W hW V 187 main_v159 main_v158 main_v160 _ _ _ _ rfl (by decide) (by decide) (by decide), st_main_v159, st_main_v158]
  rfl
theorem st_main_v161 : after ops V (Proc.devRef .tc main_v161) = val_main_v161 (F := F) (a0 V) (a1 V) (a2 V) (a4 V) (a5 V) (a6 V) := by
  rw [ssa_unary ops W hW V 188 main_v85 main_v161 _ _ _ rfl (by decide) (by decide), st_main_v85]
  rfl
theorem st_main_v162 : after ops V (Proc.devRef .tc main_v162) = val_main_v162 (F := F) (a0 V) (a1 V) (a2 V) (a4 V) (a5 V) (a6 V) := by
  rw [ssa_reshape ops W hW V 189 main_v161 main_v162 _ _ _ _ rfl (by decide) (by decide), st_main_v161]
  rfl
theorem st_main_v163 : after ops V (Proc.devRef .tc main_v163) = val_main_v163 (F := F) (a3 V) := by
  rw [ssa_unary ops W hW V 190 main_v160 main_v163 _ _ _ rfl (by decide) (by decide), st_main_v160]
  rfl
theorem st_main_v164 : after ops V (Proc.devRef .tc main_v164) = val_main_v164 (F := F) (a0 V) (a1 V) (a2 V) (a3 V) (a4 V) (a5 V) (a6 V) := by
  rw [ssa_binary ops W hW V 191 main_v163 main_v162 main_v164 _ _ _ _ rfl (by decide) (by decide) (by decide), st_main_v163, st_main_v162]
  rfl
theorem st_main_v165 : after ops V (Proc.devRef .tc main_v165) = val_main_v165 (F := F) (a0 V) (a1 V) (a2 V) (a3 V) (a4 V) (a5 V) (a6 V) := by
  rw [ssa_binary ops W hW V 192 main_v157 main_v164 main_v165 _ _ _ _ rfl (by decide) (by decide) (by decide), st_main_v157, st_main_v164]
  rfl
theorem st_main_v166 : after ops V (Proc.devRef .tc main_v166) = val_main_v166 (F := F) (a0 V) (a1 V) (a2 V) (a3 V) (a4 V) (a5 V) (a6 V) := by
  rw [ssa_reshape ops W hW V 193 main_v165 main_v166 _ _ _ _ rfl (by decide) (by decide), st_main_v165]
  rfl
theorem st_main_v167 : after ops V (Proc.devRef .tc main_v167) = val_main_v167 (F := F) (a0 V) (a1 V) (a2 V) (a3 V) (a4 V) (a5 V) (a6 V) := by
  rw [ssa_unary ops W hW V 194 main_v166 main_v167 _ _ _ rfl (by decide) (by decide), st_main_v166]
  rfl
theorem st_main_v168 : after ops V (Proc.devRef .tc main_v168) = val_main_v168 (F := F) (a0 V) (a1 V) (a2 V) (a3 V) (a4 V) (a5 V) (a6 V) := by
  rw [ssa_unary ops W hW V 195 main_v166 main_v168 _ _ _ rfl (by decide) (by decide), st_main_v166]
  rfl
theorem st_main_v169 : after ops V (Proc.devRef .tc main_v169) = val_main_v169 (F := F) (a5 V) (a6 V) := by
  rw [ssa_unary ops W hW V 196 main_v4 main_v169 _ _ _ rfl (by decide) (by decide), st_main_v4]
  rfl
theorem st_main_v170 : after ops V (Proc.devRef .tc main_v170) = val_main_v170 (F := F) (a5 V) (a6 V) := by
  rw [ssa_unary ops W hW V 197 main_v4 main_v170 _ _ _ rfl (by decide) (by decide), st_main_v4]
  rfl

end Cert.ReferenceIdeal.Stages

end
-- ==== Proof.RefRun.lean ====
/-
  The reference program's run with every result named by its stage: every weakly fair execution ends with each result
  buffer at its operation's function composed down to the argument arrays, and the arguments unchanged. The run is the
  operation list's fold; the stage equations read the fold back one operation at a time.
-/
import proofs.«415965_j58050777972780_3_alg».proof.Proof.RefStages

set_option maxRecDepth 16384

noncomputable section

namespace Cert.ReferenceIdeal.RunValue

open Cert.ReferenceIdeal Cert.ReferenceIdeal.Gen Cert.ReferenceIdeal.RunList Cert.ReferenceIdeal.Read Cert.ReferenceIdeal.Stages
  Idealize.ShloMosaic Idealize.ShloMosaic.TcCoe Idealize.SL.Sem Idealize.ShloMosaic.StableHlo

variable {F : FTy → Type} [FloatOps F]

/-- The reference program's run: the two float results and the two mask results at their stages of the arguments, the
    arguments unchanged. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v167) = val_main_v167 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v168) = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v169) = val_main_v169 (F := F) (m ((c.tc : Thread nD τ).loc main_arg5)) (m ((c.tc : Thread nD τ).loc main_arg6))
      ∧ r.2.mem ((c.tc : Thread nD τ).loc main_v170) = val_main_v170 (F := F) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_v167).trans (st_main_v167 _), (h c main_v168).trans (st_main_v168 _),
      (h c main_v169).trans (st_main_v169 _), (h c main_v170).trans (st_main_v170 _),
      (h c main_arg0).trans (st_main_arg0 _),
      (h c main_arg1).trans (st_main_arg1 _),
      (h c main_arg2).trans (st_main_arg2 _),
      (h c main_arg3).trans (st_main_arg3 _),
      (h c main_arg4).trans (st_main_arg4 _),
      (h c main_arg5).trans (st_main_arg5 _),
      (h c main_arg6).trans (st_main_arg6 _)⟩)
    (run_after m ρ)

end Cert.ReferenceIdeal.RunValue

end
-- ==== Proof.RefCoef.lean ====
/-
  The reference's coefficients and ray directions, read at an index.

  The reference gathers, per pixel (b, h, w), one row of the point-feature table and, through the face table, three more;
  it scales the first by the point mask and the distance weight, mixes the three by the barycentric weights starting from
  zero and scales by the face mask, and lays the two 72-channel results side by side as 144 channels. Read at channel
  9 g + k this is the coefficient `Cert.Spec.chR … g k`. The ray image, flipped on both image axes, transposed and
  flattened to one row per pixel, reads at row h · 768 + w and column k as `Cert.Spec.dir … h w k`.

  A row gather here has one start index per pixel; its result at (b, h, w, 0, ch) is the table at the row the start
  index names, read signed and clamped into the table, and at column ch. Each start index is first normalised the way
  array indexing does it: a negative one has the table's length added.
-/
import proofs.«415965_j58050777972780_3_alg».proof.Proof.RefRead
import proofs.«415965_j58050777972780_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefCoef

open Cert.ReferenceIdeal Cert.ReferenceIdeal.Gen Cert.ReferenceIdeal.Read Idealize.ShloMosaic Idealize.ShloMosaic.ValueIdx

/-! ## A row gather at an index -/

section Rows
variable {α : Type}

/-- The dimension numbers of a row gather: a table `[N, C]`, one start index per pixel of a `[B, H, W, 1]` image (kept
    as `[B, H, W, 1, 1]`), the table's row axis collapsed and start-indexed, its column axis the result's offset axis. -/
abbrev rowsDims (N C B H W : Nat)
    (wf : GatherDims.WF ⟨2, ![N, C]⟩ ⟨5, ![B, H, W, 1, 1]⟩ ⟨5, ![B, H, W, 1, C]⟩ [4] [0] [] [0] [] 4 ![1, C]) :
    GatherDims ⟨2, ![N, C]⟩ ⟨5, ![B, H, W, 1, 1]⟩ ⟨5, ![B, H, W, 1, C]⟩ where
  offsetDims := [4]
  collapsedSliceDims := [0]
  operandBatchingDims := []
  startIndicesBatchingDims := []
  startIndexMap := [0]
  indexVectorDim := 4
  sliceSizes := ![1, C]
  wf := wf

/-- The row gather at `(b, h, w, 0, ch)`: column `ch` of the row the pixel's start index names, read signed and clamped
    into the table. -/
theorem gather_rows_apply {N C B H W : Nat} (hN : 0 < N)
    (wf : GatherDims.WF ⟨2, ![N, C]⟩ ⟨5, ![B, H, W, 1, 1]⟩ ⟨5, ![B, H, W, 1, C]⟩ [4] [0] [] [0] [] 4 ![1, C])
    (x : (⟨2, ![N, C]⟩ : Shape).Idx → α) (idx : IVec ⟨5, ![B, H, W, 1, 1]⟩ 32)
    (b : Fin B) (h : Fin H) (w : Fin W) (ch : Fin C) :
    Host.gather (rowsDims N C B H W wf) x idx (ix5 b h w 0 ch)
      = x (ix2 (Cert.Spec.clampRow N hN (idx (ix5 b h w 0 0))) ch) := by
  unfold Host.gather
  congr 1
  funext a
  refine Fin.ext ?_
  match a with
  | ⟨0, _⟩ =>
    -- the row axis: collapsed, so no offset; no batching; the start is the clamped start index
    show (rowsDims N C B H W wf).start (ix5 b h w 0 ch) idx 0 + (rowsDims N C B H W wf).batchCoord (ix5 b h w 0 ch) 0
      + (rowsDims N C B H W wf).offCoord (ix5 b h w 0 ch) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowsDims N C B H W wf).startIndexMap from List.mem_singleton.mpr rfl)]
    have hsi : (rowsDims N C B H W wf).siIdx (ix5 b h w 0 ch) ⟨List.idxOf (0 : Fin 2) (rowsDims N C B H W wf).startIndexMap,
        List.idxOf_lt_length_iff.2 (List.mem_singleton.mpr rfl)⟩ = ix5 b h w 0 0 := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  | ⟨1, _⟩ =>
    -- the column axis: not start-indexed, so the start is 0; the offset is the result's last coordinate
    show (rowsDims N C B H W wf).start (ix5 b h w 0 ch) idx 1 + (rowsDims N C B H W wf).batchCoord (ix5 b h w 0 ch) 1
      + (rowsDims N C B H W wf).offCoord (ix5 b h w 0 ch) 1 = ch.val
    rw [GatherDims.batchCoord_eq_zero _ _ _ List.not_mem_nil]
    have hst : (rowsDims N C B H W wf).start (ix5 b h w 0 ch) idx 1 = 0 := by
      unfold GatherDims.start
      rw [dif_neg (fun hm => absurd (show (1 : Nat) = 0 from congrArg Fin.val (List.mem_singleton.mp hm)) Nat.one_ne_zero)]
    rw [hst]
    simp only [Nat.add_zero, Nat.zero_add]
    rfl

end Rows

/-! ## The arguments -/

/-- The seven argument arrays as the specification's record. -/
def argsOf (x0 : (⟨S500000x72, .f32⟩ : BufTy).Contents (Elt Ideal)) (x1 : (⟨S2x768x768x1, .f32⟩ : BufTy).Contents (Elt Ideal))
    (x2 : (⟨S2x768x768x1x3, .f32⟩ : BufTy).Contents (Elt Ideal)) (x3 : (⟨S3x768x768, .f32⟩ : BufTy).Contents (Elt Ideal))
    (x4 : (⟨S200000x3, .i32⟩ : BufTy).Contents (Elt Ideal)) (x5 x6 : (⟨S2x768x768x1, .i32⟩ : BufTy).Contents (Elt Ideal)) :
    Cert.Spec.Args := ⟨x0, x1, x2, x3, x4, x5, x6⟩

section Stages

variable (x0 : (⟨S500000x72, .f32⟩ : BufTy).Contents (Elt Ideal)) (x1 : (⟨S2x768x768x1, .f32⟩ : BufTy).Contents (Elt Ideal))
  (x2 : (⟨S2x768x768x1x3, .f32⟩ : BufTy).Contents (Elt Ideal)) (x3 : (⟨S3x768x768, .f32⟩ : BufTy).Contents (Elt Ideal))
  (x4 : (⟨S200000x3, .i32⟩ : BufTy).Contents (Elt Ideal)) (x5 x6 : (⟨S2x768x768x1, .i32⟩ : BufTy).Contents (Elt Ideal))
  (b : Fin 2) (h w : Fin 768)

local notation "𝔸" => argsOf x0 x1 x2 x3 x4 x5 x6

/-- An index map between literal shapes at literal coordinates, one axis at a time (rank 4, rank 5). -/
local macro "axes4" : tactic =>
  `(tactic| (funext a; match a with | ⟨0, _⟩ => rfl | ⟨1, _⟩ => rfl | ⟨2, _⟩ => rfl | ⟨3, _⟩ => rfl))
local macro "axes5" : tactic =>
  `(tactic| (funext a; match a with | ⟨0, _⟩ => rfl | ⟨1, _⟩ => rfl | ⟨2, _⟩ => rfl | ⟨3, _⟩ => rfl | ⟨4, _⟩ => rfl))

/-! ## Groups 0–7: the point's features, masked and weighted -/

/-- The point's start index: the pixel's point index raised to at least zero, then normalised. -/
theorem start1_at :
    val_main_v16 (F := Ideal) x5 (ix5 b h w 0 0)
      = Cert.Spec.wrapIdx 500000#32 (IntOp.maxsi (x5 (ix4 b h w 0)) 0#32) := by
  rw [val_main_v16_apply, show idx_main_v16 (ix5 b h w 0 0) = ix4 b h w 0 from by axes4,
    val_main_v15_apply, val_main_v12_apply, val_main_v14_apply, val_main_v10_apply, val_main_v11_apply,
    val_main_v13_apply, val_main_v9_apply, val_main_c_3_apply, val_main_c_4_apply, val_main_c_2_apply]
  rfl

/-- The point's feature row, gathered. -/
theorem feat1_at (c : Fin 72) :
    val_main_v17 (F := Ideal) x0 x5 (ix5 b h w 0 c) = x0 (ix2 (Cert.Spec.rowR1 𝔸 b h w) c) := by
  have hg := gather_rows_apply (N := 500000) (by norm_num)
    (gather_S500000x72_S2x768x768x1x1_S2x768x768x1x72_4_0_n_n_0_4_172).wf x0 (val_main_v16 (F := Ideal) x5) b h w c
  rw [start1_at] at hg
  exact hg

/-- The point mask, spread over the channels. -/
theorem mask1_at (c : Fin 72) :
    val_main_v20 (F := Ideal) x5 (ix5 b h w 0 c) = Cert.Spec.m1 𝔸 b h w := by
  rw [val_main_v20_apply, show idx_main_v20 (ix5 b h w 0 c) = ix5 b h w 0 0 from by axes5,
    val_main_v19_apply, val_main_v18_apply, show idx_main_v18 (ix5 b h w 0 0) = ix4 b h w 0 from by axes4,
    val_main_v1_apply, val_main_v0_apply, val_main_c_apply]
  rfl

/-- The distance weight, spread over the channels. -/
theorem weight_at (c : Fin 72) :
    val_main_v23 (F := Ideal) x1 (ix5 b h w 0 c) = Cert.Spec.wt 𝔸 b h w := by
  rw [val_main_v23_apply, show idx_main_v23 (ix5 b h w 0 c) = ix5 b h w 0 0 from by axes5,
    val_main_v22_apply, show idx_main_v22 (ix5 b h w 0 0) = ix4 b h w 0 from by axes4,
    val_main_v8_apply, val_main_v7_apply, val_main_cst_1_apply, val_main_v6_apply, val_main_v5_apply, val_main_cst_apply]
  rfl

/-- Dropping the unit axis of `[2, 768, 768, 1, 72]`: position (b, h, w, c) of the result is (b, h, w, 0, c). -/
theorem drop_unit_at (c : Fin 72) : idx_main_v25 (ix4 b h w c) = ix5 b h w 0 c := by
  have hb := b.isLt; have hh := h.isLt; have hw := w.isLt; have hc := c.isLt
  funext a
  match a with
  | ⟨0, _⟩ => exact Fin.ext (by show (((b.val * 768 + h.val) * 768 + w.val) * 72 + c.val) / 42467328 = b.val; omega)
  | ⟨1, _⟩ => exact Fin.ext (by show (((b.val * 768 + h.val) * 768 + w.val) * 72 + c.val) / 55296 % 768 = h.val; omega)
  | ⟨2, _⟩ => exact Fin.ext (by show (((b.val * 768 + h.val) * 768 + w.val) * 72 + c.val) / 72 % 768 = w.val; omega)
  | ⟨3, _⟩ => rfl
  | ⟨4, _⟩ => exact Fin.ext (by show (((b.val * 768 + h.val) * 768 + w.val) * 72 + c.val) % 72 = c.val; omega)

/-- Channel `c` of the first half: the point's feature times the mask times the weight. -/
theorem point_at (c : Fin 72) :
    val_main_v25 (F := Ideal) x0 x1 x5 (ix4 b h w c)
      = x0 (ix2 (Cert.Spec.rowR1 𝔸 b h w) c) * Cert.Spec.m1 𝔸 b h w * Cert.Spec.wt 𝔸 b h w := by
  rw [val_main_v25_apply, drop_unit_at, val_main_v24_apply, val_main_v21_apply, feat1_at, mask1_at, weight_at]
  rfl

/-! ## Groups 8–15: the face's three vertices, mixed and masked -/

/-- The face's start index: the pixel's face index raised to at least zero, then normalised. -/
theorem startF_at :
    val_main_v33 (F := Ideal) x6 (ix5 b h w 0 0)
      = Cert.Spec.wrapIdx 200000#32 (IntOp.maxsi (x6 (ix4 b h w 0)) 0#32) := by
  rw [val_main_v33_apply, show idx_main_v33 (ix5 b h w 0 0) = ix4 b h w 0 from by axes4,
    val_main_v32_apply, val_main_v29_apply, val_main_v31_apply, val_main_v27_apply, val_main_v28_apply,
    val_main_v30_apply, val_main_v26_apply, val_main_c_6_apply, val_main_c_7_apply, val_main_c_5_apply]
  rfl

/-- The face's three vertex indices, gathered. -/
theorem tri_at (v : Fin 3) :
    val_main_v34 (F := Ideal) x4 x6 (ix5 b h w 0 v) = x4 (ix2 (Cert.Spec.rowRF 𝔸 b h w) v) := by
  have hg := gather_rows_apply (N := 200000) (by norm_num)
    (gather_S200000x3_S2x768x768x1x1_S2x768x768x1x3_4_0_n_n_0_4_13).wf x4 (val_main_v33 (F := Ideal) x6) b h w v
  rw [startF_at] at hg
  exact hg

/-- Restoring the unit axis of `[2, 768, 768, 1]`: position (b, h, w, 0) is (b, h, w, 0, 0). -/
theorem add_unit_at : idx_main_v39 (ix4 b h w 0) = ix5 b h w 0 0 := by
  have hb := b.isLt; have hh := h.isLt; have hw := w.isLt
  funext a
  match a with
  | ⟨0, _⟩ => exact Fin.ext (by show (((b.val * 768 + h.val) * 768 + w.val) * 1 + 0) / 589824 = b.val; omega)
  | ⟨1, _⟩ => exact Fin.ext (by show (((b.val * 768 + h.val) * 768 + w.val) * 1 + 0) / 768 % 768 = h.val; omega)
  | ⟨2, _⟩ => exact Fin.ext (by show (((b.val * 768 + h.val) * 768 + w.val) * 1 + 0) / 1 % 768 = w.val; omega)
  | ⟨3, _⟩ => rfl
  | ⟨4, _⟩ => rfl

/-- Vertex 0's start index: the face's first vertex index, normalised. -/
theorem startV0_at :
    val_main_v45 (F := Ideal) x4 x6 (ix5 b h w 0 0)
      = Cert.Spec.wrapIdx 500000#32 (x4 (ix2 (Cert.Spec.rowRF 𝔸 b h w) 0)) := by
  rw [val_main_v45_apply, show idx_main_v45 (ix5 b h w 0 0) = ix4 b h w 0 from by axes4,
    val_main_v44_apply, val_main_v41_apply, val_main_v43_apply, val_main_v40_apply, val_main_v42_apply,
    val_main_c_9_apply, val_main_c_10_apply, val_main_v39_apply,
    show idx_main_v39 (ix4 b h w 0) = ix5 b h w 0 0 from add_unit_at b h w,
    val_main_v38_apply, show idx_main_v38 (ix5 b h w 0 0) = ix5 b h w 0 0 from by axes5, tri_at]
  rfl

/-- Vertex 1's start index. -/
theorem startV1_at :
    val_main_v58 (F := Ideal) x4 x6 (ix5 b h w 0 0)
      = Cert.Spec.wrapIdx 500000#32 (x4 (ix2 (Cert.Spec.rowRF 𝔸 b h w) 1)) := by
  rw [val_main_v58_apply, show idx_main_v58 (ix5 b h w 0 0) = ix4 b h w 0 from by axes4,
    val_main_v57_apply, val_main_v54_apply, val_main_v56_apply, val_main_v53_apply, val_main_v55_apply,
    val_main_c_11_apply, val_main_c_12_apply, val_main_v52_apply,
    show idx_main_v52 (ix4 b h w 0) = ix5 b h w 0 0 from add_unit_at b h w,
    val_main_v51_apply, show idx_main_v51 (ix5 b h w 0 0) = ix5 b h w 0 1 from by axes5, tri_at]
  rfl

/-- Vertex 2's start index. -/
theorem startV2_at :
    val_main_v71 (F := Ideal) x4 x6 (ix5 b h w 0 0)
      = Cert.Spec.wrapIdx 500000#32 (x4 (ix2 (Cert.Spec.rowRF 𝔸 b h w) 2)) := by
  rw [val_main_v71_apply, show idx_main_v71 (ix5 b h w 0 0) = ix4 b h w 0 from by axes4,
    val_main_v70_apply, val_main_v67_apply, val_main_v69_apply, val_main_v66_apply, val_main_v68_apply,
    val_main_c_13_apply, val_main_c_14_apply, val_main_v65_apply,
    show idx_main_v65 (ix4 b h w 0) = ix5 b h w 0 0 from add_unit_at b h w,
    val_main_v64_apply, show idx_main_v64 (ix5 b h w 0 0) = ix5 b h w 0 2 from by axes5, tri_at]
  rfl

/-- The three vertices' feature rows, gathered. -/
theorem vtx0_at (c : Fin 72) :
    val_main_v46 (F := Ideal) x0 x4 x6 (ix5 b h w 0 c) = x0 (ix2 (Cert.Spec.rowRV 𝔸 b h w 0) c) := by
  have hg := gather_rows_apply (N := 500000) (by norm_num)
    (gather_S500000x72_S2x768x768x1x1_S2x768x768x1x72_4_0_n_n_0_4_172).wf x0 (val_main_v45 (F := Ideal) x4 x6) b h w c
  rw [startV0_at] at hg
  exact hg
theorem vtx1_at (c : Fin 72) :
    val_main_v59 (F := Ideal) x0 x4 x6 (ix5 b h w 0 c) = x0 (ix2 (Cert.Spec.rowRV 𝔸 b h w 1) c) := by
  have hg := gather_rows_apply (N := 500000) (by norm_num)
    (gather_S500000x72_S2x768x768x1x1_S2x768x768x1x72_4_0_n_n_0_4_172).wf x0 (val_main_v58 (F := Ideal) x4 x6) b h w c
  rw [startV1_at] at hg
  exact hg
theorem vtx2_at (c : Fin 72) :
    val_main_v72 (F := Ideal) x0 x4 x6 (ix5 b h w 0 c) = x0 (ix2 (Cert.Spec.rowRV 𝔸 b h w 2) c) := by
  have hg := gather_rows_apply (N := 500000) (by norm_num)
    (gather_S500000x72_S2x768x768x1x1_S2x768x768x1x72_4_0_n_n_0_4_172).wf x0 (val_main_v71 (F := Ideal) x4 x6) b h w c
  rw [startV2_at] at hg
  exact hg

/-- The three barycentric weights, each spread over the channels. -/
theorem bary0_at (c : Fin 72) : val_main_v47 (F := Ideal) x2 (ix5 b h w 0 c) = x2 (ix5 b h w 0 0) := by
  rw [val_main_v47_apply, show idx_main_v47 (ix5 b h w 0 c) = ix5 b h w 0 0 from by axes5,
    val_main_v37_apply, show idx_main_v37 (ix5 b h w 0 0) = ix5 b h w 0 0 from by axes5]
theorem bary1_at (c : Fin 72) : val_main_v60 (F := Ideal) x2 (ix5 b h w 0 c) = x2 (ix5 b h w 0 1) := by
  rw [val_main_v60_apply, show idx_main_v60 (ix5 b h w 0 c) = ix5 b h w 0 0 from by axes5,
    val_main_v50_apply, show idx_main_v50 (ix5 b h w 0 0) = ix5 b h w 0 1 from by axes5]
theorem bary2_at (c : Fin 72) : val_main_v73 (F := Ideal) x2 (ix5 b h w 0 c) = x2 (ix5 b h w 0 2) := by
  rw [val_main_v73_apply, show idx_main_v73 (ix5 b h w 0 c) = ix5 b h w 0 0 from by axes5,
    val_main_v63_apply, show idx_main_v63 (ix5 b h w 0 0) = ix5 b h w 0 2 from by axes5]

/-- The value the barycentric sum starts from is zero. -/
theorem zero_at (c : Fin 72) : val_main_v36 (F := Ideal) (ix5 b h w 0 c) = 0 := by
  rw [val_main_v36_apply, val_main_v35_apply, val_main_cst_8_apply, Ideal.ofBits_def, Ideal.ofBits_zero_f32]

/-- The face mask, spread over the channels. -/
theorem mask2_at (c : Fin 72) :
    val_main_v78 (F := Ideal) x6 (ix5 b h w 0 c) = Cert.Spec.m2 𝔸 b h w := by
  rw [val_main_v78_apply, show idx_main_v78 (ix5 b h w 0 c) = ix5 b h w 0 0 from by axes5,
    val_main_v77_apply, val_main_v76_apply, show idx_main_v76 (ix5 b h w 0 0) = ix4 b h w 0 from by axes4,
    val_main_v3_apply, val_main_v2_apply, val_main_c_0_apply]
  rfl

/-- Channel `c` of the second half: the barycentric mix of the three vertices' features, from zero, times the mask. -/
theorem mesh_at (c : Fin 72) :
    val_main_v80 (F := Ideal) x0 x2 x4 x6 (ix4 b h w c)
      = (0 + x2 (ix5 b h w 0 0) * x0 (ix2 (Cert.Spec.rowRV 𝔸 b h w 0) c)
          + x2 (ix5 b h w 0 1) * x0 (ix2 (Cert.Spec.rowRV 𝔸 b h w 1) c)
          + x2 (ix5 b h w 0 2) * x0 (ix2 (Cert.Spec.rowRV 𝔸 b h w 2) c)) * Cert.Spec.m2 𝔸 b h w := by
  rw [val_main_v80_apply, show idx_main_v80 (ix4 b h w c) = ix5 b h w 0 c from drop_unit_at b h w c,
    val_main_v79_apply, val_main_v75_apply, val_main_v62_apply, val_main_v49_apply, val_main_v48_apply,
    val_main_v61_apply, val_main_v74_apply, zero_at, bary0_at, bary1_at, bary2_at, vtx0_at, vtx1_at, vtx2_at, mask2_at]
  rfl

/-! ## The two halves side by side -/

/-- A channel of the concatenation below 72 is the first half's channel. -/
theorem coef_lo (c : Fin 144) (c' : Fin 72) (hc : c'.val = c.val) :
    val_main_v81 (F := Ideal) x0 x1 x2 x4 x5 x6 (ix4 b h w c) = val_main_v25 (F := Ideal) x0 x1 x5 (ix4 b h w c') := by
  unfold val_main_v81
  exact concatenate_pair_apply_left (3 : Fin S2x768x768x144.rank) _ _
    concatenates_S2x768x768x72_S2x768x768x72_S2x768x768x144_d3 (ix4 b h w c) rfl (ix4 b h w c')
    (fun a => match a with
      | ⟨0, _⟩ => rfl
      | ⟨1, _⟩ => rfl
      | ⟨2, _⟩ => rfl
      | ⟨3, _⟩ => hc)

/-- A channel of the concatenation from 72 on is the second half's channel, 72 less. -/
theorem coef_hi (c : Fin 144) (c' : Fin 72) (hc : c'.val + 72 = c.val) :
    val_main_v81 (F := Ideal) x0 x1 x2 x4 x5 x6 (ix4 b h w c) = val_main_v80 (F := Ideal) x0 x2 x4 x6 (ix4 b h w c') := by
  unfold val_main_v81
  exact concatenate_pair_apply_right (3 : Fin S2x768x768x144.rank) _ _
    concatenates_S2x768x768x72_S2x768x768x72_S2x768x768x144_d3 (ix4 b h w c) rfl rfl (ix4 b h w c')
    (fun a ha => match a, ha with
      | ⟨0, _⟩, _ => rfl
      | ⟨1, _⟩, _ => rfl
      | ⟨2, _⟩, _ => rfl
      | ⟨3, _⟩, ha => absurd rfl ha)
    hc

/-- THE COEFFICIENTS: channel 9 g + k of the reference's 144-channel image at pixel (b, h, w) is coefficient k of group g
    in the reference's order. -/
theorem coef_apply (g : Fin 16) (k : Fin 9) :
    val_main_v81 (F := Ideal) x0 x1 x2 x4 x5 x6 (ix4 b h w ⟨9 * g.val + k.val, by omega⟩)
      = Cert.Spec.chR (fun ch => x0 (ix2 (Cert.Spec.rowR1 𝔸 b h w) ch)) (fun ch => x0 (ix2 (Cert.Spec.rowRV 𝔸 b h w 0) ch))
          (fun ch => x0 (ix2 (Cert.Spec.rowRV 𝔸 b h w 1) ch)) (fun ch => x0 (ix2 (Cert.Spec.rowRV 𝔸 b h w 2) ch))
          (x2 (ix5 b h w 0 0)) (x2 (ix5 b h w 0 1)) (x2 (ix5 b h w 0 2))
          (Cert.Spec.m1 𝔸 b h w) (Cert.Spec.m2 𝔸 b h w) (Cert.Spec.wt 𝔸 b h w) g k := by
  unfold Cert.Spec.chR
  by_cases hg : g.val < 8
  · rw [dif_pos hg, coef_lo x0 x1 x2 x4 x5 x6 b h w _ ⟨9 * g.val + k.val, by omega⟩ rfl, point_at]
  · rw [dif_neg hg, coef_hi x0 x1 x2 x4 x5 x6 b h w _ ⟨9 * (g.val - 8) + k.val, by omega⟩
      (by show 9 * (g.val - 8) + k.val + 72 = 9 * g.val + k.val; omega), mesh_at]

/-! ## The ray directions -/

/-- THE DIRECTIONS: row h · 768 + w, column k of the flattened ray image is component k of the flipped ray image at
    pixel (h, w). -/
theorem dir_apply (k : Fin 3) :
    val_main_v84 (F := Ideal) x3 (ix2 ⟨h.val * 768 + w.val, by omega⟩ k) = Cert.Spec.dir 𝔸 h w k := by
  have hh := h.isLt; have hw := w.isLt; have hk := k.isLt
  have e84 : idx_main_v84 (ix2 (⟨h.val * 768 + w.val, by omega⟩ : Fin 589824) k) = ix3 h w k := by
    funext a
    match a with
    | ⟨0, _⟩ => exact Fin.ext (by show ((h.val * 768 + w.val) * 3 + k.val) / 2304 = h.val; omega)
    | ⟨1, _⟩ => exact Fin.ext (by show ((h.val * 768 + w.val) * 3 + k.val) / 3 % 768 = w.val; omega)
    | ⟨2, _⟩ => exact Fin.ext (by show ((h.val * 768 + w.val) * 3 + k.val) % 3 = k.val; omega)
  have e83 : idx_main_v83 (ix3 h w k) = ix3 k h w := by
    funext a; match a with | ⟨0, _⟩ => rfl | ⟨1, _⟩ => rfl | ⟨2, _⟩ => rfl
  rw [val_main_v84_apply, e84, val_main_v83_apply, e83]
  -- the flip: axes 1 and 2 read from the far end, axis 0 as it is
  show x3 _ = x3 _
  congr 1
  funext a
  match a with
  | ⟨0, _⟩ => rfl
  | ⟨1, _⟩ => rfl
  | ⟨2, _⟩ => rfl

end Stages

end Cert.ReferenceIdeal.RefCoef

end
-- ==== Proof.RefShade.lean ====
/-
  The reference's shading read at an index: from the [2, 768, 768, 144] array of coefficients and the [589824, 3]
  list of ray directions to the two [1, 768, 768, 16] results.

  The program flattens the image to 589824 = 768 · 768 pixels, pixel (h, w) at position h · 768 + w, views the
  144 coefficients of a pixel as 16 groups of 9, and for each batch entry b, pixel p and group g adds up nine products:
  a factor that depends on the pixel's direction (x, y, z) only, times coefficient k of the group. The nine factors are
  the real spherical harmonics of degree ≤ 2 in the order and with the signs of Cert.Spec.shR. The sum is then
  viewed as [2, 768, 768, 16] again and cut into its two batch entries.

  The steps below: the three direction components of a pixel; coefficient k of group g of pixel p for k = 0 … 8
  and the position of pixel (h, w), group g, coefficient k in the unflattened array; the eight direction factors;
  the nine-term sum; the two results.
-/
import proofs.«415965_j58050777972780_3_alg».proof.Proof.RefRead
import proofs.«415965_j58050777972780_3_alg».proof.Proof.Spec
import Idealize.ShloMosaic.Lib.Pipeline.Value
import Idealize.ShloMosaic.Lib.ValueIdx
import Idealize.ShloMosaic.Lib.ValueLayout

noncomputable section

namespace Cert.ReferenceIdeal.RefShade

open Cert.ReferenceIdeal Cert.ReferenceIdeal.Gen Cert.ReferenceIdeal.Read Idealize.ShloMosaic Idealize.ShloMosaic.ValueIdx

variable (x0 : (⟨S500000x72, .f32⟩ : BufTy).Contents (Elt Ideal)) (x1 : (⟨S2x768x768x1, .f32⟩ : BufTy).Contents (Elt Ideal))
  (x2 : (⟨S2x768x768x1x3, .f32⟩ : BufTy).Contents (Elt Ideal)) (x3 : (⟨S3x768x768, .f32⟩ : BufTy).Contents (Elt Ideal))
  (x4 : (⟨S200000x3, .i32⟩ : BufTy).Contents (Elt Ideal)) (x5 x6 : (⟨S2x768x768x1, .i32⟩ : BufTy).Contents (Elt Ideal))

/-! ## The direction of pixel p

Column c of the [589824, 3] list, cut out, flattened and stood up as [1, 589824, 1], is at (0, p, 0) the list's
entry (p, c). -/

theorem dirx_read (p : Fin 589824) :
    val_main_v88 (F := Ideal) x3 (ix3 (0 : Fin 1) p (0 : Fin 1)) = val_main_v84 (F := Ideal) x3 (ix2 p (0 : Fin 3)) := by
  have e : idx_main_v86 (idx_main_v87 (idx_main_v88 (ix3 (0 : Fin 1) p (0 : Fin 1)))) = ix2 p (0 : Fin 3) :=
    funext fun a => Fin.ext (by
      match a with
      | ⟨0, _⟩ => show p.val / 1 = p.val; omega
      | ⟨1, _⟩ => rfl)
  rw [val_main_v88_apply, val_main_v87_apply, val_main_v86_apply, e]

theorem diry_read (p : Fin 589824) :
    val_main_v91 (F := Ideal) x3 (ix3 (0 : Fin 1) p (0 : Fin 1)) = val_main_v84 (F := Ideal) x3 (ix2 p (1 : Fin 3)) := by
  have e : idx_main_v89 (idx_main_v90 (idx_main_v91 (ix3 (0 : Fin 1) p (0 : Fin 1)))) = ix2 p (1 : Fin 3) :=
    funext fun a => Fin.ext (by
      match a with
      | ⟨0, _⟩ => show p.val / 1 = p.val; omega
      | ⟨1, _⟩ => rfl)
  rw [val_main_v91_apply, val_main_v90_apply, val_main_v89_apply, e]

theorem dirz_read (p : Fin 589824) :
    val_main_v94 (F := Ideal) x3 (ix3 (0 : Fin 1) p (0 : Fin 1)) = val_main_v84 (F := Ideal) x3 (ix2 p (2 : Fin 3)) := by
  have e : idx_main_v92 (idx_main_v93 (idx_main_v94 (ix3 (0 : Fin 1) p (0 : Fin 1)))) = ix2 p (2 : Fin 3) :=
    funext fun a => Fin.ext (by
      match a with
      | ⟨0, _⟩ => show p.val / 1 = p.val; omega
      | ⟨1, _⟩ => rfl)
  rw [val_main_v94_apply, val_main_v93_apply, val_main_v92_apply, e]

/-! ## Coefficient k of group g of pixel p

Slice k of the last axis of the [2, 589824, 16, 9] view, with that axis dropped, is at (b, p, g) the view's entry
(b, p, g, k): position (b · 589824 + p) · 16 + g is the same with and without a trailing axis of length one. -/

theorem s0_read (b : Fin 2) (p : Fin 589824) (g : Fin 16) :
    val_main_v99 (F := Ideal) x0 x1 x2 x4 x5 x6 (ix3 b p g)
      = val_main_v85 (F := Ideal) x0 x1 x2 x4 x5 x6 (ix4 b p g (0 : Fin 9)) := by
  have e : idx_main_v98 (idx_main_v99 (ix3 b p g)) = ix4 b p g (0 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v99_apply, val_main_v98_apply, e]

theorem s1_read (b : Fin 2) (p : Fin 589824) (g : Fin 16) :
    val_main_v105 (F := Ideal) x0 x1 x2 x4 x5 x6 (ix3 b p g)
      = val_main_v85 (F := Ideal) x0 x1 x2 x4 x5 x6 (ix4 b p g (1 : Fin 9)) := by
  have e : idx_main_v104 (idx_main_v105 (ix3 b p g)) = ix4 b p g (1 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v105_apply, val_main_v104_apply, e]

theorem s2_read (b : Fin 2) (p : Fin 589824) (g : Fin 16) :
    val_main_v112 (F := Ideal) x0 x1 x2 x4 x5 x6 (ix3 b p g)
      = val_main_v85 (F := Ideal) x0 x1 x2 x4 x5 x6 (ix4 b p g (2 : Fin 9)) := by
  have e : idx_main_v111 (idx_main_v112 (ix3 b p g)) = ix4 b p g (2 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v112_apply, val_main_v111_apply, e]

theorem s3_read (b : Fin 2) (p : Fin 589824) (g : Fin 16) :
    val_main_v119 (F := Ideal) x0 x1 x2 x4 x5 x6 (ix3 b p g)
      = val_main_v85 (F := Ideal) x0 x1 x2 x4 x5 x6 (ix4 b p g (3 : Fin 9)) := by
  have e : idx_main_v118 (idx_main_v119 (ix3 b p g)) = ix4 b p g (3 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v119_apply, val_main_v118_apply, e]

theorem s4_read (b : Fin 2) (p : Fin 589824) (g : Fin 16) :
    val_main_v127 (F := Ideal) x0 x1 x2 x4 x5 x6 (ix3 b p g)
      = val_main_v85 (F := Ideal) x0 x1 x2 x4 x5 x6 (ix4 b p g (4 : Fin 9)) := by
  have e : idx_main_v126 (idx_main_v127 (ix3 b p g)) = ix4 b p g (4 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v127_apply, val_main_v126_apply, e]

theorem s5_read (b : Fin 2) (p : Fin 589824) (g : Fin 16) :
    val_main_v135 (F := Ideal) x0 x1 x2 x4 x5 x6 (ix3 b p g)
      = val_main_v85 (F := Ideal) x0 x1 x2 x4 x5 x6 (ix4 b p g (5 : Fin 9)) := by
  have e : idx_main_v134 (idx_main_v135 (ix3 b p g)) = ix4 b p g (5 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v135_apply, val_main_v134_apply, e]

theorem s6_read (b : Fin 2) (p : Fin 589824) (g : Fin 16) :
    val_main_v146 (F := Ideal) x0 x1 x2 x4 x5 x6 (ix3 b p g)
      = val_main_v85 (F := Ideal) x0 x1 x2 x4 x5 x6 (ix4 b p g (6 : Fin 9)) := by
  have e : idx_main_v145 (idx_main_v146 (ix3 b p g)) = ix4 b p g (6 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v146_apply, val_main_v145_apply, e]

theorem s7_read (b : Fin 2) (p : Fin 589824) (g : Fin 16) :
    val_main_v154 (F := Ideal) x0 x1 x2 x4 x5 x6 (ix3 b p g)
      = val_main_v85 (F := Ideal) x0 x1 x2 x4 x5 x6 (ix4 b p g (7 : Fin 9)) := by
  have e : idx_main_v153 (idx_main_v154 (ix3 b p g)) = ix4 b p g (7 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v154_apply, val_main_v153_apply, e]

theorem s8_read (b : Fin 2) (p : Fin 589824) (g : Fin 16) :
    val_main_v162 (F := Ideal) x0 x1 x2 x4 x5 x6 (ix3 b p g)
      = val_main_v85 (F := Ideal) x0 x1 x2 x4 x5 x6 (ix4 b p g (8 : Fin 9)) := by
  have e : idx_main_v161 (idx_main_v162 (ix3 b p g)) = ix4 b p g (8 : Fin 9) :=
    funext fun a => Fin.ext (by
      have hb := b.isLt; have hp := p.isLt; have hg := g.isLt
      match a with
      | ⟨0, _⟩ => show ((b.val * 589824 + p.val) * 16 + g.val) / 9437184 = b.val; omega
      | ⟨1, _⟩ => show ((b.val * 589824 + p.val) * 16 + g.val) / 16 % 589824 = p.val; omega
      | ⟨2, _⟩ => show ((b.val * 589824 + p.val) * 16 + g.val) / 1 % 16 = g.val; omega
      | ⟨3, _⟩ => rfl)
  rw [val_main_v162_apply, val_main_v161_apply, e]

/-- Entry (b, h · 768 + w, g, k) of the [2, 589824, 16, 9] view is entry (b, h, w, 9 g + k) of the
    [2, 768, 768, 144] array: both sit at position ((b · 768 + h) · 768 + w) · 144 + 9 g + k. -/
theorem view_read (b : Fin 2) (h w : Fin 768) (g : Fin 16) (k : Fin 9) :
    val_main_v85 (F := Ideal) x0 x1 x2 x4 x5 x6 (ix4 b (⟨h.val * 768 + w.val, by omega⟩ : Fin 589824) g k)
      = val_main_v81 (F := Ideal) x0 x1 x2 x4 x5 x6 (ix4 b h w (⟨9 * g.val + k.val, by omega⟩ : Fin 144)) := by
  have e : idx_main_v85 (ix4 b (⟨h.val * 768 + w.val, by omega⟩ : Fin 589824) g k)
      = ix4 b h w (⟨9 * g.val + k.val, by omega⟩ : Fin 144) :=
    funext fun a => Fin.ext (by
      have hb := b.isLt; have hh := h.isLt; have hw := w.isLt; have hg := g.isLt; have hk := k.isLt
      match a with
      | ⟨0, _⟩ =>
        show (((b.val * 589824 + (h.val * 768 + w.val)) * 16 + g.val) * 9 + k.val) / 84934656 = b.val; omega
      | ⟨1, _⟩ =>
        show (((b.val * 589824 + (h.val * 768 + w.val)) * 16 + g.val) * 9 + k.val) / 110592 % 768 = h.val; omega
      | ⟨2, _⟩ =>
        show (((b.val * 589824 + (h.val * 768 + w.val)) * 16 + g.val) * 9 + k.val) / 144 % 768 = w.val; omega
      | ⟨3, _⟩ =>
        show (((b.val * 589824 + (h.val * 768 + w.val)) * 16 + g.val) * 9 + k.val) % 144 = 9 * g.val + k.val; omega)
  rw [val_main_v85_apply, e]

/-! ## The eight direction factors

Each factor lives on [1, 589824, 1] and is repeated along the batch and group axes: at (b, p, g) it is its value at
(0, p, 0), a constant times a polynomial in the direction of pixel p. -/

theorem fac1_read (b : Fin 2) (p : Fin 589824) (g : Fin 16) :
    val_main_v106 (F := Ideal) x3 (ix3 b p g)
      = Cert.Spec.c1 * val_main_v84 (F := Ideal) x3 (ix2 p (1 : Fin 3)) := by
  have e : idx_main_v106 (ix3 b p g) = ix3 (0 : Fin 1) p (0 : Fin 1) :=
    funext fun a => Fin.ext (by match a with | ⟨0, _⟩ => rfl | ⟨1, _⟩ => rfl | ⟨2, _⟩ => rfl)
  rewrite [val_main_v106_apply, e, val_main_v103_apply, val_main_v102_apply, val_main_cst_16_apply, diry_read]
  rfl

theorem fac2_read (b : Fin 2) (p : Fin 589824) (g : Fin 16) :
    val_main_v113 (F := Ideal) x3 (ix3 b p g)
      = Cert.Spec.c1 * val_main_v84 (F := Ideal) x3 (ix2 p (2 : Fin 3)) := by
  have e : idx_main_v113 (ix3 b p g) = ix3 (0 : Fin 1) p (0 : Fin 1) :=
    funext fun a => Fin.ext (by match a with | ⟨0, _⟩ => rfl | ⟨1, _⟩ => rfl | ⟨2, _⟩ => rfl)
  rewrite [val_main_v113_apply, e, val_main_v110_apply, val_main_v109_apply, val_main_cst_17_apply, dirz_read]
  rfl

theorem fac3_read (b : Fin 2) (p : Fin 589824) (g : Fin 16) :
    val_main_v120 (F := Ideal) x3 (ix3 b p g)
      = Cert.Spec.c1 * val_main_v84 (F := Ideal) x3 (ix2 p (0 : Fin 3)) := by
  have e : idx_main_v120 (ix3 b p g) = ix3 (0 : Fin 1) p (0 : Fin 1) :=
    funext fun a => Fin.ext (by match a with | ⟨0, _⟩ => rfl | ⟨1, _⟩ => rfl | ⟨2, _⟩ => rfl)
  rewrite [val_main_v120_apply, e, val_main_v117_apply, val_main_v116_apply, val_main_cst_18_apply, dirx_read]
  rfl

theorem fac4_read (b : Fin 2) (p : Fin 589824) (g : Fin 16) :
    val_main_v128 (F := Ideal) x3 (ix3 b p g)
      = Cert.Spec.c2a * (val_main_v84 (F := Ideal) x3 (ix2 p (0 : Fin 3))
          * val_main_v84 (F := Ideal) x3 (ix2 p (1 : Fin 3))) := by
  have e : idx_main_v128 (ix3 b p g) = ix3 (0 : Fin 1) p (0 : Fin 1) :=
    funext fun a => Fin.ext (by match a with | ⟨0, _⟩ => rfl | ⟨1, _⟩ => rfl | ⟨2, _⟩ => rfl)
  rewrite [val_main_v128_apply, e, val_main_v125_apply, val_main_v124_apply, val_main_cst_19_apply, val_main_v123_apply,
    dirx_read, diry_read]
  rfl

theorem fac5_read (b : Fin 2) (p : Fin 589824) (g : Fin 16) :
    val_main_v136 (F := Ideal) x3 (ix3 b p g)
      = Cert.Spec.c2b * (val_main_v84 (F := Ideal) x3 (ix2 p (1 : Fin 3))
          * val_main_v84 (F := Ideal) x3 (ix2 p (2 : Fin 3))) := by
  have e : idx_main_v136 (ix3 b p g) = ix3 (0 : Fin 1) p (0 : Fin 1) :=
    funext fun a => Fin.ext (by match a with | ⟨0, _⟩ => rfl | ⟨1, _⟩ => rfl | ⟨2, _⟩ => rfl)
  rewrite [val_main_v136_apply, e, val_main_v133_apply, val_main_v132_apply, val_main_cst_20_apply, val_main_v131_apply,
    diry_read, dirz_read]
  rfl

theorem fac6_read (b : Fin 2) (p : Fin 589824) (g : Fin 16) :
    val_main_v147 (F := Ideal) x3 (ix3 b p g)
      = Cert.Spec.c2c * (Cert.Spec.two * (val_main_v84 (F := Ideal) x3 (ix2 p (2 : Fin 3))
            * val_main_v84 (F := Ideal) x3 (ix2 p (2 : Fin 3)))
          - val_main_v84 (F := Ideal) x3 (ix2 p (0 : Fin 3)) * val_main_v84 (F := Ideal) x3 (ix2 p (0 : Fin 3))
          - val_main_v84 (F := Ideal) x3 (ix2 p (1 : Fin 3)) * val_main_v84 (F := Ideal) x3 (ix2 p (1 : Fin 3))) := by
  have e : idx_main_v147 (ix3 b p g) = ix3 (0 : Fin 1) p (0 : Fin 1) :=
    funext fun a => Fin.ext (by match a with | ⟨0, _⟩ => rfl | ⟨1, _⟩ => rfl | ⟨2, _⟩ => rfl)
  rewrite [val_main_v147_apply, e, val_main_v144_apply, val_main_v143_apply, val_main_cst_22_apply, val_main_v142_apply,
    val_main_v141_apply, val_main_v140_apply, val_main_v139_apply, val_main_cst_21_apply, val_main_v97_apply,
    val_main_v95_apply, val_main_v96_apply, dirx_read, diry_read, dirz_read]
  rfl

theorem fac7_read (b : Fin 2) (p : Fin 589824) (g : Fin 16) :
    val_main_v155 (F := Ideal) x3 (ix3 b p g)
      = Cert.Spec.c2b * (val_main_v84 (F := Ideal) x3 (ix2 p (0 : Fin 3))
          * val_main_v84 (F := Ideal) x3 (ix2 p (2 : Fin 3))) := by
  have e : idx_main_v155 (ix3 b p g) = ix3 (0 : Fin 1) p (0 : Fin 1) :=
    funext fun a => Fin.ext (by match a with | ⟨0, _⟩ => rfl | ⟨1, _⟩ => rfl | ⟨2, _⟩ => rfl)
  rewrite [val_main_v155_apply, e, val_main_v152_apply, val_main_v151_apply, val_main_cst_23_apply, val_main_v150_apply,
    dirx_read, dirz_read]
  rfl

theorem fac8_read (b : Fin 2) (p : Fin 589824) (g : Fin 16) :
    val_main_v163 (F := Ideal) x3 (ix3 b p g)
      = Cert.Spec.c2e * (val_main_v84 (F := Ideal) x3 (ix2 p (0 : Fin 3)) * val_main_v84 (F := Ideal) x3 (ix2 p (0 : Fin 3))
          - val_main_v84 (F := Ideal) x3 (ix2 p (1 : Fin 3)) * val_main_v84 (F := Ideal) x3 (ix2 p (1 : Fin 3))) := by
  have e : idx_main_v163 (ix3 b p g) = ix3 (0 : Fin 1) p (0 : Fin 1) :=
    funext fun a => Fin.ext (by match a with | ⟨0, _⟩ => rfl | ⟨1, _⟩ => rfl | ⟨2, _⟩ => rfl)
  rewrite [val_main_v163_apply, e, val_main_v160_apply, val_main_v159_apply, val_main_cst_24_apply, val_main_v158_apply,
    val_main_v95_apply, val_main_v96_apply, dirx_read, diry_read]
  rfl

/-! ## The nine-term sum -/

/-- At (b, p, g) the sum is the reference's contraction of group g of pixel p with the harmonics at the pixel's
    direction. -/
theorem sum_read (b : Fin 2) (p : Fin 589824) (g : Fin 16) :
    val_main_v165 (F := Ideal) x0 x1 x2 x3 x4 x5 x6 (ix3 b p g)
      = Cert.Spec.shR (val_main_v84 (F := Ideal) x3 (ix2 p (0 : Fin 3))) (val_main_v84 (F := Ideal) x3 (ix2 p (1 : Fin 3)))
          (val_main_v84 (F := Ideal) x3 (ix2 p (2 : Fin 3)))
          (fun k => val_main_v85 (F := Ideal) x0 x1 x2 x4 x5 x6 (ix4 b p g k)) := by
  rewrite [val_main_v165_apply, val_main_v157_apply, val_main_v149_apply, val_main_v138_apply, val_main_v130_apply,
    val_main_v122_apply, val_main_v115_apply, val_main_v108_apply, val_main_v101_apply, val_main_v107_apply,
    val_main_v114_apply, val_main_v121_apply, val_main_v129_apply, val_main_v137_apply, val_main_v148_apply,
    val_main_v156_apply, val_main_v164_apply, val_main_v100_apply, val_main_cst_15_apply,
    fac1_read, fac2_read, fac3_read, fac4_read, fac5_read, fac6_read, fac7_read, fac8_read,
    s0_read, s1_read, s2_read, s3_read, s4_read, s5_read, s6_read, s7_read, s8_read]
  rfl

/-! ## The two results -/

/-- The sum viewed as [2, 768, 768, 16]: entry (b, h, w, g) is the sum's entry (b, h · 768 + w, g). -/
theorem image_read (b : Fin 2) (h w : Fin 768) (g : Fin 16) :
    val_main_v166 (F := Ideal) x0 x1 x2 x3 x4 x5 x6 (ix4 b h w g)
      = val_main_v165 (F := Ideal) x0 x1 x2 x3 x4 x5 x6 (ix3 b (⟨h.val * 768 + w.val, by omega⟩ : Fin 589824) g) := by
  have e : idx_main_v166 (ix4 b h w g) = ix3 b (⟨h.val * 768 + w.val, by omega⟩ : Fin 589824) g :=
    funext fun a => Fin.ext (by
      have hb := b.isLt; have hh := h.isLt; have hw := w.isLt; have hg := g.isLt
      match a with
      | ⟨0, _⟩ => show (((b.val * 768 + h.val) * 768 + w.val) * 16 + g.val) / 9437184 = b.val; omega
      | ⟨1, _⟩ => show (((b.val * 768 + h.val) * 768 + w.val) * 16 + g.val) / 16 % 589824 = h.val * 768 + w.val; omega
      | ⟨2, _⟩ => show (((b.val * 768 + h.val) * 768 + w.val) * 16 + g.val) % 16 = g.val; omega)
  rw [val_main_v166_apply, e]

variable (coef : Fin 2 → Fin 768 → Fin 768 → Fin 16 → Fin 9 → EReal) (d : Fin 768 → Fin 768 → Fin 3 → EReal)

/-- Entry (b, h, w, g) of the image, from the coefficients and directions given pixel by pixel. -/
theorem image_apply
    (hcoef : ∀ (b : Fin 2) (h w : Fin 768) (g : Fin 16) (k : Fin 9),
      val_main_v81 (F := Ideal) x0 x1 x2 x4 x5 x6 (ix4 b h w (⟨9 * g.val + k.val, by omega⟩ : Fin 144)) = coef b h w g k)
    (hdir : ∀ (h w : Fin 768) (k : Fin 3),
      val_main_v84 (F := Ideal) x3 (ix2 (⟨h.val * 768 + w.val, by omega⟩ : Fin 589824) k) = d h w k)
    (b : Fin 2) (h w : Fin 768) (g : Fin 16) :
    val_main_v166 (F := Ideal) x0 x1 x2 x3 x4 x5 x6 (ix4 b h w g)
      = Cert.Spec.shR (d h w 0) (d h w 1) (d h w 2) (coef b h w g) := by
  have hs : (fun k => val_main_v85 (F := Ideal) x0 x1 x2 x4 x5 x6
      (ix4 b (⟨h.val * 768 + w.val, by omega⟩ : Fin 589824) g k)) = coef b h w g :=
    funext fun k => (view_read x0 x1 x2 x4 x5 x6 b h w g k).trans (hcoef b h w g k)
  rw [image_read, sum_read, hs, hdir h w 0, hdir h w 1, hdir h w 2]

/-- The first result: batch entry 0 of the image. -/
theorem out0_apply
    (hcoef : ∀ (b : Fin 2) (h w : Fin 768) (g : Fin 16) (k : Fin 9),
      val_main_v81 (F := Ideal) x0 x1 x2 x4 x5 x6 (ix4 b h w (⟨9 * g.val + k.val, by omega⟩ : Fin 144)) = coef b h w g k)
    (hdir : ∀ (h w : Fin 768) (k : Fin 3),
      val_main_v84 (F := Ideal) x3 (ix2 (⟨h.val * 768 + w.val, by omega⟩ : Fin 589824) k) = d h w k)
    (h w : Fin 768) (g : Fin 16) :
    val_main_v167 (F := Ideal) x0 x1 x2 x3 x4 x5 x6 (ix4 (0 : Fin 1) h w g)
      = Cert.Spec.shR (d h w 0) (d h w 1) (d h w 2) (coef 0 h w g) := by
  have e : idx_main_v167 (ix4 (0 : Fin 1) h w g) = ix4 (0 : Fin 2) h w g :=
    funext fun a => Fin.ext (by match a with | ⟨0, _⟩ => rfl | ⟨1, _⟩ => rfl | ⟨2, _⟩ => rfl | ⟨3, _⟩ => rfl)
  rw [val_main_v167_apply, e]
  exact image_apply x0 x1 x2 x3 x4 x5 x6 coef d hcoef hdir 0 h w g

/-- The second result: batch entry 1 of the image. -/
theorem out1_apply
    (hcoef : ∀ (b : Fin 2) (h w : Fin 768) (g : Fin 16) (k : Fin 9),
      val_main_v81 (F := Ideal) x0 x1 x2 x4 x5 x6 (ix4 b h w (⟨9 * g.val + k.val, by omega⟩ : Fin 144)) = coef b h w g k)
    (hdir : ∀ (h w : Fin 768) (k : Fin 3),
      val_main_v84 (F := Ideal) x3 (ix2 (⟨h.val * 768 + w.val, by omega⟩ : Fin 589824) k) = d h w k)
    (h w : Fin 768) (g : Fin 16) :
    val_main_v168 (F := Ideal) x0 x1 x2 x3 x4 x5 x6 (ix4 (0 : Fin 1) h w g)
      = Cert.Spec.shR (d h w 0) (d h w 1) (d h w 2) (coef 1 h w g) := by
  have e : idx_main_v168 (ix4 (0 : Fin 1) h w g) = ix4 (1 : Fin 2) h w g :=
    funext fun a => Fin.ext (by match a with | ⟨0, _⟩ => rfl | ⟨1, _⟩ => rfl | ⟨2, _⟩ => rfl | ⟨3, _⟩ => rfl)
  rw [val_main_v168_apply, e]
  exact image_apply x0 x1 x2 x3 x4 x5 x6 coef d hcoef hdir 1 h w g

end Cert.ReferenceIdeal.RefShade

end
-- ==== Proof.RefSide.lean ====
/-
  The reference program's two float results as functions of its arguments: read at an index of [1, 768, 768, 16], result
  `b` is the shading of pixel (h, w) of batch `b`, group g, in the reference's order — the nine-term sum over the
  coefficient image and the flattened ray directions, with each coefficient and each direction component read back to
  the arguments.
-/
import proofs.«415965_j58050777972780_3_alg».proof.Proof.RefCoef
import proofs.«415965_j58050777972780_3_alg».proof.Proof.RefShade
import proofs.«415965_j58050777972780_3_alg».proof.Proof.Spec
import Idealize.ShloMosaic.Lib.ValueIdx

set_option maxRecDepth 16384

noncomputable section

namespace Cert.ReferenceIdeal.ResultValue

open Cert.ReferenceIdeal Cert.ReferenceIdeal.Gen Cert.ReferenceIdeal.Read Idealize.ShloMosaic Idealize.ShloMosaic.ValueIdx

variable (x0 : (⟨S500000x72, .f32⟩ : BufTy).Contents (Elt Ideal)) (x1 : (⟨S2x768x768x1, .f32⟩ : BufTy).Contents (Elt Ideal))
  (x2 : (⟨S2x768x768x1x3, .f32⟩ : BufTy).Contents (Elt Ideal)) (x3 : (⟨S3x768x768, .f32⟩ : BufTy).Contents (Elt Ideal))
  (x4 : (⟨S200000x3, .i32⟩ : BufTy).Contents (Elt Ideal)) (x5 x6 : (⟨S2x768x768x1, .i32⟩ : BufTy).Contents (Elt Ideal))

/-- An index of [1, 768, 768, 16] has leading coordinate 0. -/
theorem idx_eq (i : S1x768x768x16.Idx) : i = ix4 (0 : Fin 1) (i 1) (i 2) (i 3) := by
  funext a
  match a with
  | ⟨0, _⟩ => exact Fin.fin_one_eq_zero _
  | ⟨1, _⟩ => rfl
  | ⟨2, _⟩ => rfl
  | ⟨3, _⟩ => rfl

/-- The first float result at an index: batch 0's pixel in the reference's order. -/
theorem res0_apply (i : S1x768x768x16.Idx) :
    val_main_v167 (F := Ideal) x0 x1 x2 x3 x4 x5 x6 i
      = Cert.Spec.pixR (Cert.ReferenceIdeal.RefCoef.argsOf x0 x1 x2 x3 x4 x5 x6) 0 (i 1) (i 2) (i 3) :=
  (congrArg (val_main_v167 (F := Ideal) x0 x1 x2 x3 x4 x5 x6) (idx_eq i)).trans
    (Cert.ReferenceIdeal.RefShade.out0_apply x0 x1 x2 x3 x4 x5 x6 _ _
      (fun b h w g k => Cert.ReferenceIdeal.RefCoef.coef_apply x0 x1 x2 x3 x4 x5 x6 b h w g k)
      (fun h w k => Cert.ReferenceIdeal.RefCoef.dir_apply x0 x1 x2 x3 x4 x5 x6 h w k) (i 1) (i 2) (i 3))

/-- The second float result at an index: batch 1's pixel in the reference's order. -/
theorem res1_apply (i : S1x768x768x16.Idx) :
    val_main_v168 (F := Ideal) x0 x1 x2 x3 x4 x5 x6 i
      = Cert.Spec.pixR (Cert.ReferenceIdeal.RefCoef.argsOf x0 x1 x2 x3 x4 x5 x6) 1 (i 1) (i 2) (i 3) :=
  (congrArg (val_main_v168 (F := Ideal) x0 x1 x2 x3 x4 x5 x6) (idx_eq i)).trans
    (Cert.ReferenceIdeal.RefShade.out1_apply x0 x1 x2 x3 x4 x5 x6 _ _
      (fun b h w g k => Cert.ReferenceIdeal.RefCoef.coef_apply x0 x1 x2 x3 x4 x5 x6 b h w g k)
      (fun h w k => Cert.ReferenceIdeal.RefCoef.dir_apply x0 x1 x2 x3 x4 x5 x6 h w k) (i 1) (i 2) (i 3))

end Cert.ReferenceIdeal.ResultValue

end
-- ==== Proof.lean ====
/-
  The certificate: the shading kernel against its reference, over the extended reals.

  Per pixel both programs contract sixteen groups of nine coefficients with the nine real spherical harmonics of degree ≤ 2
  at the pixel's ray direction; groups 0–7 are the gathered features of the point the pixel sees, masked and weighted, groups
  8–15 the barycentric mix of the gathered features of the three vertices of the face it sees, masked. The two evaluation
  orders agree by `(−a)·b = −(a·b)`, associativity of the product and `0 + a = a`, none of which needs finite inputs; the
  two ways of turning an index word into a table row agree wherever the vertex indices stored in the face table are not
  negative, which the precondition states. The mask results are the same term of the arguments on both sides.

  The kernel's side: the region's output array is the body's value over the arrays the region finds, those arrays are read
  back to the arguments, and the results are the array's two batches. The reference's side: its operation list is read in
  single-assignment form, each result at its stage, and the stages are read at an index.
-/
import proofs.«415965_j58050777972780_3_alg».proof.Defs
import proofs.«415965_j58050777972780_3_alg».proof.Proof.Gen.Kernel
import proofs.«415965_j58050777972780_3_alg».proof.Proof.Gen.Kernel.Frame
import proofs.«415965_j58050777972780_3_alg».proof.Proof.Gen.KernelIdeal
import proofs.«415965_j58050777972780_3_alg».proof.Proof.Gen.KernelIdeal.Frame
import proofs.«415965_j58050777972780_3_alg».proof.Proof.Gen.ReferenceIdeal
import proofs.«415965_j58050777972780_3_alg».proof.Proof.Gen.Pre_finite_inputs
import proofs.«415965_j58050777972780_3_alg».proof.Proof.Spec
import proofs.«415965_j58050777972780_3_alg».proof.Proof.Algebra
import proofs.«415965_j58050777972780_3_alg».proof.Proof.PreFacts
import proofs.«415965_j58050777972780_3_alg».proof.Proof.KSide
import proofs.«415965_j58050777972780_3_alg».proof.Proof.RefRun
import proofs.«415965_j58050777972780_3_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run Cert.ReferenceIdeal.defs _ _).mono (fun _ h c => (h c).2.2.2.2) (Cert.ReferenceIdeal.RunValue.run_results (F := Ideal) m ρ)

/-- The ideal pass rewrote nothing. -/
theorem preserves : Cert.preserves_Kernel_KernelIdeal := trivial

/-- The two idealized programs, from memories agreeing on the arguments, end with equal results: each float result is,
    index by index, the reference-order shading of the arguments; each mask result the same slice of the same mask. -/
theorem algebraic : Cert.algebraic_KernelIdeal_ReferenceIdeal := by
  intro m ρ m' ρ' hpre hagree
  have hface : ∀ (c : Dev Cert.KernelIdeal.nD) i, IntOp.cmpi .sge ((Cert.KernelIdeal.HostValue.argsOf m c).face i) 0#32 = 1#1 :=
    fun c i => Cert.PreFacts.faces_nonneg _ _ _ _ _ _ _ (hpre c) i
  refine ⟨fun c => fun i => Cert.Spec.pixR (Cert.KernelIdeal.HostValue.argsOf m c) 0 (i 1) (i 2) (i 3),
    fun c => fun i => Cert.Spec.pixR (Cert.KernelIdeal.HostValue.argsOf m c) 1 (i 1) (i 2) (i 3),
    fun c => extractStridedSlice Cert.KernelIdeal.S1x768x768x1 ![0, 0, 0, 0] (Cert.KernelIdeal.TailValue.maskArr m c)
      Cert.KernelIdeal.Facts₀.slices_S2x768x768x1_S1x768x768x1_0_0_0_0,
    fun c => extractStridedSlice Cert.KernelIdeal.S1x768x768x1 ![1, 0, 0, 0] (Cert.KernelIdeal.TailValue.maskArr m c)
      Cert.KernelIdeal.Facts₀.slices_S2x768x768x1_S1x768x768x1_1_0_0_0, ?_, ?_⟩
  · -- the kernel: its results are the output array's batches, the array the kernel-order shading, equal to the reference-order one
    refine (θ_run Cert.KernelIdeal.defs _ _).mono (fun r h c => ?_) (Cert.KernelIdeal.TailValue.run_results m ρ)
    obtain ⟨h46, h47, h48, h49, hargs⟩ := h c
    refine ⟨h46.trans ?_, h47.trans ?_, h48, h49, hargs⟩
    · funext i
      rw [Cert.KernelIdeal.ResultValue.slice0_apply]
      exact Cert.Spec.pixK_eq_pixR _ 0 _ _ (hface c) _
    · funext i
      rw [Cert.KernelIdeal.ResultValue.slice1_apply]
      exact Cert.Spec.pixK_eq_pixR _ 1 _ _ (hface c) _
  · -- the reference: its results are their stages of its own arguments, which are the kernel's
    refine (θ_run Cert.ReferenceIdeal.defs _ _).mono (fun r h c => ?_) (Cert.ReferenceIdeal.RunValue.run_results (F := Ideal) m' ρ')
    obtain ⟨h167, h168, h169, h170, hargs⟩ := h c
    obtain ⟨e0, e1, e2, e3, e4, e5, e6⟩ := hagree c
    refine ⟨h167.trans ?_, h168.trans ?_, h169.trans ?_, h170.trans ?_, hargs⟩
    · rw [e0, e1, e2, e3, e4, e5, e6]
      funext i
      exact Cert.ReferenceIdeal.ResultValue.res0_apply _ _ _ _ _ _ _ i
    · rw [e0, e1, e2, e3, e4, e5, e6]
      funext i
      exact Cert.ReferenceIdeal.ResultValue.res1_apply _ _ _ _ _ _ _ i
    · rw [e5, e6]; rfl
    · rw [e5, e6]; rfl

/-- The certificate. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
